-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg1 : IVec S2x160000 32) (main_v33 : IVec S_ 1) : IVec S_ 1 :=
  let main_c_12 : IVec S_ 32 := constantI S_ 32 0#32
  let main_v34 : IVec S2x160000 32 := broadcastInDim S2x160000 ![] bcast_S_S2x160000 main_c_12
  let main_v35 : IVec S2x160000 1 := cmpi .sge main_arg1 main_v34
  let main_c_13 : IVec S_ 32 := constantI S_ 32 10000#32
  let main_v36 : IVec S2x160000 32 := broadcastInDim S2x160000 ![] bcast_S_S2x160000 main_c_13
  let main_v37 : IVec S2x160000 1 := cmpi .slt main_arg1 main_v36
  let main_v38 : IVec S2x160000 1 := andi main_v35 main_v37
  let main_c_14 : IVec S_ 1 := constantI S_ 1 1#1
  let main_v39 : IVec S_ 1 := (fun x v => Host.reduce IntOp.andi x v reducesTo_S2x160000_S_d0_1 h_S_) main_v38 main_c_14
  let main_v40 : IVec S_ 1 := andi main_v33 main_v39
  main_v40

def fn_part1 {F : FTy → Type} [FloatOps F] (main_arg1 : IVec S2x160000 32) (main_arg5 : FVec F S512x512 .f32) (main_arg6 : FVec F S512 .f32) (main_arg7 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg1 main_v33

def fn {F : FTy → Type} [FloatOps F] (main_arg0 : FVec F S10000x512 .f32) (main_arg1 : IVec S2x160000 32) (main_arg2 : FVec F S512x512 .f32) (main_arg3 : FVec F S512 .f32) (main_arg4 : FVec F S512x512 .f32) (main_arg5 : FVec F S512x512 .f32) (main_arg6 : FVec F S512 .f32) (main_arg7 : FVec F S512x512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg5 main_arg6 main_arg7 main_v13 main_v16
-- ==== Kernel.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S10000x10000 : Shape := ⟨2, ![10000, 10000]⟩
abbrev S160000x1 : Shape := ⟨2, ![160000, 1]⟩
abbrev S160000x2 : Shape := ⟨2, ![160000, 2]⟩
abbrev S10000 : Shape := ⟨1, ![10000]⟩
abbrev S10000x1 : Shape := ⟨2, ![10000, 1]⟩
abbrev S1x512 : Shape := ⟨2, ![1, 512]⟩
abbrev S80x10000 : Shape := ⟨2, ![80, 10000]⟩
abbrev S80x512 : Shape := ⟨2, ![80, 512]⟩

abbrev nBuf : Space → Nat
  | .hbm => 57
  | .vmem => 20
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S1x160000, .i32⟩
  | .hbm, ⟨9, _⟩ => ⟨S160000, .i32⟩
  | .hbm, ⟨10, _⟩ => ⟨S1x160000, .i32⟩
  | .hbm, ⟨11, _⟩ => ⟨S160000, .i32⟩
  | .hbm, ⟨12, _⟩ => ⟨S_, .f32⟩
  | .hbm, ⟨13, _⟩ => ⟨S10000x10000, .f32⟩
  | .hbm, ⟨14, _⟩ => ⟨S_, .i32⟩
  | .hbm, ⟨15, _⟩ => ⟨S160000, .i32⟩
  | .hbm, ⟨16, _⟩ => ⟨S160000, .i1⟩
  | .hbm, ⟨17, _⟩ => ⟨S_, .i32⟩
  | .hbm, ⟨18, _⟩ => ⟨S160000, .i32⟩
  | .hbm, ⟨19, _⟩ => ⟨S160000, .i32⟩
  | .hbm, ⟨20, _⟩ => ⟨S160000, .i32⟩
  | .hbm, ⟨21, _⟩ => ⟨S_, .i32⟩
  | .hbm, ⟨22, _⟩ => ⟨S160000, .i32⟩
  | .hbm, ⟨23, _⟩ => ⟨S160000, .i1⟩
  | .hbm, ⟨24, _⟩ => ⟨S_, .i32⟩
  | .hbm, ⟨25, _⟩ => ⟨S160000, .i32⟩
  | .hbm, ⟨26, _⟩ => ⟨S160000, .i32⟩
  | .hbm, ⟨27, _⟩ => ⟨S160000, .i32⟩
  | .hbm, ⟨28, _⟩ => ⟨S160000x1, .i32⟩
  | .hbm, ⟨29, _⟩ => ⟨S160000x1, .i32⟩
  | .hbm, ⟨30, _⟩ => ⟨S160000x2, .i32⟩
  | .hbm, ⟨31, _⟩ => ⟨S_, .f32⟩
  | .hbm, ⟨32, _⟩ => ⟨S160000, .f32⟩
  | .hbm, ⟨33, _⟩ => ⟨S10000x10000, .f32⟩
  | .hbm, ⟨34, _⟩ => ⟨S_, .f32⟩
  | .hbm, ⟨35, _⟩ => ⟨S10000, .f32⟩
  | .hbm, ⟨36, _⟩ => ⟨S10000x1, .f32⟩
  | .hbm, ⟨37, _⟩ => ⟨S_, .f32⟩
  | .hbm, ⟨38, _⟩ => ⟨S10000x1, .f32⟩
  | .hbm, ⟨39, _⟩ => ⟨S10000x1, .f32⟩
  | .hbm, ⟨40, _⟩ => ⟨S10000x10000, .f32⟩
  | .hbm, ⟨41, _⟩ => ⟨S10000x10000, .f32⟩
  | .hbm, ⟨42, _⟩ => ⟨S10000x10000, .bf16⟩
  | .hbm, ⟨43, _⟩ => ⟨S10000x512, .bf16⟩
  | .hbm, ⟨44, _⟩ => ⟨S512x512, .f32⟩
  | .hbm, ⟨45, _⟩ => ⟨S512x512, .bf16⟩
  | .hbm, ⟨46, _⟩ => ⟨S512x512, .f32⟩
  | .hbm, ⟨47, _⟩ => ⟨S512x512, .bf16⟩
  | .hbm, ⟨48, _⟩ => ⟨S1x512, .f32⟩
  | .hbm, ⟨49, _⟩ => ⟨S10000x512, .f32⟩
  | .hbm, ⟨50, _⟩ => ⟨S10000x512, .bf16⟩
  | .hbm, ⟨51, _⟩ => ⟨S512x512, .f32⟩
  | .hbm, ⟨52, _⟩ => ⟨S512x512, .bf16⟩
  | .hbm, ⟨53, _⟩ => ⟨S512x512, .f32⟩
  | .hbm, ⟨54, _⟩ => ⟨S512x512, .bf16⟩
  | .hbm, ⟨55, _⟩ => ⟨S1x512, .f32⟩
  | .hbm, ⟨56, _⟩ => ⟨S10000x512, .f32⟩
  | .local _ .vmem, ⟨0, _⟩ => ⟨S80x10000, .bf16⟩
  | .local _ .vmem, ⟨1, _⟩ => ⟨S80x10000, .bf16⟩
  | .local _ .vmem, ⟨2, _⟩ => ⟨S10000x512, .bf16⟩
  | .local _ .vmem, ⟨3, _⟩ => ⟨S80x512, .bf16⟩
  | .local _ .vmem, ⟨4, _⟩ => ⟨S80x512, .bf16⟩
  | .local _ .vmem, ⟨5, _⟩ => ⟨S512x512, .bf16⟩
  | .local _ .vmem, ⟨6, _⟩ => ⟨S512x512, .bf16⟩
  | .local _ .vmem, ⟨7, _⟩ => ⟨S1x512, .f32⟩
  | .local _ .vmem, ⟨8, _⟩ => ⟨S80x512, .f32⟩
  | .local _ .vmem, ⟨9, _⟩ => ⟨S80x512, .f32⟩
  | .local _ .vmem, ⟨10, _⟩ => ⟨S80x10000, .bf16⟩
  | .local _ .vmem, ⟨11, _⟩ => ⟨S80x10000, .bf16⟩
  | .local _ .vmem, ⟨12, _⟩ => ⟨S10000x512, .bf16⟩
  | .local _ .vmem, ⟨13, _⟩ => ⟨S80x512, .bf16⟩
  | .local _ .vmem, ⟨14, _⟩ => ⟨S80x512, .bf16⟩
  | .local _ .vmem, ⟨15, _⟩ => ⟨S512x512, .bf16⟩
  | .local _ .vmem, ⟨16, _⟩ => ⟨S512x512, .bf16⟩
  | .local _ .vmem, ⟨17, _⟩ => ⟨S1x512, .f32⟩
  | .local _ .vmem, ⟨18, _⟩ => ⟨S80x512, .f32⟩
  | .local _ .vmem, ⟨19, _⟩ => ⟨S80x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x10000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S80x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S80x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S80x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S10000x10000 : S_.BroadcastsInDim S10000x10000 (![] : Fin 0 → Fin S10000x10000.rank)
  bcast_S_S160000 : S_.BroadcastsInDim S160000 (![] : Fin 0 → Fin S160000.rank)
  bcast_S160000_S160000x1_0 : S160000.BroadcastsInDim S160000x1 (![0] : Fin 1 → Fin S160000x1.rank)
  concatenates_S160000x1_S160000x1_S160000x2_d1 : Shape.Concatenates [S160000x1, S160000x1] S160000x2 1
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x10000_0_1 : S10000x1.BroadcastsInDim S10000x10000 (![0, 1] : Fin 2 → Fin S10000x10000.rank)
  bitsLt_bf16_f32 : FTy.bits .bf16 < FTy.bits .f32
  transposes_S512x512_S512x512_1_0 : S512x512.Transposes [1, 0] S512x512
  shapeCasts_S512_S1x512 : S512.ShapeCasts S1x512
  inb_S80x10000_S80x10000_0_0 : ∀ a, (![0, 0] : Fin 2 → Nat) a + S80x10000.size a ≤ S80x10000.size a
  h_S80x10000 : 0 < S80x10000.numel
  shapeCasts_S80x10000_S80x10000 : S80x10000.ShapeCasts S80x10000
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S80x512_S80x512_0_0 : ∀ a, (![0, 0] : Fin 2 → Nat) a + S80x512.size a ≤ S80x512.size a
  h_S80x512 : 0 < S80x512.numel
  shapeCasts_S80x512_S80x512 : S80x512.ShapeCasts S80x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S80x512 : S1x512.Broadcasts S80x512
  scatter_S10000x10000_S160000x2_S160000_n_01_01_1_wf : ScatterDims.WF S10000x10000 S160000x2 S160000 [] [0, 1] [0, 1] 1
  dot_S80x10000_S10000x512_S80x512_1_0_0_1_n_n_wf : DotDims.WF S80x10000 S10000x512 S80x512 [1] [0] [0] [1] [] []
  dot_S80x512_S512x512_S80x512_1_0_0_1_n_n_wf : DotDims.WF S80x512 S512x512 S80x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x10000.size a ≤ S10000x10000.size a
  hwx0_0 : ∀ i : grid0.Coords, EltTy.bits .bf16 = 32 ∨ (Rect.block (s := S10000x10000) S80x10000.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x512.size a ≤ S10000x512.size a
  hwx0_1 : ∀ i : grid0.Coords, EltTy.bits .bf16 = 32 ∨ (Rect.block (s := S10000x512) S10000x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x512.size a ≤ S10000x512.size a
  hwx0_2 : ∀ i : grid0.Coords, EltTy.bits .bf16 = 32 ∨ (Rect.block (s := S10000x512) S80x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S80x512.size a ≤ S10000x512.size a
  hwx0_6 : ∀ i : grid0.Coords, EltTy.bits .f32 = 32 ∨ (Rect.block (s := S10000x512) S80x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S80x10000.size a ≤ S10000x10000.size a
  hwx1_0 : ∀ i : grid1.Coords, EltTy.bits .bf16 = 32 ∨ (Rect.block (s := S10000x10000) S80x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S80x512.size a ≤ S10000x512.size a
  hwx1_2 : ∀ i : grid1.Coords, EltTy.bits .bf16 = 32 ∨ (Rect.block (s := S10000x512) S80x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S80x512.size a ≤ S10000x512.size a
  hwx1_6 : ∀ i : grid1.Coords, EltTy.bits .f32 = 32 ∨ (Rect.block (s := S10000x512) S80x512.size (cc1_transform_6 i) (hinb1_6 i)).WholeWords (EltTy.packing .f32)

variable [Facts₀]

def scatter_S10000x10000_S160000x2_S160000_n_01_01_1 : ScatterDims S10000x10000 S160000x2 S160000 where
  updateWindowDims := []
  insertedWindowDims := [0, 1]
  scatterDimsToOperandDims := [0, 1]
  indexVectorDim := 1
  wf := scatter_S10000x10000_S160000x2_S160000_n_01_01_1_wf
def dot_S80x10000_S10000x512_S80x512_1_0_0_1_n_n : DotDims S80x10000 S10000x512 S80x512 where
  lhsContracting := [1]
  rhsContracting := [0]
  lhsNonContracting := [0]
  rhsNonContracting := [1]
  lhsBatch := []
  rhsBatch := []
  wf := dot_S80x10000_S10000x512_S80x512_1_0_0_1_n_n_wf
def dot_S80x512_S512x512_S80x512_1_0_0_1_n_n : DotDims S80x512 S512x512 S80x512 where
  lhsContracting := [1]
  rhsContracting := [0]
  lhsNonContracting := [0]
  rhsNonContracting := [1]
  lhsBatch := []
  rhsBatch := []
  wf := dot_S80x512_S512x512_S80x512_1_0_0_1_n_n_wf

abbrev win0_0 : Pipeline.Window sig grid0 :=
  Pipeline.Window.ofSpec (Memref.whole main_v26) S80x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S10000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S80x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S80x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S80x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S80x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S80x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S1x512 : Shape := ⟨2, ![1, 512]⟩

abbrev nBuf : Space → Nat
  | .hbm => 85
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S1x160000, .i32⟩
  | .hbm, ⟨9, _⟩ => ⟨S160000, .i32⟩
  | .hbm, ⟨10, _⟩ => ⟨S1x160000, .i32⟩
  | .hbm, ⟨11, _⟩ => ⟨S160000, .i32⟩
  | .hbm, ⟨12, _⟩ => ⟨S_, .i32⟩
  | .hbm, ⟨13, _⟩ => ⟨S160000, .i32⟩
  | .hbm, ⟨14, _⟩ => ⟨S160000, .i1⟩
  | .hbm, ⟨15, _⟩ => ⟨S_, .i32⟩
  | .hbm, ⟨16, _⟩ => ⟨S160000, .i32⟩
  | .hbm, ⟨17, _⟩ => ⟨S160000, .i32⟩
  | .hbm, ⟨18, _⟩ => ⟨S160000, .i32⟩
  | .hbm, ⟨19, _⟩ => ⟨S160000x1, .i32⟩
  | .hbm, ⟨20, _⟩ => ⟨S160000x512, .f32⟩
  | .hbm, ⟨21, _⟩ => ⟨S_, .f32⟩
  | .hbm, ⟨22, _⟩ => ⟨S10000x512, .f32⟩
  | .hbm, ⟨23, _⟩ => ⟨S160000x1, .i32⟩
  | .hbm, ⟨24, _⟩ => ⟨S10000x512, .f32⟩
  | .hbm, ⟨25, _⟩ => ⟨S_, .f32⟩
  | .hbm, ⟨26, _⟩ => ⟨S160000, .f32⟩
  | .hbm, ⟨27, _⟩ => ⟨S_, .f32⟩
  | .hbm, ⟨28, _⟩ => ⟨S10000, .f32⟩
  | .hbm, ⟨29, _⟩ => ⟨S160000x1, .i32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x512, .f32⟩
  | .hbm, ⟨36, _⟩ => ⟨S10000x512, .f32⟩
  | .hbm, ⟨37, _⟩ => ⟨S512x512, .f32⟩
  | .hbm, ⟨38, _⟩ => ⟨S10000x512, .f32⟩
  | .hbm, ⟨39, _⟩ => ⟨S1x512, .f32⟩
  | .hbm, ⟨40, _⟩ => ⟨S10000x512, .f32⟩
  | .hbm, ⟨41, _⟩ => ⟨S10000x512, .f32⟩
  | .hbm, ⟨42, _⟩ => ⟨S512x512, .f32⟩
  | .hbm, ⟨43, _⟩ => ⟨S10000x512, .f32⟩
  | .hbm, ⟨44, _⟩ => ⟨S10000x512, .f32⟩
  | .hbm, ⟨45, _⟩ => ⟨S_, .f32⟩
  | .hbm, ⟨46, _⟩ => ⟨S10000x512, .f32⟩
  | .hbm, ⟨47, _⟩ => ⟨S10000x512, .f32⟩
  | .hbm, ⟨48, _⟩ => ⟨S1x160000, .i32⟩
  | .hbm, ⟨49, _⟩ => ⟨S160000, .i32⟩
  | .hbm, ⟨50, _⟩ => ⟨S1x160000, .i32⟩
  | .hbm, ⟨51, _⟩ => ⟨S160000, .i32⟩
  | .hbm, ⟨52, _⟩ => ⟨S_, .i32⟩
  | .hbm, ⟨53, _⟩ => ⟨S160000, .i32⟩
  | .hbm, ⟨54, _⟩ => ⟨S160000, .i1⟩
  | .hbm, ⟨55, _⟩ => ⟨S_, .i32⟩
  | .hbm, ⟨56, _⟩ => ⟨S160000, .i32⟩
  | .hbm, ⟨57, _⟩ => ⟨S160000, .i32⟩
  | .hbm, ⟨58, _⟩ => ⟨S160000, .i32⟩
  | .hbm, ⟨59, _⟩ => ⟨S160000x1, .i32⟩
  | .hbm, ⟨60, _⟩ => ⟨S160000x512, .f32⟩
  | .hbm, ⟨61, _⟩ => ⟨S_, .f32⟩
  | .hbm, ⟨62, _⟩ => ⟨S10000x512, .f32⟩
  | .hbm, ⟨63, _⟩ => ⟨S160000x1, .i32⟩
  | .hbm, ⟨64, _⟩ => ⟨S10000x512, .f32⟩
  | .hbm, ⟨65, _⟩ => ⟨S_, .f32⟩
  | .hbm, ⟨66, _⟩ => ⟨S160000, .f32⟩
  | .hbm, ⟨67, _⟩ => ⟨S_, .f32⟩
  | .hbm, ⟨68, _⟩ => ⟨S10000, .f32⟩
  | .hbm, ⟨69, _⟩ => ⟨S160000x1, .i32⟩
  | .hbm, ⟨70, _⟩ => ⟨S10000, .f32⟩
  | .hbm, ⟨71, _⟩ => ⟨S_, .f32⟩
  | .hbm, ⟨72, _⟩ => ⟨S10000, .f32⟩
  | .hbm, ⟨73, _⟩ => ⟨S10000, .f32⟩
  | .hbm, ⟨74, _⟩ => ⟨S10000x1, .f32⟩
  | .hbm, ⟨75, _⟩ => ⟨S10000x512, .f32⟩
  | .hbm, ⟨76, _⟩ => ⟨S10000x512, .f32⟩
  | .hbm, ⟨77, _⟩ => ⟨S512x512, .f32⟩
  | .hbm, ⟨78, _⟩ => ⟨S10000x512, .f32⟩
  | .hbm, ⟨79, _⟩ => ⟨S1x512, .f32⟩
  | .hbm, ⟨80, _⟩ => ⟨S10000x512, .f32⟩
  | .hbm, ⟨81, _⟩ => ⟨S10000x512, .f32⟩
  | .hbm, ⟨82, _⟩ => ⟨S512x512, .f32⟩
  | .hbm, ⟨83, _⟩ => ⟨S10000x512, .f32⟩
  | .hbm, ⟨84, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  transposes_S512x512_S512x512_1_0 : S512x512.Transposes [1, 0] S512x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S10000x512_S512x512_S10000x512_1_0_0_1_n_n_wf : DotDims.WF S10000x512 S512x512 S10000x512 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.K.Region0.lean ====
/-
  Kernel region 0 of the program: one layer's row tiles. At grid point t the body reads the 80 × 10000 tile of the
  normalised count matrix (window 0), the whole feature array (window 1), the same array's 80 × 512 row tile (window 2),
  the two transposed weight matrices (windows 3 and 4) and the bias row (window 5), and stores ONE value over the
  whole 80 × 512 output tile (window 6): (tile · features) · Wl + bias + rows · Wr (the first layer's body rectifies it, the second's does not: the
  difference is inside the payload the store names, and nothing here opens it).
  Stated here at a PARAMETER V (the buffer contents when the region is entered) and for any float instance: what each
  window's block is, what the body leaves in the output tile as a function of the six input blocks, the body's triple,
  the proof data of the pipeline, and the body obligation at every grid point. Windows 1 and 2 read ONE array, so
  each holds half of it.
-/
import proofs.«405564_j1906965479432_1_alg».proof.Proof.Gen.Kernel.Launch
import proofs.«405564_j1906965479432_1_alg».proof.Proof.Gen.Kernel.Skeleton
import proofs.«405564_j1906965479432_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## The body's accesses: each a whole staging buffer -/

abbrev rA0 : Rect S80x10000 := Rect.unit (s := S80x10000) ![0, 0] S80x10000.size inb_S80x10000_S80x10000_0_0
abbrev rX0 : Rect S10000x512 := Rect.unit (s := S10000x512) ![0, 0] S10000x512.size inb_S10000x512_S10000x512_0_0
abbrev rT0 : Rect S80x512 := Rect.unit (s := S80x512) ![0, 0] S80x512.size inb_S80x512_S80x512_0_0
abbrev rW0 : Rect S512x512 := Rect.unit (s := S512x512) ![0, 0] S512x512.size inb_S512x512_S512x512_0_0
abbrev rB0 : Rect S1x512 := Rect.unit (s := S1x512) ![0, 0] S1x512.size inb_S1x512_S1x512_0_0

/-! ## What the body leaves in the output tile -/

/-- The output tile after the body, from the six input blocks (in window order): its one store, over the whole tile,
    of the layer's value on the loaded blocks. -/
def out0_6 (x0 : Vec F S80x10000 .bf16) (x1 : Vec F S10000x512 .bf16) (x2 : Vec F S80x512 .bf16)
    (x3 x4 : Vec F S512x512 .bf16) (x5 : Vec F S1x512 .f32) : Vec F S80x512 .f32 :=
  View.canon [⟨rT0, k0_pay1 (View.ld x0 rA0) (View.ld x1 rX0) (View.ld x3 rW0) (View.ld x2 rT0) (View.ld x4 rW0) (View.ld x5 rB0)⟩]

/-- The one store covers the tile. -/
theorem cover0_6 (p0 : Vec F S80x512 .f32) (y : S80x512.Idx) :
    ∃ pc ∈ ([⟨rT0, p0⟩] : List (View.Piece (Elt F) S80x512 .f32)), y ∈ pc.1.set :=
  View.cover_of_tiled [⟨rT0, p0⟩] S80x512.size (by rfl) y

/-! ## The body's triple -/

set_option maxHeartbeats 4000000 in
/-- The kernel body on whole staging memrefs, the six inputs' at read contents and the output's at anything, runs to
    the continuation holding the inputs as they were and the output tile at `out0_6` of them. -/
theorem sound_kernel0 (c : Dev nD) (E : Set ℕ) (i : grid0.Coords)
    (arg1 : Memref sig .tc .vmem S80x10000 .bf16) (harg1 : arg1.IsWhole) (arg2 : Memref sig .tc .vmem S10000x512 .bf16) (harg2 : arg2.IsWhole)
    (arg3 : Memref sig .tc .vmem S80x512 .bf16) (harg3 : arg3.IsWhole) (arg4 : Memref sig .tc .vmem S512x512 .bf16) (harg4 : arg4.IsWhole)
    (arg5 : Memref sig .tc .vmem S512x512 .bf16) (harg5 : arg5.IsWhole) (arg6 : Memref sig .tc .vmem S1x512 .f32) (harg6 : arg6.IsWhole)
    (arg7 : Memref sig .tc .vmem S80x512 .f32) (harg7 : arg7.IsWhole)
    (x0 : Vec F S80x10000 .bf16) (x1 : Vec F S10000x512 .bf16) (x2 : Vec F S80x512 .bf16) (x3 x4 : Vec F S512x512 .bf16) (x5 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__sage_layer_kernel i arg1 harg1 arg2 harg2 arg3 harg3 arg4 harg4 arg5 harg5 arg6 harg6 arg7 harg7) K := by
  simp only [cc0__sage_layer_kernel_eq_skeleton]; unfold cc0__sage_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_6 _)

/-! ## The pipeline's proof data -/

/-- The proof data of pipeline 0 on core `c`: the arrays as the region finds them; after the body at point `t` each
    input's buffer at its block and the output's at `out0_6` of the input blocks; the invariant the scoped rest and
    the generator register, untouched; nothing owed; the two windows on the feature array hold a half each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q w := match w with
    | ⟨1, _⟩ => fullShare.left
    | ⟨2, _⟩ => fullShare.right
    | _ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by
  dsimp only [dat0]

/-- Each input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-! ## The body obligation, at a generic point -/

/-- What the body is called with at point `t`: the invariant, the core's debts, and each window's current staging
    buffer at what the pipeline put or left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same invariant and debts, each staging buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: every input's staging buffer holds that window's block, so the body's triple applies
    at the six blocks; the invariant and the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t)
    (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Kernel region 1 of the program: one layer's row tiles. At grid point t the body reads the 80 × 10000 tile of the
  normalised count matrix (window 0), the whole feature array (window 1), the same array's 80 × 512 row tile (window 2),
  the two transposed weight matrices (windows 3 and 4) and the bias row (window 5), and stores ONE value over the
  whole 80 × 512 output tile (window 6): (tile · features) · Wl + bias + rows · Wr (the first layer's body rectifies it, the second's does not: the
  difference is inside the payload the store names, and nothing here opens it).
  Stated here at a PARAMETER V (the buffer contents when the region is entered) and for any float instance: what each
  window's block is, what the body leaves in the output tile as a function of the six input blocks, the body's triple,
  the proof data of the pipeline, and the body obligation at every grid point. Windows 1 and 2 read ONE array, so
  each holds half of it.
-/
import proofs.«405564_j1906965479432_1_alg».proof.Proof.Gen.Kernel.Launch
import proofs.«405564_j1906965479432_1_alg».proof.Proof.Gen.Kernel.Skeleton
import proofs.«405564_j1906965479432_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The body's accesses: each a whole staging buffer -/

abbrev rA1 : Rect S80x10000 := Rect.unit (s := S80x10000) ![0, 0] S80x10000.size inb_S80x10000_S80x10000_0_0
abbrev rX1 : Rect S10000x512 := Rect.unit (s := S10000x512) ![0, 0] S10000x512.size inb_S10000x512_S10000x512_0_0
abbrev rT1 : Rect S80x512 := Rect.unit (s := S80x512) ![0, 0] S80x512.size inb_S80x512_S80x512_0_0
abbrev rW1 : Rect S512x512 := Rect.unit (s := S512x512) ![0, 0] S512x512.size inb_S512x512_S512x512_0_0
abbrev rB1 : Rect S1x512 := Rect.unit (s := S1x512) ![0, 0] S1x512.size inb_S1x512_S1x512_0_0

/-! ## What the body leaves in the output tile -/

/-- The output tile after the body, from the six input blocks (in window order): its one store, over the whole tile,
    of the layer's value on the loaded blocks. -/
def out1_6 (x0 : Vec F S80x10000 .bf16) (x1 : Vec F S10000x512 .bf16) (x2 : Vec F S80x512 .bf16)
    (x3 x4 : Vec F S512x512 .bf16) (x5 : Vec F S1x512 .f32) : Vec F S80x512 .f32 :=
  View.canon [⟨rT1, k1_pay1 (View.ld x0 rA1) (View.ld x1 rX1) (View.ld x3 rW1) (View.ld x2 rT1) (View.ld x4 rW1) (View.ld x5 rB1)⟩]

/-- The one store covers the tile. -/
theorem cover1_6 (p0 : Vec F S80x512 .f32) (y : S80x512.Idx) :
    ∃ pc ∈ ([⟨rT1, p0⟩] : List (View.Piece (Elt F) S80x512 .f32)), y ∈ pc.1.set :=
  View.cover_of_tiled [⟨rT1, p0⟩] S80x512.size (by rfl) y

/-! ## The body's triple -/

set_option maxHeartbeats 4000000 in
/-- The kernel body on whole staging memrefs, the six inputs' at read contents and the output's at anything, runs to
    the continuation holding the inputs as they were and the output tile at `out1_6` of them. -/
theorem sound_kernel1 (c : Dev nD) (E : Set ℕ) (i : grid1.Coords)
    (arg1 : Memref sig .tc .vmem S80x10000 .bf16) (harg1 : arg1.IsWhole) (arg2 : Memref sig .tc .vmem S10000x512 .bf16) (harg2 : arg2.IsWhole)
    (arg3 : Memref sig .tc .vmem S80x512 .bf16) (harg3 : arg3.IsWhole) (arg4 : Memref sig .tc .vmem S512x512 .bf16) (harg4 : arg4.IsWhole)
    (arg5 : Memref sig .tc .vmem S512x512 .bf16) (harg5 : arg5.IsWhole) (arg6 : Memref sig .tc .vmem S1x512 .f32) (harg6 : arg6.IsWhole)
    (arg7 : Memref sig .tc .vmem S80x512 .f32) (harg7 : arg7.IsWhole)
    (x0 : Vec F S80x10000 .bf16) (x1 : Vec F S10000x512 .bf16) (x2 : Vec F S80x512 .bf16) (x3 x4 : Vec F S512x512 .bf16) (x5 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__sage_layer_kernel i arg1 harg1 arg2 harg2 arg3 harg3 arg4 harg4 arg5 harg5 arg6 harg6 arg7 harg7) K := by
  simp only [cc1__sage_layer_kernel_eq_skeleton]; unfold cc1__sage_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_6 _)

/-! ## The pipeline's proof data -/

/-- The proof data of pipeline 1 on core `c`: the arrays as the region finds them; after the body at point `t` each
    input's buffer at its block and the output's at `out1_6` of the input blocks; the invariant the scoped rest and
    the generator register, untouched; nothing owed; the two windows on the feature array hold a half each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨1, _⟩ => fullShare.left
    | ⟨2, _⟩ => fullShare.right
    | _ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by
  dsimp only [dat1]

/-- Each input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body obligation, at a generic point -/

/-- What the body is called with at point `t`: the invariant, the core's debts, and each window's current staging
    buffer at what the pipeline put or left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns: the same invariant and debts, each staging buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: every input's staging buffer holds that window's block, so the body's triple applies
    at the six blocks; the invariant and the debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t)
    (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Shares0.lean ====
/-
  Region 0 enters holding every unscoped buffer of the core whole, and leaves them so. Its pipeline wants each
  WINDOW's array at that window's share. Six distinct buffers stand behind the seven windows: the feature array
  is read by two windows, so its full share is cut into a left and a right half on the way in and the halves are
  joined on the way out; every other array is one window's, at the full share. The output array comes back at what
  the write-backs left in it; the inputs come back as they went in.
-/
import proofs.«405564_j1906965479432_1_alg».proof.Proof.K.Region0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The six buffers behind the seven windows -/

/-- The windows whose arrays are pairwise distinct buffers: every window but window 2, whose array is window 1's. -/
abbrev reps0 : List (Fin 7) := [0, 1, 3, 4, 5, 6]

/-- Every window's array is the array of one of those six. -/
theorem image_arrRef0 :
    Finset.univ.image (Pipeline.arrRef spec0) = reps0.toFinset.image (Pipeline.arrRef spec0) := by decide

/-- Those six windows' arrays are pairwise distinct buffers. -/
theorem injOn_arrRef0 : Set.InjOn (Pipeline.arrRef spec0) (reps0.toFinset : Finset (Fin 7)) := by
  have h : ∀ a ∈ reps0.toFinset, ∀ b ∈ reps0.toFinset, Pipeline.arrRef spec0 a = Pipeline.arrRef spec0 b → a = b := by decide
  exact fun a ha b hb e => h a (Finset.mem_coe.mp ha) b (Finset.mem_coe.mp hb) e

/-- Window 2 reads window 1's array. -/
theorem arrRef_shared0 : Pipeline.arrRef spec0 2 = Pipeline.arrRef spec0 1 := by decide

/-- The distinct buffers behind the arrays, one by one. -/
theorem arrBufs_chain0 (c : Dev nD) (V0 : (b : Ref sig .tc) → Buf (Elt F) ((c : Thread nD τ).loc b)) :
    (Pipeline.arrBufs spec0 c V0 : sProp 𝕄)
      = iprop((((c : Thread nD τ).loc (Pipeline.arrRef spec0 0)) ↦{fullShare} V0 (Pipeline.arrRef spec0 0))
        ∗ (((c : Thread nD τ).loc (Pipeline.arrRef spec0 1)) ↦{fullShare} V0 (Pipeline.arrRef spec0 1))
        ∗ (((c : Thread nD τ).loc (Pipeline.arrRef spec0 3)) ↦{fullShare} V0 (Pipeline.arrRef spec0 3))
        ∗ (((c : Thread nD τ).loc (Pipeline.arrRef spec0 4)) ↦{fullShare} V0 (Pipeline.arrRef spec0 4))
        ∗ (((c : Thread nD τ).loc (Pipeline.arrRef spec0 5)) ↦{fullShare} V0 (Pipeline.arrRef spec0 5))
        ∗ (((c : Thread nD τ).loc (Pipeline.arrRef spec0 6)) ↦{fullShare} V0 (Pipeline.arrRef spec0 6))) := by
  unfold Pipeline.arrBufs
  rw [image_arrRef0, bigSep_image_of_injOn injOn_arrRef0, bigSep_eq_bigSepL reps0 (by decide)]
  rfl

/-- The pipeline's arrays, window by window: each a whole buffer at its window's share. -/
theorem arrays_chain0 (c : Dev nD) (G : (w : Fin cfg0.W) → Buf (Elt F) ((cfg0.win w).arr.view.loc (c : Thread nD τ))) :
    ((dat0 V c).arrays G : sProp 𝕄)
      = iprop((((c : Thread nD τ).loc (Pipeline.arrRef spec0 0)) ↦{fullShare} G (0 : Fin 7))
        ∗ (((c : Thread nD τ).loc (Pipeline.arrRef spec0 1)) ↦{fullShare.left} G (1 : Fin 7))
        ∗ (((c : Thread nD τ).loc (Pipeline.arrRef spec0 2)) ↦{fullShare.right} G (2 : Fin 7))
        ∗ (((c : Thread nD τ).loc (Pipeline.arrRef spec0 3)) ↦{fullShare} G (3 : Fin 7))
        ∗ (((c : Thread nD τ).loc (Pipeline.arrRef spec0 4)) ↦{fullShare} G (4 : Fin 7))
        ∗ (((c : Thread nD τ).loc (Pipeline.arrRef spec0 5)) ↦{fullShare} G (5 : Fin 7))
        ∗ (((c : Thread nD τ).loc (Pipeline.arrRef spec0 6)) ↦{fullShare} G (6 : Fin 7))) := by
  have h : ((dat0 V c).arrays G : sProp 𝕄)
      = bigSep Finset.univ fun w : Fin 7 => (((c : Thread nD τ).loc (Pipeline.arrRef spec0 w)) ↦{(dat0 V c).share w} G w : sProp 𝕄) := by
    unfold Dat.arrays
    exact bigSep_congr fun w _ => by rw [(arr_whole0 w).set_eq_univ]
  rw [h, bigSep_W0]
  rfl

/-- Cutting the second conjunct of a chain in two. -/
theorem cut_second0 {M : Type} [URA M] {P0 P1 Q1 Q2 R : sProp M} (h : P1 ⊣⊢ iprop(Q1 ∗ Q2)) :
    iprop(P0 ∗ P1 ∗ R) = iprop(P0 ∗ Q1 ∗ Q2 ∗ R) :=
  equiv_iff.mp ⟨sep_mono .rfl ((sep_mono h.1 .rfl).trans sep_assoc.1), sep_mono .rfl (sep_assoc.2.trans (sep_mono h.2 .rfl))⟩

/-- The distinct buffers at the full share ARE the windows' arrays at their shares, at contents read off one
    valuation: the feature array's full share is its left half and its right half, both at the same contents; the
    other five buffers are one window's each and go across as they are. -/
theorem arrBufs_arrays0 (c : Dev nD) (V0 : (b : Ref sig .tc) → Buf (Elt F) ((c : Thread nD τ).loc b))
    (G : (w : Fin cfg0.W) → Buf (Elt F) ((cfg0.win w).arr.view.loc (c : Thread nD τ)))
    (hG : ∀ w, G w = V0 (Pipeline.arrRef spec0 w)) :
    (Pipeline.arrBufs spec0 c V0 : sProp 𝕄) = (dat0 V c).arrays G := by
  obtain rfl : G = fun w => V0 (Pipeline.arrRef spec0 w) := funext hG
  rw [arrBufs_chain0, arrays_chain0]
  exact cut_second0 (pointsTo_share (PosShare.mem_left_op_right fullShare))

/-- ENTRY: the core's unscoped buffers at `V c` are the pipeline's arrays at the proof data's entry contents, each at
    its window's share, and the unscoped buffers that are no window's array. -/
theorem arrays_of_bufs0 (c : Dev nD) :
    (unscopedBufs c (V c) : sProp 𝕄)
      ⊢ iprop((dat0 V c).arrays ((dat0 V c).arrAt · 0) ∗ Pipeline.unscopedRest spec0 c (V c)) := by
  rw [Pipeline.unscopedBufs_split₀ (fun _ : Unit => cfg0) () winFacts₀0.arr_unscoped c (V c)]
  exact sep_mono (Entails.of_eq (arrBufs_arrays0 V c (V c) _ fun w =>
    (show (dat0 V c).arrAt w 0 = (dat0 V c).A w from rfl).trans (A_eq0 V c w))) .rfl

/-- EXIT: the arrays at their final contents and that rest are the core's unscoped buffers at any valuation `V'` that
    has every window's array at its final contents and agrees with `V c` off the arrays. -/
theorem bufs_of_arrays0 (c : Dev nD) (V' : (b : Ref sig .tc) → Buf (Elt F) ((c : Thread nD τ).loc b))
    (hF : ∀ w, (dat0 V c).arrAt w cfg0.N = V' (Pipeline.arrRef spec0 w))
    (hrest : ∀ b, b ∉ Finset.univ.image (Pipeline.arrRef spec0) → V' b = V c b) :
    iprop((dat0 V c).arrays ((dat0 V c).arrAt · cfg0.N) ∗ Pipeline.unscopedRest spec0 c (V c))
      ⊢ (unscopedBufs c V' : sProp 𝕄) := by
  rw [Pipeline.unscopedBufs_split₀ (fun _ : Unit => cfg0) () winFacts₀0.arr_unscoped c V']
  refine sep_mono (Entails.of_eq (arrBufs_arrays0 V c V' _ hF).symm) (Entails.of_eq ?_)
  unfold Pipeline.unscopedRest
  exact bigSep_congr fun b hb => by rw [hrest b (Finset.mem_sdiff.mp hb).2]

end Cert.Kernel.Hand

end
-- ==== Proof.K.Shares1.lean ====
/-
  Region 1 enters holding every unscoped buffer of the core whole, and leaves them so. Its pipeline wants each
  WINDOW's array at that window's share. Six distinct buffers stand behind the seven windows: the feature array
  is read by two windows, so its full share is cut into a left and a right half on the way in and the halves are
  joined on the way out; every other array is one window's, at the full share. The output array comes back at what
  the write-backs left in it; the inputs come back as they went in.
-/
import proofs.«405564_j1906965479432_1_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The six buffers behind the seven windows -/

/-- The windows whose arrays are pairwise distinct buffers: every window but window 2, whose array is window 1's. -/
abbrev reps1 : List (Fin 7) := [0, 1, 3, 4, 5, 6]

/-- Every window's array is the array of one of those six. -/
theorem image_arrRef1 :
    Finset.univ.image (Pipeline.arrRef spec1) = reps1.toFinset.image (Pipeline.arrRef spec1) := by decide

/-- Those six windows' arrays are pairwise distinct buffers. -/
theorem injOn_arrRef1 : Set.InjOn (Pipeline.arrRef spec1) (reps1.toFinset : Finset (Fin 7)) := by
  have h : ∀ a ∈ reps1.toFinset, ∀ b ∈ reps1.toFinset, Pipeline.arrRef spec1 a = Pipeline.arrRef spec1 b → a = b := by decide
  exact fun a ha b hb e => h a (Finset.mem_coe.mp ha) b (Finset.mem_coe.mp hb) e

/-- Window 2 reads window 1's array. -/
theorem arrRef_shared1 : Pipeline.arrRef spec1 2 = Pipeline.arrRef spec1 1 := by decide

/-- The distinct buffers behind the arrays, one by one. -/
theorem arrBufs_chain1 (c : Dev nD) (V0 : (b : Ref sig .tc) → Buf (Elt F) ((c : Thread nD τ).loc b)) :
    (Pipeline.arrBufs spec1 c V0 : sProp 𝕄)
      = iprop((((c : Thread nD τ).loc (Pipeline.arrRef spec1 0)) ↦{fullShare} V0 (Pipeline.arrRef spec1 0))
        ∗ (((c : Thread nD τ).loc (Pipeline.arrRef spec1 1)) ↦{fullShare} V0 (Pipeline.arrRef spec1 1))
        ∗ (((c : Thread nD τ).loc (Pipeline.arrRef spec1 3)) ↦{fullShare} V0 (Pipeline.arrRef spec1 3))
        ∗ (((c : Thread nD τ).loc (Pipeline.arrRef spec1 4)) ↦{fullShare} V0 (Pipeline.arrRef spec1 4))
        ∗ (((c : Thread nD τ).loc (Pipeline.arrRef spec1 5)) ↦{fullShare} V0 (Pipeline.arrRef spec1 5))
        ∗ (((c : Thread nD τ).loc (Pipeline.arrRef spec1 6)) ↦{fullShare} V0 (Pipeline.arrRef spec1 6))) := by
  unfold Pipeline.arrBufs
  rw [image_arrRef1, bigSep_image_of_injOn injOn_arrRef1, bigSep_eq_bigSepL reps1 (by decide)]
  rfl

/-- The pipeline's arrays, window by window: each a whole buffer at its window's share. -/
theorem arrays_chain1 (c : Dev nD) (G : (w : Fin cfg1.W) → Buf (Elt F) ((cfg1.win w).arr.view.loc (c : Thread nD τ))) :
    ((dat1 V c).arrays G : sProp 𝕄)
      = iprop((((c : Thread nD τ).loc (Pipeline.arrRef spec1 0)) ↦{fullShare} G (0 : Fin 7))
        ∗ (((c : Thread nD τ).loc (Pipeline.arrRef spec1 1)) ↦{fullShare.left} G (1 : Fin 7))
        ∗ (((c : Thread nD τ).loc (Pipeline.arrRef spec1 2)) ↦{fullShare.right} G (2 : Fin 7))
        ∗ (((c : Thread nD τ).loc (Pipeline.arrRef spec1 3)) ↦{fullShare} G (3 : Fin 7))
        ∗ (((c : Thread nD τ).loc (Pipeline.arrRef spec1 4)) ↦{fullShare} G (4 : Fin 7))
        ∗ (((c : Thread nD τ).loc (Pipeline.arrRef spec1 5)) ↦{fullShare} G (5 : Fin 7))
        ∗ (((c : Thread nD τ).loc (Pipeline.arrRef spec1 6)) ↦{fullShare} G (6 : Fin 7))) := by
  have h : ((dat1 V c).arrays G : sProp 𝕄)
      = bigSep Finset.univ fun w : Fin 7 => (((c : Thread nD τ).loc (Pipeline.arrRef spec1 w)) ↦{(dat1 V c).share w} G w : sProp 𝕄) := by
    unfold Dat.arrays
    exact bigSep_congr fun w _ => by rw [(arr_whole1 w).set_eq_univ]
  rw [h, bigSep_W1]
  rfl

/-- Cutting the second conjunct of a chain in two. -/
theorem cut_second1 {M : Type} [URA M] {P0 P1 Q1 Q2 R : sProp M} (h : P1 ⊣⊢ iprop(Q1 ∗ Q2)) :
    iprop(P0 ∗ P1 ∗ R) = iprop(P0 ∗ Q1 ∗ Q2 ∗ R) :=
  equiv_iff.mp ⟨sep_mono .rfl ((sep_mono h.1 .rfl).trans sep_assoc.1), sep_mono .rfl (sep_assoc.2.trans (sep_mono h.2 .rfl))⟩

/-- The distinct buffers at the full share ARE the windows' arrays at their shares, at contents read off one
    valuation: the feature array's full share is its left half and its right half, both at the same contents; the
    other five buffers are one window's each and go across as they are. -/
theorem arrBufs_arrays1 (c : Dev nD) (V0 : (b : Ref sig .tc) → Buf (Elt F) ((c : Thread nD τ).loc b))
    (G : (w : Fin cfg1.W) → Buf (Elt F) ((cfg1.win w).arr.view.loc (c : Thread nD τ)))
    (hG : ∀ w, G w = V0 (Pipeline.arrRef spec1 w)) :
    (Pipeline.arrBufs spec1 c V0 : sProp 𝕄) = (dat1 V c).arrays G := by
  obtain rfl : G = fun w => V0 (Pipeline.arrRef spec1 w) := funext hG
  rw [arrBufs_chain1, arrays_chain1]
  exact cut_second1 (pointsTo_share (PosShare.mem_left_op_right fullShare))

/-- ENTRY: the core's unscoped buffers at `V c` are the pipeline's arrays at the proof data's entry contents, each at
    its window's share, and the unscoped buffers that are no window's array. -/
theorem arrays_of_bufs1 (c : Dev nD) :
    (unscopedBufs c (V c) : sProp 𝕄)
      ⊢ iprop((dat1 V c).arrays ((dat1 V c).arrAt · 0) ∗ Pipeline.unscopedRest spec1 c (V c)) := by
  rw [Pipeline.unscopedBufs_split₀ (fun _ : Unit => cfg1) () winFacts₀1.arr_unscoped c (V c)]
  exact sep_mono (Entails.of_eq (arrBufs_arrays1 V c (V c) _ fun w =>
    (show (dat1 V c).arrAt w 0 = (dat1 V c).A w from rfl).trans (A_eq1 V c w))) .rfl

/-- EXIT: the arrays at their final contents and that rest are the core's unscoped buffers at any valuation `V'` that
    has every window's array at its final contents and agrees with `V c` off the arrays. -/
theorem bufs_of_arrays1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest spec1 c (V c))
      ⊢ (unscopedBufs c V' : sProp 𝕄) := by
  rw [Pipeline.unscopedBufs_split₀ (fun _ : Unit => cfg1) () winFacts₀1.arr_unscoped c V']
  refine sep_mono (Entails.of_eq (arrBufs_arrays1 V c V' _ hF).symm) (Entails.of_eq ?_)
  unfold Pipeline.unscopedRest
  exact bigSep_congr fun b hb => by rw [hrest b (Finset.mem_sdiff.mp hb).2]

end Cert.Kernel.Hand

end
-- ==== Proof.K.Run.lean ====
/-
  The whole run of the program, for any float instance: @main is a stretch of host operations, the first layer's
  kernel region, a second stretch, the second layer's region. Between two items every unscoped buffer of the core is
  held whole at contents that are named here, a fold from the launch memory: a host stretch replaces what its
  operations write; a region replaces its output array by what its write-backs leave and touches nothing else.
  Every weakly fair execution ends, nothing faults, and at the end EVERY unscoped buffer holds the last of those
  contents (`run_all`): the arguments are as launched, and the result array is what the second region left.
-/
import proofs.«405564_j1906965479432_1_alg».proof.Proof.K.Region0
import proofs.«405564_j1906965479432_1_alg».proof.Proof.K.Region1
import proofs.«405564_j1906965479432_1_alg».proof.Proof.K.Shares0
import proofs.«405564_j1906965479432_1_alg».proof.Proof.K.Shares1
import proofs.«405564_j1906965479432_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- The same read at the TensorCore's references. -/
abbrev R1 : (c : Dev nD) → (b : Ref sig .tc) → Buf (Elt F) ((c : Thread nD τ).loc b) := fun c b => W1 m ρ c b
/-- At the first region's exit: its output array at what the write-backs leave, every other buffer as entered. -/
def W2 (c : Dev nD) : Valuation τ sig (Elt F) :=
  Function.update (W1 m ρ c) (Proc.devRef .tc main_v33)
    ((dat0 (R1 m ρ) c).arrAt 6 cfg0.N : Buf (Elt F) ((c : Thread nD τ).loc main_v33))
theorem W2_out (c : Dev nD) : W2 m ρ c (Proc.devRef .tc main_v33) = (dat0 (R1 m ρ) c).arrAt 6 cfg0.N := by
  unfold W2; exact Function.update_self ..
theorem W2_of_ne (c : Dev nD) (b : Ref sig .tc) (hb : b ≠ main_v33) :
    W2 m ρ c (Proc.devRef .tc b) = W1 m ρ c (Proc.devRef .tc b) := by
  unfold W2; exact Function.update_of_ne (StableHlo.devRef_ne_of_ne hb) _ _
abbrev R2 : (c : Dev nD) → (b : Ref sig .tc) → Buf (Elt F) ((c : Thread nD τ).loc b) := fun c b => W2 m ρ c b

/-- Every window but the last is an input, and no input's array is the output's. -/
theorem inputs0 : ∀ w : Fin cfg0.W, w ≠ 6 → (cfg0.win w).isOut = false := by decide
theorem arr_ne0 : ∀ w : Fin cfg0.W, w ≠ 6 → Pipeline.arrRef spec0 w ≠ main_v33 := by decide
/-- At region 0's exit every window's array holds what the pipeline leaves: the output what the write-backs left,
    an input what it held at entry (no input is the output's array). -/
theorem hF0 (c : Dev nD) (w : Fin cfg0.W) :
    (dat0 (R1 m ρ) c).arrAt w cfg0.N = R2 m ρ c (Pipeline.arrRef spec0 w) := by
  by_cases hw : w = 6
  · subst hw; exact (W2_out m ρ c).symm
  · exact ((dat0 (R1 m ρ) c).arrAt_in w (inputs0 w hw) cfg0.N).trans
      ((A_eq0 (R1 m ρ) c w).trans (W2_of_ne m ρ c (Pipeline.arrRef spec0 w) (arr_ne0 w hw)).symm)
/-- Off the windows' arrays the exit contents are the entry contents. -/
theorem hrest0 (c : Dev nD) : ∀ b, b ∉ Finset.univ.image (Pipeline.arrRef spec0) → R2 m ρ c b = R1 m ρ c b :=
  fun b hb => W2_of_ne m ρ c b fun e => hb (Finset.mem_image.mpr ⟨6, Finset.mem_univ _, e.symm⟩)

/-- After the second host stretch (the second region's entry). -/
abbrev W3 : Dev nD → Valuation τ sig (Elt F) := fun c => StableHlo.after hostOps1 (W2 m ρ c)
abbrev R3 : (c : Dev nD) → (b : Ref sig .tc) → Buf (Elt F) ((c : Thread nD τ).loc b) := fun c b => W3 m ρ c b
/-- At the second region's exit: its output array at what the write-backs leave, every other buffer as entered. -/
def W4 (c : Dev nD) : Valuation τ sig (Elt F) :=
  Function.update (W3 m ρ c) (Proc.devRef .tc main_v40)
    ((dat1 (R3 m ρ) c).arrAt 6 cfg1.N : Buf (Elt F) ((c : Thread nD τ).loc main_v40))
theorem W4_out (c : Dev nD) : W4 m ρ c (Proc.devRef .tc main_v40) = (dat1 (R3 m ρ) c).arrAt 6 cfg1.N := by
  unfold W4; exact Function.update_self ..
theorem W4_of_ne (c : Dev nD) (b : Ref sig .tc) (hb : b ≠ main_v40) :
    W4 m ρ c (Proc.devRef .tc b) = W3 m ρ c (Proc.devRef .tc b) := by
  unfold W4; exact Function.update_of_ne (StableHlo.devRef_ne_of_ne hb) _ _
abbrev R4 : (c : Dev nD) → (b : Ref sig .tc) → Buf (Elt F) ((c : Thread nD τ).loc b) := fun c b => W4 m ρ c b

/-- Every window but the last is an input, and no input's array is the output's. -/
theorem inputs1 : ∀ w : Fin cfg1.W, w ≠ 6 → (cfg1.win w).isOut = false := by decide
theorem arr_ne1 : ∀ w : Fin cfg1.W, w ≠ 6 → Pipeline.arrRef spec1 w ≠ main_v40 := by decide
/-- At region 1's exit every window's array holds what the pipeline leaves: the output what the write-backs left,
    an input what it held at entry (no input is the output's array). -/
theorem hF1 (c : Dev nD) (w : Fin cfg1.W) :
    (dat1 (R3 m ρ) c).arrAt w cfg1.N = R4 m ρ c (Pipeline.arrRef spec1 w) := by
  by_cases hw : w = 6
  · subst hw; exact (W4_out m ρ c).symm
  · exact ((dat1 (R3 m ρ) c).arrAt_in w (inputs1 w hw) cfg1.N).trans
      ((A_eq1 (R3 m ρ) c w).trans (W4_of_ne m ρ c (Pipeline.arrRef spec1 w) (arr_ne1 w hw)).symm)
/-- Off the windows' arrays the exit contents are the entry contents. -/
theorem hrest1 (c : Dev nD) : ∀ b, b ∉ Finset.univ.image (Pipeline.arrRef spec1) → R4 m ρ c b = R3 m ρ c b :=
  fun b hb => W4_of_ne m ρ c b fun e => hb (Finset.mem_image.mpr ⟨6, Finset.mem_univ _, e.symm⟩)

/-! ### A buffer no host operation writes and no region outputs reaches the end as launched -/

theorem W4_kept (c : Dev nD) (r : Ref sig .tc) (h0 : r ∉ hostOps0_W) (h1 : r ∉ hostOps1_W) (h33 : r ≠ main_v33) (h40 : r ≠ main_v40) :
    W4 m ρ c (Proc.devRef .tc r) = m ((c : Thread nD τ).loc r) :=
  (W4_of_ne m ρ c r h40).trans <| (StableHlo.after_of_writes_sub hostOps1 _ hostOps1_writes h1).trans <|
    (W2_of_ne m ρ c r h33).trans <| (StableHlo.after_of_writes_sub hostOps0 _ hostOps0_writes h0).trans rfl
theorem W4_main_arg0 (c : Dev nD) : W4 m ρ c (Proc.devRef .tc main_arg0) = m ((c : Thread nD τ).loc main_arg0) :=
  W4_kept m ρ c main_arg0 (by decide) (by decide) (by decide) (by decide)
theorem W4_main_arg1 (c : Dev nD) : W4 m ρ c (Proc.devRef .tc main_arg1) = m ((c : Thread nD τ).loc main_arg1) :=
  W4_kept m ρ c main_arg1 (by decide) (by decide) (by decide) (by decide)
theorem W4_main_arg2 (c : Dev nD) : W4 m ρ c (Proc.devRef .tc main_arg2) = m ((c : Thread nD τ).loc main_arg2) :=
  W4_kept m ρ c main_arg2 (by decide) (by decide) (by decide) (by decide)
theorem W4_main_arg3 (c : Dev nD) : W4 m ρ c (Proc.devRef .tc main_arg3) = m ((c : Thread nD τ).loc main_arg3) :=
  W4_kept m ρ c main_arg3 (by decide) (by decide) (by decide) (by decide)
theorem W4_main_arg4 (c : Dev nD) : W4 m ρ c (Proc.devRef .tc main_arg4) = m ((c : Thread nD τ).loc main_arg4) :=
  W4_kept m ρ c main_arg4 (by decide) (by decide) (by decide) (by decide)
theorem W4_main_arg5 (c : Dev nD) : W4 m ρ c (Proc.devRef .tc main_arg5) = m ((c : Thread nD τ).loc main_arg5) :=
  W4_kept m ρ c main_arg5 (by decide) (by decide) (by decide) (by decide)
theorem W4_main_arg6 (c : Dev nD) : W4 m ρ c (Proc.devRef .tc main_arg6) = m ((c : Thread nD τ).loc main_arg6) :=
  W4_kept m ρ c main_arg6 (by decide) (by decide) (by decide) (by decide)
theorem W4_main_arg7 (c : Dev nD) : W4 m ρ c (Proc.devRef .tc main_arg7) = m ((c : Thread nD τ).loc main_arg7) :=
  W4_kept m ρ c main_arg7 (by decide) (by decide) (by decide) (by decide)

/-! ## The proof data family and the thread state -/

/-- No pipeline has a prefetched table. -/
abbrev adm : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (R1 m ρ) c
  | ⟨1, _⟩ => fun c => dat1 (R3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and that it owes nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W1`, left at `W2`. Its arrays are
    split out of the unscoped buffers, each at its window's share, and put back at the exit contents; the generator
    register goes into the invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (R1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (R1 m ρ c)
  hentry c := by
    rw [Pipeline.ownSems0_none]
    have hsplit : (unscopedBufs c (R1 m ρ c) : sProp 𝕄)
        ⊢ iprop((pdats m ρ 0 c).arrays ((pdats m ρ 0 c).arrAt · 0) ∗ Pipeline.unscopedRest spec0 c (R1 m ρ c)) :=
      arrays_of_bufs0 (R1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (R1 m ρ c))
        ⊢ (unscopedBufs c (R2 m ρ c) : sProp 𝕄) :=
      bufs_of_arrays0 (R1 m ρ) c (R2 m ρ c) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers, each at its window's share, and put back at the exit contents; the generator
    register goes into the invariant and comes out; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (R3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (R3 m ρ c)
  hentry c := by
    rw [Pipeline.ownSems0_none]
    have hsplit : (unscopedBufs c (R3 m ρ c) : sProp 𝕄)
        ⊢ iprop((pdats m ρ 1 c).arrays ((pdats m ρ 1 c).arrAt · 0) ∗ Pipeline.unscopedRest spec1 c (R3 m ρ c)) :=
      arrays_of_bufs1 (R3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (R3 m ρ c))
        ⊢ (unscopedBufs c (R4 m ρ c) : sProp 𝕄) :=
      bufs_of_arrays1 (R3 m ρ) c (R4 m ρ c) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- So the argument arrays end as launched: the frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

end Cert.Kernel.Hand

end
-- ==== Proof.KI.Region0.lean ====
/-
  Kernel region 0 of the program: one layer's row tiles. At grid point t the body reads the 80 × 10000 tile of the
  normalised count matrix (window 0), the whole feature array (window 1), the same array's 80 × 512 row tile (window 2),
  the two transposed weight matrices (windows 3 and 4) and the bias row (window 5), and stores ONE value over the
  whole 80 × 512 output tile (window 6): (tile · features) · Wl + bias + rows · Wr (the first layer's body rectifies it, the second's does not: the
  difference is inside the payload the store names, and nothing here opens it).
  Stated here at a PARAMETER V (the buffer contents when the region is entered) and for any float instance: what each
  window's block is, what the body leaves in the output tile as a function of the six input blocks, the body's triple,
  the proof data of the pipeline, and the body obligation at every grid point. Windows 1 and 2 read ONE array, so
  each holds half of it.
-/
import proofs.«405564_j1906965479432_1_alg».proof.Proof.Gen.KernelIdeal.Launch
import proofs.«405564_j1906965479432_1_alg».proof.Proof.Gen.KernelIdeal.Skeleton
import proofs.«405564_j1906965479432_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## The body's accesses: each a whole staging buffer -/

abbrev rA0 : Rect S80x10000 := Rect.unit (s := S80x10000) ![0, 0] S80x10000.size inb_S80x10000_S80x10000_0_0
abbrev rX0 : Rect S10000x512 := Rect.unit (s := S10000x512) ![0, 0] S10000x512.size inb_S10000x512_S10000x512_0_0
abbrev rT0 : Rect S80x512 := Rect.unit (s := S80x512) ![0, 0] S80x512.size inb_S80x512_S80x512_0_0
abbrev rW0 : Rect S512x512 := Rect.unit (s := S512x512) ![0, 0] S512x512.size inb_S512x512_S512x512_0_0
abbrev rB0 : Rect S1x512 := Rect.unit (s := S1x512) ![0, 0] S1x512.size inb_S1x512_S1x512_0_0

/-! ## What the body leaves in the output tile -/

/-- The output tile after the body, from the six input blocks (in window order): its one store, over the whole tile,
    of the layer's value on the loaded blocks. -/
def out0_6 (x0 : Vec F S80x10000 .bf16) (x1 : Vec F S10000x512 .bf16) (x2 : Vec F S80x512 .bf16)
    (x3 x4 : Vec F S512x512 .bf16) (x5 : Vec F S1x512 .f32) : Vec F S80x512 .f32 :=
  View.canon [⟨rT0, k0_pay1 (View.ld x0 rA0) (View.ld x1 rX0) (View.ld x3 rW0) (View.ld x2 rT0) (View.ld x4 rW0) (View.ld x5 rB0)⟩]

/-- The one store covers the tile. -/
theorem cover0_6 (p0 : Vec F S80x512 .f32) (y : S80x512.Idx) :
    ∃ pc ∈ ([⟨rT0, p0⟩] : List (View.Piece (Elt F) S80x512 .f32)), y ∈ pc.1.set :=
  View.cover_of_tiled [⟨rT0, p0⟩] S80x512.size (by rfl) y

/-! ## The body's triple -/

set_option maxHeartbeats 4000000 in
/-- The kernel body on whole staging memrefs, the six inputs' at read contents and the output's at anything, runs to
    the continuation holding the inputs as they were and the output tile at `out0_6` of them. -/
theorem sound_kernel0 (c : Dev nD) (E : Set ℕ) (i : grid0.Coords)
    (arg1 : Memref sig .tc .vmem S80x10000 .bf16) (harg1 : arg1.IsWhole) (arg2 : Memref sig .tc .vmem S10000x512 .bf16) (harg2 : arg2.IsWhole)
    (arg3 : Memref sig .tc .vmem S80x512 .bf16) (harg3 : arg3.IsWhole) (arg4 : Memref sig .tc .vmem S512x512 .bf16) (harg4 : arg4.IsWhole)
    (arg5 : Memref sig .tc .vmem S512x512 .bf16) (harg5 : arg5.IsWhole) (arg6 : Memref sig .tc .vmem S1x512 .f32) (harg6 : arg6.IsWhole)
    (arg7 : Memref sig .tc .vmem S80x512 .f32) (harg7 : arg7.IsWhole)
    (x0 : Vec F S80x10000 .bf16) (x1 : Vec F S10000x512 .bf16) (x2 : Vec F S80x512 .bf16) (x3 x4 : Vec F S512x512 .bf16) (x5 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__sage_layer_kernel i arg1 harg1 arg2 harg2 arg3 harg3 arg4 harg4 arg5 harg5 arg6 harg6 arg7 harg7) K := by
  simp only [cc0__sage_layer_kernel_eq_skeleton]; unfold cc0__sage_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_6 _)

/-! ## The pipeline's proof data -/

/-- The proof data of pipeline 0 on core `c`: the arrays as the region finds them; after the body at point `t` each
    input's buffer at its block and the output's at `out0_6` of the input blocks; the invariant the scoped rest and
    the generator register, untouched; nothing owed; the two windows on the feature array hold a half each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q w := match w with
    | ⟨1, _⟩ => fullShare.left
    | ⟨2, _⟩ => fullShare.right
    | _ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by
  dsimp only [dat0]

/-- Each input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-! ## The body obligation, at a generic point -/

/-- What the body is called with at point `t`: the invariant, the core's debts, and each window's current staging
    buffer at what the pipeline put or left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same invariant and debts, each staging buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: every input's staging buffer holds that window's block, so the body's triple applies
    at the six blocks; the invariant and the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t)
    (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Kernel region 1 of the program: one layer's row tiles. At grid point t the body reads the 80 × 10000 tile of the
  normalised count matrix (window 0), the whole feature array (window 1), the same array's 80 × 512 row tile (window 2),
  the two transposed weight matrices (windows 3 and 4) and the bias row (window 5), and stores ONE value over the
  whole 80 × 512 output tile (window 6): (tile · features) · Wl + bias + rows · Wr (the first layer's body rectifies it, the second's does not: the
  difference is inside the payload the store names, and nothing here opens it).
  Stated here at a PARAMETER V (the buffer contents when the region is entered) and for any float instance: what each
  window's block is, what the body leaves in the output tile as a function of the six input blocks, the body's triple,
  the proof data of the pipeline, and the body obligation at every grid point. Windows 1 and 2 read ONE array, so
  each holds half of it.
-/
import proofs.«405564_j1906965479432_1_alg».proof.Proof.Gen.KernelIdeal.Launch
import proofs.«405564_j1906965479432_1_alg».proof.Proof.Gen.KernelIdeal.Skeleton
import proofs.«405564_j1906965479432_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The body's accesses: each a whole staging buffer -/

abbrev rA1 : Rect S80x10000 := Rect.unit (s := S80x10000) ![0, 0] S80x10000.size inb_S80x10000_S80x10000_0_0
abbrev rX1 : Rect S10000x512 := Rect.unit (s := S10000x512) ![0, 0] S10000x512.size inb_S10000x512_S10000x512_0_0
abbrev rT1 : Rect S80x512 := Rect.unit (s := S80x512) ![0, 0] S80x512.size inb_S80x512_S80x512_0_0
abbrev rW1 : Rect S512x512 := Rect.unit (s := S512x512) ![0, 0] S512x512.size inb_S512x512_S512x512_0_0
abbrev rB1 : Rect S1x512 := Rect.unit (s := S1x512) ![0, 0] S1x512.size inb_S1x512_S1x512_0_0

/-! ## What the body leaves in the output tile -/

/-- The output tile after the body, from the six input blocks (in window order): its one store, over the whole tile,
    of the layer's value on the loaded blocks. -/
def out1_6 (x0 : Vec F S80x10000 .bf16) (x1 : Vec F S10000x512 .bf16) (x2 : Vec F S80x512 .bf16)
    (x3 x4 : Vec F S512x512 .bf16) (x5 : Vec F S1x512 .f32) : Vec F S80x512 .f32 :=
  View.canon [⟨rT1, k1_pay1 (View.ld x0 rA1) (View.ld x1 rX1) (View.ld x3 rW1) (View.ld x2 rT1) (View.ld x4 rW1) (View.ld x5 rB1)⟩]

/-- The one store covers the tile. -/
theorem cover1_6 (p0 : Vec F S80x512 .f32) (y : S80x512.Idx) :
    ∃ pc ∈ ([⟨rT1, p0⟩] : List (View.Piece (Elt F) S80x512 .f32)), y ∈ pc.1.set :=
  View.cover_of_tiled [⟨rT1, p0⟩] S80x512.size (by rfl) y

/-! ## The body's triple -/

set_option maxHeartbeats 4000000 in
/-- The kernel body on whole staging memrefs, the six inputs' at read contents and the output's at anything, runs to
    the continuation holding the inputs as they were and the output tile at `out1_6` of them. -/
theorem sound_kernel1 (c : Dev nD) (E : Set ℕ) (i : grid1.Coords)
    (arg1 : Memref sig .tc .vmem S80x10000 .bf16) (harg1 : arg1.IsWhole) (arg2 : Memref sig .tc .vmem S10000x512 .bf16) (harg2 : arg2.IsWhole)
    (arg3 : Memref sig .tc .vmem S80x512 .bf16) (harg3 : arg3.IsWhole) (arg4 : Memref sig .tc .vmem S512x512 .bf16) (harg4 : arg4.IsWhole)
    (arg5 : Memref sig .tc .vmem S512x512 .bf16) (harg5 : arg5.IsWhole) (arg6 : Memref sig .tc .vmem S1x512 .f32) (harg6 : arg6.IsWhole)
    (arg7 : Memref sig .tc .vmem S80x512 .f32) (harg7 : arg7.IsWhole)
    (x0 : Vec F S80x10000 .bf16) (x1 : Vec F S10000x512 .bf16) (x2 : Vec F S80x512 .bf16) (x3 x4 : Vec F S512x512 .bf16) (x5 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__sage_layer_kernel i arg1 harg1 arg2 harg2 arg3 harg3 arg4 harg4 arg5 harg5 arg6 harg6 arg7 harg7) K := by
  simp only [cc1__sage_layer_kernel_eq_skeleton]; unfold cc1__sage_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_6 _)

/-! ## The pipeline's proof data -/

/-- The proof data of pipeline 1 on core `c`: the arrays as the region finds them; after the body at point `t` each
    input's buffer at its block and the output's at `out1_6` of the input blocks; the invariant the scoped rest and
    the generator register, untouched; nothing owed; the two windows on the feature array hold a half each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨1, _⟩ => fullShare.left
    | ⟨2, _⟩ => fullShare.right
    | _ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by
  dsimp only [dat1]

/-- Each input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body obligation, at a generic point -/

/-- What the body is called with at point `t`: the invariant, the core's debts, and each window's current staging
    buffer at what the pipeline put or left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns: the same invariant and debts, each staging buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: every input's staging buffer holds that window's block, so the body's triple applies
    at the six blocks; the invariant and the debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t)
    (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Shares0.lean ====
/-
  Region 0 enters holding every unscoped buffer of the core whole, and leaves them so. Its pipeline wants each
  WINDOW's array at that window's share. Six distinct buffers stand behind the seven windows: the feature array
  is read by two windows, so its full share is cut into a left and a right half on the way in and the halves are
  joined on the way out; every other array is one window's, at the full share. The output array comes back at what
  the write-backs left in it; the inputs come back as they went in.
-/
import proofs.«405564_j1906965479432_1_alg».proof.Proof.KI.Region0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The six buffers behind the seven windows -/

/-- The windows whose arrays are pairwise distinct buffers: every window but window 2, whose array is window 1's. -/
abbrev reps0 : List (Fin 7) := [0, 1, 3, 4, 5, 6]

/-- Every window's array is the array of one of those six. -/
theorem image_arrRef0 :
    Finset.univ.image (Pipeline.arrRef spec0) = reps0.toFinset.image (Pipeline.arrRef spec0) := by decide

/-- Those six windows' arrays are pairwise distinct buffers. -/
theorem injOn_arrRef0 : Set.InjOn (Pipeline.arrRef spec0) (reps0.toFinset : Finset (Fin 7)) := by
  have h : ∀ a ∈ reps0.toFinset, ∀ b ∈ reps0.toFinset, Pipeline.arrRef spec0 a = Pipeline.arrRef spec0 b → a = b := by decide
  exact fun a ha b hb e => h a (Finset.mem_coe.mp ha) b (Finset.mem_coe.mp hb) e

/-- Window 2 reads window 1's array. -/
theorem arrRef_shared0 : Pipeline.arrRef spec0 2 = Pipeline.arrRef spec0 1 := by decide

/-- The distinct buffers behind the arrays, one by one. -/
theorem arrBufs_chain0 (c : Dev nD) (V0 : (b : Ref sig .tc) → Buf (Elt F) ((c : Thread nD τ).loc b)) :
    (Pipeline.arrBufs spec0 c V0 : sProp 𝕄)
      = iprop((((c : Thread nD τ).loc (Pipeline.arrRef spec0 0)) ↦{fullShare} V0 (Pipeline.arrRef spec0 0))
        ∗ (((c : Thread nD τ).loc (Pipeline.arrRef spec0 1)) ↦{fullShare} V0 (Pipeline.arrRef spec0 1))
        ∗ (((c : Thread nD τ).loc (Pipeline.arrRef spec0 3)) ↦{fullShare} V0 (Pipeline.arrRef spec0 3))
        ∗ (((c : Thread nD τ).loc (Pipeline.arrRef spec0 4)) ↦{fullShare} V0 (Pipeline.arrRef spec0 4))
        ∗ (((c : Thread nD τ).loc (Pipeline.arrRef spec0 5)) ↦{fullShare} V0 (Pipeline.arrRef spec0 5))
        ∗ (((c : Thread nD τ).loc (Pipeline.arrRef spec0 6)) ↦{fullShare} V0 (Pipeline.arrRef spec0 6))) := by
  unfold Pipeline.arrBufs
  rw [image_arrRef0, bigSep_image_of_injOn injOn_arrRef0, bigSep_eq_bigSepL reps0 (by decide)]
  rfl

/-- The pipeline's arrays, window by window: each a whole buffer at its window's share. -/
theorem arrays_chain0 (c : Dev nD) (G : (w : Fin cfg0.W) → Buf (Elt F) ((cfg0.win w).arr.view.loc (c : Thread nD τ))) :
    ((dat0 V c).arrays G : sProp 𝕄)
      = iprop((((c : Thread nD τ).loc (Pipeline.arrRef spec0 0)) ↦{fullShare} G (0 : Fin 7))
        ∗ (((c : Thread nD τ).loc (Pipeline.arrRef spec0 1)) ↦{fullShare.left} G (1 : Fin 7))
        ∗ (((c : Thread nD τ).loc (Pipeline.arrRef spec0 2)) ↦{fullShare.right} G (2 : Fin 7))
        ∗ (((c : Thread nD τ).loc (Pipeline.arrRef spec0 3)) ↦{fullShare} G (3 : Fin 7))
        ∗ (((c : Thread nD τ).loc (Pipeline.arrRef spec0 4)) ↦{fullShare} G (4 : Fin 7))
        ∗ (((c : Thread nD τ).loc (Pipeline.arrRef spec0 5)) ↦{fullShare} G (5 : Fin 7))
        ∗ (((c : Thread nD τ).loc (Pipeline.arrRef spec0 6)) ↦{fullShare} G (6 : Fin 7))) := by
  have h : ((dat0 V c).arrays G : sProp 𝕄)
      = bigSep Finset.univ fun w : Fin 7 => (((c : Thread nD τ).loc (Pipeline.arrRef spec0 w)) ↦{(dat0 V c).share w} G w : sProp 𝕄) := by
    unfold Dat.arrays
    exact bigSep_congr fun w _ => by rw [(arr_whole0 w).set_eq_univ]
  rw [h, bigSep_W0]
  rfl

/-- Cutting the second conjunct of a chain in two. -/
theorem cut_second0 {M : Type} [URA M] {P0 P1 Q1 Q2 R : sProp M} (h : P1 ⊣⊢ iprop(Q1 ∗ Q2)) :
    iprop(P0 ∗ P1 ∗ R) = iprop(P0 ∗ Q1 ∗ Q2 ∗ R) :=
  equiv_iff.mp ⟨sep_mono .rfl ((sep_mono h.1 .rfl).trans sep_assoc.1), sep_mono .rfl (sep_assoc.2.trans (sep_mono h.2 .rfl))⟩

/-- The distinct buffers at the full share ARE the windows' arrays at their shares, at contents read off one
    valuation: the feature array's full share is its left half and its right half, both at the same contents; the
    other five buffers are one window's each and go across as they are. -/
theorem arrBufs_arrays0 (c : Dev nD) (V0 : (b : Ref sig .tc) → Buf (Elt F) ((c : Thread nD τ).loc b))
    (G : (w : Fin cfg0.W) → Buf (Elt F) ((cfg0.win w).arr.view.loc (c : Thread nD τ)))
    (hG : ∀ w, G w = V0 (Pipeline.arrRef spec0 w)) :
    (Pipeline.arrBufs spec0 c V0 : sProp 𝕄) = (dat0 V c).arrays G := by
  obtain rfl : G = fun w => V0 (Pipeline.arrRef spec0 w) := funext hG
  rw [arrBufs_chain0, arrays_chain0]
  exact cut_second0 (pointsTo_share (PosShare.mem_left_op_right fullShare))

/-- ENTRY: the core's unscoped buffers at `V c` are the pipeline's arrays at the proof data's entry contents, each at
    its window's share, and the unscoped buffers that are no window's array. -/
theorem arrays_of_bufs0 (c : Dev nD) :
    (unscopedBufs c (V c) : sProp 𝕄)
      ⊢ iprop((dat0 V c).arrays ((dat0 V c).arrAt · 0) ∗ Pipeline.unscopedRest spec0 c (V c)) := by
  rw [Pipeline.unscopedBufs_split₀ (fun _ : Unit => cfg0) () winFacts₀0.arr_unscoped c (V c)]
  exact sep_mono (Entails.of_eq (arrBufs_arrays0 V c (V c) _ fun w =>
    (show (dat0 V c).arrAt w 0 = (dat0 V c).A w from rfl).trans (A_eq0 V c w))) .rfl

/-- EXIT: the arrays at their final contents and that rest are the core's unscoped buffers at any valuation `V'` that
    has every window's array at its final contents and agrees with `V c` off the arrays. -/
theorem bufs_of_arrays0 (c : Dev nD) (V' : (b : Ref sig .tc) → Buf (Elt F) ((c : Thread nD τ).loc b))
    (hF : ∀ w, (dat0 V c).arrAt w cfg0.N = V' (Pipeline.arrRef spec0 w))
    (hrest : ∀ b, b ∉ Finset.univ.image (Pipeline.arrRef spec0) → V' b = V c b) :
    iprop((dat0 V c).arrays ((dat0 V c).arrAt · cfg0.N) ∗ Pipeline.unscopedRest spec0 c (V c))
      ⊢ (unscopedBufs c V' : sProp 𝕄) := by
  rw [Pipeline.unscopedBufs_split₀ (fun _ : Unit => cfg0) () winFacts₀0.arr_unscoped c V']
  refine sep_mono (Entails.of_eq (arrBufs_arrays0 V c V' _ hF).symm) (Entails.of_eq ?_)
  unfold Pipeline.unscopedRest
  exact bigSep_congr fun b hb => by rw [hrest b (Finset.mem_sdiff.mp hb).2]

end Cert.KernelIdeal.Hand

end
-- ==== Proof.KI.Shares1.lean ====
/-
  Region 1 enters holding every unscoped buffer of the core whole, and leaves them so. Its pipeline wants each
  WINDOW's array at that window's share. Six distinct buffers stand behind the seven windows: the feature array
  is read by two windows, so its full share is cut into a left and a right half on the way in and the halves are
  joined on the way out; every other array is one window's, at the full share. The output array comes back at what
  the write-backs left in it; the inputs come back as they went in.
-/
import proofs.«405564_j1906965479432_1_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The six buffers behind the seven windows -/

/-- The windows whose arrays are pairwise distinct buffers: every window but window 2, whose array is window 1's. -/
abbrev reps1 : List (Fin 7) := [0, 1, 3, 4, 5, 6]

/-- Every window's array is the array of one of those six. -/
theorem image_arrRef1 :
    Finset.univ.image (Pipeline.arrRef spec1) = reps1.toFinset.image (Pipeline.arrRef spec1) := by decide

/-- Those six windows' arrays are pairwise distinct buffers. -/
theorem injOn_arrRef1 : Set.InjOn (Pipeline.arrRef spec1) (reps1.toFinset : Finset (Fin 7)) := by
  have h : ∀ a ∈ reps1.toFinset, ∀ b ∈ reps1.toFinset, Pipeline.arrRef spec1 a = Pipeline.arrRef spec1 b → a = b := by decide
  exact fun a ha b hb e => h a (Finset.mem_coe.mp ha) b (Finset.mem_coe.mp hb) e

/-- Window 2 reads window 1's array. -/
theorem arrRef_shared1 : Pipeline.arrRef spec1 2 = Pipeline.arrRef spec1 1 := by decide

/-- The distinct buffers behind the arrays, one by one. -/
theorem arrBufs_chain1 (c : Dev nD) (V0 : (b : Ref sig .tc) → Buf (Elt F) ((c : Thread nD τ).loc b)) :
    (Pipeline.arrBufs spec1 c V0 : sProp 𝕄)
      = iprop((((c : Thread nD τ).loc (Pipeline.arrRef spec1 0)) ↦{fullShare} V0 (Pipeline.arrRef spec1 0))
        ∗ (((c : Thread nD τ).loc (Pipeline.arrRef spec1 1)) ↦{fullShare} V0 (Pipeline.arrRef spec1 1))
        ∗ (((c : Thread nD τ).loc (Pipeline.arrRef spec1 3)) ↦{fullShare} V0 (Pipeline.arrRef spec1 3))
        ∗ (((c : Thread nD τ).loc (Pipeline.arrRef spec1 4)) ↦{fullShare} V0 (Pipeline.arrRef spec1 4))
        ∗ (((c : Thread nD τ).loc (Pipeline.arrRef spec1 5)) ↦{fullShare} V0 (Pipeline.arrRef spec1 5))
        ∗ (((c : Thread nD τ).loc (Pipeline.arrRef spec1 6)) ↦{fullShare} V0 (Pipeline.arrRef spec1 6))) := by
  unfold Pipeline.arrBufs
  rw [image_arrRef1, bigSep_image_of_injOn injOn_arrRef1, bigSep_eq_bigSepL reps1 (by decide)]
  rfl

/-- The pipeline's arrays, window by window: each a whole buffer at its window's share. -/
theorem arrays_chain1 (c : Dev nD) (G : (w : Fin cfg1.W) → Buf (Elt F) ((cfg1.win w).arr.view.loc (c : Thread nD τ))) :
    ((dat1 V c).arrays G : sProp 𝕄)
      = iprop((((c : Thread nD τ).loc (Pipeline.arrRef spec1 0)) ↦{fullShare} G (0 : Fin 7))
        ∗ (((c : Thread nD τ).loc (Pipeline.arrRef spec1 1)) ↦{fullShare.left} G (1 : Fin 7))
        ∗ (((c : Thread nD τ).loc (Pipeline.arrRef spec1 2)) ↦{fullShare.right} G (2 : Fin 7))
        ∗ (((c : Thread nD τ).loc (Pipeline.arrRef spec1 3)) ↦{fullShare} G (3 : Fin 7))
        ∗ (((c : Thread nD τ).loc (Pipeline.arrRef spec1 4)) ↦{fullShare} G (4 : Fin 7))
        ∗ (((c : Thread nD τ).loc (Pipeline.arrRef spec1 5)) ↦{fullShare} G (5 : Fin 7))
        ∗ (((c : Thread nD τ).loc (Pipeline.arrRef spec1 6)) ↦{fullShare} G (6 : Fin 7))) := by
  have h : ((dat1 V c).arrays G : sProp 𝕄)
      = bigSep Finset.univ fun w : Fin 7 => (((c : Thread nD τ).loc (Pipeline.arrRef spec1 w)) ↦{(dat1 V c).share w} G w : sProp 𝕄) := by
    unfold Dat.arrays
    exact bigSep_congr fun w _ => by rw [(arr_whole1 w).set_eq_univ]
  rw [h, bigSep_W1]
  rfl

/-- Cutting the second conjunct of a chain in two. -/
theorem cut_second1 {M : Type} [URA M] {P0 P1 Q1 Q2 R : sProp M} (h : P1 ⊣⊢ iprop(Q1 ∗ Q2)) :
    iprop(P0 ∗ P1 ∗ R) = iprop(P0 ∗ Q1 ∗ Q2 ∗ R) :=
  equiv_iff.mp ⟨sep_mono .rfl ((sep_mono h.1 .rfl).trans sep_assoc.1), sep_mono .rfl (sep_assoc.2.trans (sep_mono h.2 .rfl))⟩

/-- The distinct buffers at the full share ARE the windows' arrays at their shares, at contents read off one
    valuation: the feature array's full share is its left half and its right half, both at the same contents; the
    other five buffers are one window's each and go across as they are. -/
theorem arrBufs_arrays1 (c : Dev nD) (V0 : (b : Ref sig .tc) → Buf (Elt F) ((c : Thread nD τ).loc b))
    (G : (w : Fin cfg1.W) → Buf (Elt F) ((cfg1.win w).arr.view.loc (c : Thread nD τ)))
    (hG : ∀ w, G w = V0 (Pipeline.arrRef spec1 w)) :
    (Pipeline.arrBufs spec1 c V0 : sProp 𝕄) = (dat1 V c).arrays G := by
  obtain rfl : G = fun w => V0 (Pipeline.arrRef spec1 w) := funext hG
  rw [arrBufs_chain1, arrays_chain1]
  exact cut_second1 (pointsTo_share (PosShare.mem_left_op_right fullShare))

/-- ENTRY: the core's unscoped buffers at `V c` are the pipeline's arrays at the proof data's entry contents, each at
    its window's share, and the unscoped buffers that are no window's array. -/
theorem arrays_of_bufs1 (c : Dev nD) :
    (unscopedBufs c (V c) : sProp 𝕄)
      ⊢ iprop((dat1 V c).arrays ((dat1 V c).arrAt · 0) ∗ Pipeline.unscopedRest spec1 c (V c)) := by
  rw [Pipeline.unscopedBufs_split₀ (fun _ : Unit => cfg1) () winFacts₀1.arr_unscoped c (V c)]
  exact sep_mono (Entails.of_eq (arrBufs_arrays1 V c (V c) _ fun w =>
    (show (dat1 V c).arrAt w 0 = (dat1 V c).A w from rfl).trans (A_eq1 V c w))) .rfl

/-- EXIT: the arrays at their final contents and that rest are the core's unscoped buffers at any valuation `V'` that
    has every window's array at its final contents and agrees with `V c` off the arrays. -/
theorem bufs_of_arrays1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest spec1 c (V c))
      ⊢ (unscopedBufs c V' : sProp 𝕄) := by
  rw [Pipeline.unscopedBufs_split₀ (fun _ : Unit => cfg1) () winFacts₀1.arr_unscoped c V']
  refine sep_mono (Entails.of_eq (arrBufs_arrays1 V c V' _ hF).symm) (Entails.of_eq ?_)
  unfold Pipeline.unscopedRest
  exact bigSep_congr fun b hb => by rw [hrest b (Finset.mem_sdiff.mp hb).2]

end Cert.KernelIdeal.Hand

end
-- ==== Proof.KI.Run.lean ====
/-
  The whole run of the program, for any float instance: @main is a stretch of host operations, the first layer's
  kernel region, a second stretch, the second layer's region. Between two items every unscoped buffer of the core is
  held whole at contents that are named here, a fold from the launch memory: a host stretch replaces what its
  operations write; a region replaces its output array by what its write-backs leave and touches nothing else.
  Every weakly fair execution ends, nothing faults, and at the end EVERY unscoped buffer holds the last of those
  contents (`run_all`): the arguments are as launched, and the result array is what the second region left.
-/
import proofs.«405564_j1906965479432_1_alg».proof.Proof.KI.Region0
import proofs.«405564_j1906965479432_1_alg».proof.Proof.KI.Region1
import proofs.«405564_j1906965479432_1_alg».proof.Proof.KI.Shares0
import proofs.«405564_j1906965479432_1_alg».proof.Proof.KI.Shares1
import proofs.«405564_j1906965479432_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- The same read at the TensorCore's references. -/
abbrev R1 : (c : Dev nD) → (b : Ref sig .tc) → Buf (Elt F) ((c : Thread nD τ).loc b) := fun c b => W1 m ρ c b
/-- At the first region's exit: its output array at what the write-backs leave, every other buffer as entered. -/
def W2 (c : Dev nD) : Valuation τ sig (Elt F) :=
  Function.update (W1 m ρ c) (Proc.devRef .tc main_v33)
    ((dat0 (R1 m ρ) c).arrAt 6 cfg0.N : Buf (Elt F) ((c : Thread nD τ).loc main_v33))
theorem W2_out (c : Dev nD) : W2 m ρ c (Proc.devRef .tc main_v33) = (dat0 (R1 m ρ) c).arrAt 6 cfg0.N := by
  unfold W2; exact Function.update_self ..
theorem W2_of_ne (c : Dev nD) (b : Ref sig .tc) (hb : b ≠ main_v33) :
    W2 m ρ c (Proc.devRef .tc b) = W1 m ρ c (Proc.devRef .tc b) := by
  unfold W2; exact Function.update_of_ne (StableHlo.devRef_ne_of_ne hb) _ _
abbrev R2 : (c : Dev nD) → (b : Ref sig .tc) → Buf (Elt F) ((c : Thread nD τ).loc b) := fun c b => W2 m ρ c b

/-- Every window but the last is an input, and no input's array is the output's. -/
theorem inputs0 : ∀ w : Fin cfg0.W, w ≠ 6 → (cfg0.win w).isOut = false := by decide
theorem arr_ne0 : ∀ w : Fin cfg0.W, w ≠ 6 → Pipeline.arrRef spec0 w ≠ main_v33 := by decide
/-- At region 0's exit every window's array holds what the pipeline leaves: the output what the write-backs left,
    an input what it held at entry (no input is the output's array). -/
theorem hF0 (c : Dev nD) (w : Fin cfg0.W) :
    (dat0 (R1 m ρ) c).arrAt w cfg0.N = R2 m ρ c (Pipeline.arrRef spec0 w) := by
  by_cases hw : w = 6
  · subst hw; exact (W2_out m ρ c).symm
  · exact ((dat0 (R1 m ρ) c).arrAt_in w (inputs0 w hw) cfg0.N).trans
      ((A_eq0 (R1 m ρ) c w).trans (W2_of_ne m ρ c (Pipeline.arrRef spec0 w) (arr_ne0 w hw)).symm)
/-- Off the windows' arrays the exit contents are the entry contents. -/
theorem hrest0 (c : Dev nD) : ∀ b, b ∉ Finset.univ.image (Pipeline.arrRef spec0) → R2 m ρ c b = R1 m ρ c b :=
  fun b hb => W2_of_ne m ρ c b fun e => hb (Finset.mem_image.mpr ⟨6, Finset.mem_univ _, e.symm⟩)

/-- After the second host stretch (the second region's entry). -/
abbrev W3 : Dev nD → Valuation τ sig (Elt F) := fun c => StableHlo.after hostOps1 (W2 m ρ c)
abbrev R3 : (c : Dev nD) → (b : Ref sig .tc) → Buf (Elt F) ((c : Thread nD τ).loc b) := fun c b => W3 m ρ c b
/-- At the second region's exit: its output array at what the write-backs leave, every other buffer as entered. -/
def W4 (c : Dev nD) : Valuation τ sig (Elt F) :=
  Function.update (W3 m ρ c) (Proc.devRef .tc main_v40)
    ((dat1 (R3 m ρ) c).arrAt 6 cfg1.N : Buf (Elt F) ((c : Thread nD τ).loc main_v40))
theorem W4_out (c : Dev nD) : W4 m ρ c (Proc.devRef .tc main_v40) = (dat1 (R3 m ρ) c).arrAt 6 cfg1.N := by
  unfold W4; exact Function.update_self ..
theorem W4_of_ne (c : Dev nD) (b : Ref sig .tc) (hb : b ≠ main_v40) :
    W4 m ρ c (Proc.devRef .tc b) = W3 m ρ c (Proc.devRef .tc b) := by
  unfold W4; exact Function.update_of_ne (StableHlo.devRef_ne_of_ne hb) _ _
abbrev R4 : (c : Dev nD) → (b : Ref sig .tc) → Buf (Elt F) ((c : Thread nD τ).loc b) := fun c b => W4 m ρ c b

/-- Every window but the last is an input, and no input's array is the output's. -/
theorem inputs1 : ∀ w : Fin cfg1.W, w ≠ 6 → (cfg1.win w).isOut = false := by decide
theorem arr_ne1 : ∀ w : Fin cfg1.W, w ≠ 6 → Pipeline.arrRef spec1 w ≠ main_v40 := by decide
/-- At region 1's exit every window's array holds what the pipeline leaves: the output what the write-backs left,
    an input what it held at entry (no input is the output's array). -/
theorem hF1 (c : Dev nD) (w : Fin cfg1.W) :
    (dat1 (R3 m ρ) c).arrAt w cfg1.N = R4 m ρ c (Pipeline.arrRef spec1 w) := by
  by_cases hw : w = 6
  · subst hw; exact (W4_out m ρ c).symm
  · exact ((dat1 (R3 m ρ) c).arrAt_in w (inputs1 w hw) cfg1.N).trans
      ((A_eq1 (R3 m ρ) c w).trans (W4_of_ne m ρ c (Pipeline.arrRef spec1 w) (arr_ne1 w hw)).symm)
/-- Off the windows' arrays the exit contents are the entry contents. -/
theorem hrest1 (c : Dev nD) : ∀ b, b ∉ Finset.univ.image (Pipeline.arrRef spec1) → R4 m ρ c b = R3 m ρ c b :=
  fun b hb => W4_of_ne m ρ c b fun e => hb (Finset.mem_image.mpr ⟨6, Finset.mem_univ _, e.symm⟩)

/-! ### A buffer no host operation writes and no region outputs reaches the end as launched -/

theorem W4_kept (c : Dev nD) (r : Ref sig .tc) (h0 : r ∉ hostOps0_W) (h1 : r ∉ hostOps1_W) (h33 : r ≠ main_v33) (h40 : r ≠ main_v40) :
    W4 m ρ c (Proc.devRef .tc r) = m ((c : Thread nD τ).loc r) :=
  (W4_of_ne m ρ c r h40).trans <| (StableHlo.after_of_writes_sub hostOps1 _ hostOps1_writes h1).trans <|
    (W2_of_ne m ρ c r h33).trans <| (StableHlo.after_of_writes_sub hostOps0 _ hostOps0_writes h0).trans rfl
theorem W4_main_arg0 (c : Dev nD) : W4 m ρ c (Proc.devRef .tc main_arg0) = m ((c : Thread nD τ).loc main_arg0) :=
  W4_kept m ρ c main_arg0 (by decide) (by decide) (by decide) (by decide)
theorem W4_main_arg1 (c : Dev nD) : W4 m ρ c (Proc.devRef .tc main_arg1) = m ((c : Thread nD τ).loc main_arg1) :=
  W4_kept m ρ c main_arg1 (by decide) (by decide) (by decide) (by decide)
theorem W4_main_arg2 (c : Dev nD) : W4 m ρ c (Proc.devRef .tc main_arg2) = m ((c : Thread nD τ).loc main_arg2) :=
  W4_kept m ρ c main_arg2 (by decide) (by decide) (by decide) (by decide)
theorem W4_main_arg3 (c : Dev nD) : W4 m ρ c (Proc.devRef .tc main_arg3) = m ((c : Thread nD τ).loc main_arg3) :=
  W4_kept m ρ c main_arg3 (by decide) (by decide) (by decide) (by decide)
theorem W4_main_arg4 (c : Dev nD) : W4 m ρ c (Proc.devRef .tc main_arg4) = m ((c : Thread nD τ).loc main_arg4) :=
  W4_kept m ρ c main_arg4 (by decide) (by decide) (by decide) (by decide)
theorem W4_main_arg5 (c : Dev nD) : W4 m ρ c (Proc.devRef .tc main_arg5) = m ((c : Thread nD τ).loc main_arg5) :=
  W4_kept m ρ c main_arg5 (by decide) (by decide) (by decide) (by decide)
theorem W4_main_arg6 (c : Dev nD) : W4 m ρ c (Proc.devRef .tc main_arg6) = m ((c : Thread nD τ).loc main_arg6) :=
  W4_kept m ρ c main_arg6 (by decide) (by decide) (by decide) (by decide)
theorem W4_main_arg7 (c : Dev nD) : W4 m ρ c (Proc.devRef .tc main_arg7) = m ((c : Thread nD τ).loc main_arg7) :=
  W4_kept m ρ c main_arg7 (by decide) (by decide) (by decide) (by decide)

/-! ## The proof data family and the thread state -/

/-- No pipeline has a prefetched table. -/
abbrev adm : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (R1 m ρ) c
  | ⟨1, _⟩ => fun c => dat1 (R3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and that it owes nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W1`, left at `W2`. Its arrays are
    split out of the unscoped buffers, each at its window's share, and put back at the exit contents; the generator
    register goes into the invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (R1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (R1 m ρ c)
  hentry c := by
    rw [Pipeline.ownSems0_none]
    have hsplit : (unscopedBufs c (R1 m ρ c) : sProp 𝕄)
        ⊢ iprop((pdats m ρ 0 c).arrays ((pdats m ρ 0 c).arrAt · 0) ∗ Pipeline.unscopedRest spec0 c (R1 m ρ c)) :=
      arrays_of_bufs0 (R1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (R1 m ρ c))
        ⊢ (unscopedBufs c (R2 m ρ c) : sProp 𝕄) :=
      bufs_of_arrays0 (R1 m ρ) c (R2 m ρ c) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers, each at its window's share, and put back at the exit contents; the generator
    register goes into the invariant and comes out; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (R3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (R3 m ρ c)
  hentry c := by
    rw [Pipeline.ownSems0_none]
    have hsplit : (unscopedBufs c (R3 m ρ c) : sProp 𝕄)
        ⊢ iprop((pdats m ρ 1 c).arrays ((pdats m ρ 1 c).arrAt · 0) ∗ Pipeline.unscopedRest spec1 c (R3 m ρ c)) :=
      arrays_of_bufs1 (R3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (R3 m ρ c))
        ⊢ (unscopedBufs c (R4 m ρ c) : sProp 𝕄) :=
      bufs_of_arrays1 (R3 m ρ) c (R4 m ρ c) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- So the argument arrays end as launched: the frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

end Cert.KernelIdeal.Hand

end
-- ==== Proof.KI.Payload.lean ====
/-
  The value the body stores, read at an entry of the 80 × 512 tile, over the extended reals: for row p of the tile
  and output feature o,

      (∑ d, (∑ j, A(p, j) · X(j, d)) · Wl(d, o)) + B(0, o) + ∑ d, M(p, d) · Wr(d, o),

  A the tile of the count matrix, X the whole feature array, M the tile's own rows of it, Wl and Wr the (already
  transposed) weights, B the bias row; the first layer's body takes the maximum of this with 0. Each matrix product
  into a zero accumulator is the plain sum over the contracted axis, and a change of float format is the identity.
-/
import proofs.«405564_j1906965479432_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.ValueIdx

/-- The tile's value before the rectifier, at (p, o). -/
def tileAt (A : S80x10000.Idx → EReal) (X : S10000x512.Idx → EReal) (Wl : S512x512.Idx → EReal) (M : S80x512.Idx → EReal)
    (Wr : S512x512.Idx → EReal) (B : S1x512.Idx → EReal) (p : Fin 80) (o : Fin 512) : EReal :=
  ((∑ d : Fin 512, (∑ j : Fin 10000, A (ix2 p j) * X (ix2 j d)) * Wl (ix2 d o)) + B (ix2 0 o))
    + ∑ d : Fin 512, M (ix2 p d) * Wr (ix2 d o)

/-! ## The operand indices of the two matrix products -/

/-- The count tile times the features: the left operand is read at the output's row … -/
theorem lhs_cx_0 (i : S80x512.Idx) (q : dot_S80x10000_S10000x512_S80x512_1_0_0_1_n_n.contr.Idx) :
    (dot_S80x10000_S10000x512_S80x512_1_0_0_1_n_n.lhsIdx i q 0).val = (i 0).val := by
  unfold DotDims.lhsIdx
  rw [dif_neg (show ¬(0 : Fin S80x10000.rank) ∈ dot_S80x10000_S10000x512_S80x512_1_0_0_1_n_n.lhsBatch by decide), dif_pos (show (0 : Fin S80x10000.rank) ∈ dot_S80x10000_S10000x512_S80x512_1_0_0_1_n_n.lhsNonContracting by decide)]
  rfl
/-- … and the contracted coordinate; -/
theorem lhs_cx_1 (i : S80x512.Idx) (q : dot_S80x10000_S10000x512_S80x512_1_0_0_1_n_n.contr.Idx) :
    (dot_S80x10000_S10000x512_S80x512_1_0_0_1_n_n.lhsIdx i q 1).val = (q ⟨0, by decide⟩).val :=
  dot_S80x10000_S10000x512_S80x512_1_0_0_1_n_n.lhsIdx_val_of_single rfl i q
/-- the right operand at the contracted coordinate … -/
theorem rhs_cx_0 (i : S80x512.Idx) (q : dot_S80x10000_S10000x512_S80x512_1_0_0_1_n_n.contr.Idx) :
    (dot_S80x10000_S10000x512_S80x512_1_0_0_1_n_n.rhsIdx i q 0).val = (q ⟨0, by decide⟩).val :=
  dot_S80x10000_S10000x512_S80x512_1_0_0_1_n_n.rhsIdx_val_of_single rfl i q
/-- … and the output's column. -/
theorem rhs_cx_1 (i : S80x512.Idx) (q : dot_S80x10000_S10000x512_S80x512_1_0_0_1_n_n.contr.Idx) :
    (dot_S80x10000_S10000x512_S80x512_1_0_0_1_n_n.rhsIdx i q 1).val = (i 1).val := by
  unfold DotDims.rhsIdx
  rw [dif_neg (show ¬(1 : Fin S10000x512.rank) ∈ dot_S80x10000_S10000x512_S80x512_1_0_0_1_n_n.rhsBatch by decide), dif_pos (show (1 : Fin S10000x512.rank) ∈ dot_S80x10000_S10000x512_S80x512_1_0_0_1_n_n.rhsNonContracting by decide)]
  rfl

/-- A tile times a weight matrix: the same four facts. -/
theorem lhs_w_0 (i : S80x512.Idx) (q : dot_S80x512_S512x512_S80x512_1_0_0_1_n_n.contr.Idx) :
    (dot_S80x512_S512x512_S80x512_1_0_0_1_n_n.lhsIdx i q 0).val = (i 0).val := by
  unfold DotDims.lhsIdx
  rw [dif_neg (show ¬(0 : Fin S80x512.rank) ∈ dot_S80x512_S512x512_S80x512_1_0_0_1_n_n.lhsBatch by decide), dif_pos (show (0 : Fin S80x512.rank) ∈ dot_S80x512_S512x512_S80x512_1_0_0_1_n_n.lhsNonContracting by decide)]
  rfl
theorem lhs_w_1 (i : S80x512.Idx) (q : dot_S80x512_S512x512_S80x512_1_0_0_1_n_n.contr.Idx) :
    (dot_S80x512_S512x512_S80x512_1_0_0_1_n_n.lhsIdx i q 1).val = (q ⟨0, by decide⟩).val :=
  dot_S80x512_S512x512_S80x512_1_0_0_1_n_n.lhsIdx_val_of_single rfl i q
theorem rhs_w_0 (i : S80x512.Idx) (q : dot_S80x512_S512x512_S80x512_1_0_0_1_n_n.contr.Idx) :
    (dot_S80x512_S512x512_S80x512_1_0_0_1_n_n.rhsIdx i q 0).val = (q ⟨0, by decide⟩).val :=
  dot_S80x512_S512x512_S80x512_1_0_0_1_n_n.rhsIdx_val_of_single rfl i q
theorem rhs_w_1 (i : S80x512.Idx) (q : dot_S80x512_S512x512_S80x512_1_0_0_1_n_n.contr.Idx) :
    (dot_S80x512_S512x512_S80x512_1_0_0_1_n_n.rhsIdx i q 1).val = (i 1).val := by
  unfold DotDims.rhsIdx
  rw [dif_neg (show ¬(1 : Fin S512x512.rank) ∈ dot_S80x512_S512x512_S80x512_1_0_0_1_n_n.rhsBatch by decide), dif_pos (show (1 : Fin S512x512.rank) ∈ dot_S80x512_S512x512_S80x512_1_0_0_1_n_n.rhsNonContracting by decide)]
  rfl

/-! ## Each product into the zero accumulator, as a sum over the contracted axis -/

/-- The count tile times the features at (p, d): the sum over the nodes. -/
theorem matmul_cx_apply (L : FVec Ideal S80x10000 .bf16) (R : FVec Ideal S10000x512 .bf16) (p : Fin 80) (d : Fin 512) :
    matmul dot_S80x10000_S10000x512_S80x512_1_0_0_1_n_n none L R (constant S80x512 .f32 0x00000000#32) (ix2 p d)
      = ∑ j : Fin 10000, L (ix2 p j) * R (ix2 j d) := by
  refine (Ideal.matmul_constant_zero_apply dot_S80x10000_S10000x512_S80x512_1_0_0_1_n_n none L R (ix2 p d)).trans ?_
  rw [← Equiv.sum_comp (ValueIdx.contrEquiv1 dot_S80x10000_S10000x512_S80x512_1_0_0_1_n_n 10000 rfl rfl).symm]
  refine Finset.sum_congr rfl fun k _ => ?_
  have hk := ValueIdx.contrEquiv1_symm_val dot_S80x10000_S10000x512_S80x512_1_0_0_1_n_n 10000 rfl rfl k
  have el : dot_S80x10000_S10000x512_S80x512_1_0_0_1_n_n.lhsIdx (ix2 p d) ((ValueIdx.contrEquiv1 dot_S80x10000_S10000x512_S80x512_1_0_0_1_n_n 10000 rfl rfl).symm k) = ix2 p k := funext fun a => Fin.ext (by
    match a with
    | ⟨0, _⟩ => exact lhs_cx_0 _ _
    | ⟨1, _⟩ => exact (lhs_cx_1 _ _).trans hk)
  have er : dot_S80x10000_S10000x512_S80x512_1_0_0_1_n_n.rhsIdx (ix2 p d) ((ValueIdx.contrEquiv1 dot_S80x10000_S10000x512_S80x512_1_0_0_1_n_n 10000 rfl rfl).symm k) = ix2 k d := funext fun a => Fin.ext (by
    match a with
    | ⟨0, _⟩ => exact (rhs_cx_0 _ _).trans hk
    | ⟨1, _⟩ => exact rhs_cx_1 _ _)
  rw [el, er]

/-- A tile times a weight matrix at (p, o): the sum over the features. -/
theorem matmul_w_apply (L : FVec Ideal S80x512 .bf16) (R : FVec Ideal S512x512 .bf16) (p : Fin 80) (o : Fin 512) :
    matmul dot_S80x512_S512x512_S80x512_1_0_0_1_n_n none L R (constant S80x512 .f32 0x00000000#32) (ix2 p o)
      = ∑ d : Fin 512, L (ix2 p d) * R (ix2 d o) := by
  refine (Ideal.matmul_constant_zero_apply dot_S80x512_S512x512_S80x512_1_0_0_1_n_n none L R (ix2 p o)).trans ?_
  rw [← Equiv.sum_comp (ValueIdx.contrEquiv1 dot_S80x512_S512x512_S80x512_1_0_0_1_n_n 512 rfl rfl).symm]
  refine Finset.sum_congr rfl fun k _ => ?_
  have hk := ValueIdx.contrEquiv1_symm_val dot_S80x512_S512x512_S80x512_1_0_0_1_n_n 512 rfl rfl k
  have el : dot_S80x512_S512x512_S80x512_1_0_0_1_n_n.lhsIdx (ix2 p o) ((ValueIdx.contrEquiv1 dot_S80x512_S512x512_S80x512_1_0_0_1_n_n 512 rfl rfl).symm k) = ix2 p k := funext fun a => Fin.ext (by
    match a with
    | ⟨0, _⟩ => exact lhs_w_0 _ _
    | ⟨1, _⟩ => exact (lhs_w_1 _ _).trans hk)
  have er : dot_S80x512_S512x512_S80x512_1_0_0_1_n_n.rhsIdx (ix2 p o) ((ValueIdx.contrEquiv1 dot_S80x512_S512x512_S80x512_1_0_0_1_n_n 512 rfl rfl).symm k) = ix2 k o := funext fun a => Fin.ext (by
    match a with
    | ⟨0, _⟩ => exact (rhs_w_0 _ _).trans hk
    | ⟨1, _⟩ => exact rhs_w_1 _ _)
  rw [el, er]

/-- The bias row spread over the tile reads, at (p, o), the row's entry o. -/
theorem bias_apply (B : FVec Ideal S1x512 .f32) (p : Fin 80) (o : Fin 512) :
    broadcastTo S80x512 B broadcasts_S1x512_S80x512 (ix2 p o) = B (ix2 0 o) := by
  refine broadcastTo_apply B broadcasts_S1x512_S80x512 (ix2 p o) (ix2 0 o) (fun a => ?_)
  match a with
  | ⟨0, _⟩ => rfl
  | ⟨1, _⟩ => rfl

/-- The second layer's stored value at (p, o). -/
theorem k1_pay1_apply (A : Vec Ideal S80x10000 .bf16) (X : Vec Ideal S10000x512 .bf16) (Wl : Vec Ideal S512x512 .bf16)
    (M : Vec Ideal S80x512 .bf16) (Wr : Vec Ideal S512x512 .bf16) (B : Vec Ideal S1x512 .f32) (p : Fin 80) (o : Fin 512) :
    k1_pay1 (F := Ideal) A X Wl M Wr B (ix2 p o) = tileAt A X Wl M Wr B p o := by
  unfold k1_pay1 tileAt
  simp only [shapeCast_self]
  rw [addf_apply, addf_apply, matmul_w_apply, matmul_w_apply, bias_apply]
  refine congrArg (fun t => t + B (ix2 0 o) + ∑ d : Fin 512, M (ix2 p d) * Wr (ix2 d o)) ?_
  refine Finset.sum_congr rfl fun d _ => ?_
  rw [truncf_apply, matmul_cx_apply]

/-- The first layer's stored value at (p, o): the same, rectified. -/
theorem k0_pay1_apply (A : Vec Ideal S80x10000 .bf16) (X : Vec Ideal S10000x512 .bf16) (Wl : Vec Ideal S512x512 .bf16)
    (M : Vec Ideal S80x512 .bf16) (Wr : Vec Ideal S512x512 .bf16) (B : Vec Ideal S1x512 .f32) (p : Fin 80) (o : Fin 512) :
    k0_pay1 (F := Ideal) A X Wl M Wr B (ix2 p o) = max (tileAt A X Wl M Wr B p o) 0 := by
  unfold k0_pay1
  rw [maximumf_apply, broadcast_apply]
  show max (k1_pay1 (F := Ideal) A X Wl M Wr B (ix2 p o)) (Ideal.ofBits .f32 0x00000000#32) = _
  rw [k1_pay1_apply, Ideal.ofBits_zero_f32]

end Cert.KernelIdeal.Hand

end
-- ==== Proof.Spec.lean ====
/-
  What both programs compute, as functions of the argument arrays over the extended reals.

  A graph of 10000 nodes with 512 features each and 160000 directed edges (row 0 of the edge list holds an edge's
  source, row 1 its destination). One layer sends node i to

      (mean of x over the sources of the edges into i) · Wlᵀ + b + x_i · Wrᵀ,

  the mean being the sum over those edges divided by max(their number, 1). The network is two layers with a
  rectifier between them.

  Two spellings of a layer are stated. `layerAt` sums over the EDGES into i (a row lookup per edge, then a sum per
  destination). `denseLayerAt` first counts, for every pair (i, j), the edges from j into i, divides each count by
  max(row total, 1), and then sums over ALL nodes j the weight times x_j. Over the reals the two agree when every edge
  word names a node (Algebra.lean); here they are only written down.
-/
import Idealize.ShloMosaic.PureOps.Ideal
import Idealize.ShloMosaic.Lib.ValueIdx
import Mathlib.Algebra.BigOperators.Group.Finset.Basic

noncomputable section

open scoped BigOperators

namespace Cert.Sage

open Idealize.ShloMosaic Idealize.ShloMosaic.ValueIdx

/-- Node features, the edge list, a weight matrix and a bias, at the ideal values. -/
abbrev Feat : Type := (⟨2, ![10000, 512]⟩ : Shape).Idx → EReal
abbrev Edges : Type := (⟨2, ![2, 160000]⟩ : Shape).Idx → BitVec 32
abbrev Wt : Type := (⟨2, ![512, 512]⟩ : Shape).Idx → EReal
abbrev Bias : Type := (⟨1, ![512]⟩ : Shape).Idx → EReal

/-- Every entry is a real number (neither infinity). -/
def IsReal {ι : Type} (f : ι → EReal) : Prop := ∀ i, ∃ r : ℝ, f i = (r : EReal)

/-- Every edge word, read signed, names a node. -/
def InRange (edge : Edges) : Prop := ∀ i, 0 ≤ (edge i).toInt ∧ (edge i).toInt < 10000

/-- A word counted from the end when it is negative. -/
def wrap (s : BitVec 32) : BitVec 32 := if s.toInt < 0 then s + 10000#32 else s

/-- The row a lookup at word `s` reads: `s` read signed and clamped into the rows. -/
def row (s : BitVec 32) : Fin 10000 := ⟨min s.toInt.toNat 9999, by omega⟩

/-! ## A layer as a sum over the edges into a node -/

/-- The source row of edge `e`. -/
def srcRow (edge : Edges) (e : Fin 160000) : Fin 10000 := row (wrap (edge (ix2 0 e)))

/-- The edges whose destination word, read signed, is node `i`. -/
def inEdges (edge : Edges) (i : Fin 10000) : Finset (Fin 160000) :=
  Finset.univ.filter fun e => (edge (ix2 1 e)).toInt = (i.val : ℤ)

/-- max(number of edges into `i`, 1). -/
def degree (edge : Edges) (i : Fin 10000) : EReal := max ((0 : EReal) + ∑ _e ∈ inEdges edge i, (1 : EReal)) 1

/-- The mean of feature `d` over the sources of the edges into `i`. -/
def meanIn (x : Feat) (edge : Edges) (i : Fin 10000) (d : Fin 512) : EReal :=
  Ideal.div ((0 : EReal) + ∑ e ∈ inEdges edge i, x (ix2 (srcRow edge e) d)) (degree edge i)

/-- One layer at node `i`, output feature `o`. -/
def layerAt (x : Feat) (edge : Edges) (Wl : Wt) (b : Bias) (Wr : Wt) (i : Fin 10000) (o : Fin 512) : EReal :=
  ((∑ d : Fin 512, meanIn x edge i d * Wl (ix2 o d)) + b (ix1 o)) + ∑ d : Fin 512, x (ix2 i d) * Wr (ix2 o d)

/-- One layer as an array. -/
def layer (x : Feat) (edge : Edges) (Wl : Wt) (b : Bias) (Wr : Wt) : Feat :=
  fun j => layerAt x edge Wl b Wr (j 0) (j 1)

/-- The rectifier, entry by entry. -/
def relu (y : Feat) : Feat := fun j => max (y j) 0

/-- Two layers with a rectifier between them. -/
def net (x : Feat) (edge : Edges) (W1l : Wt) (b1 : Bias) (W1r : Wt) (W2l : Wt) (b2 : Bias) (W2r : Wt) : Feat :=
  layer (relu (layer x edge W1l b1 W1r)) edge W2l b2 W2r

/-! ## A layer through the matrix of normalised edge counts -/

/-- The number of edges from `j` into `i`, both words counted from the end when negative and then read signed. -/
def adj (edge : Edges) (i j : Fin 10000) : EReal :=
  (0 : EReal) + ∑ _e ∈ Finset.univ.filter (fun e : Fin 160000 =>
    (wrap (edge (ix2 1 e))).toInt = (i.val : ℤ) ∧ (wrap (edge (ix2 0 e))).toInt = (j.val : ℤ)), (1 : EReal)

/-- Row `i`'s total count. -/
def rowTotal (edge : Edges) (i : Fin 10000) : EReal := (0 : EReal) + ∑ j : Fin 10000, adj edge i j

/-- The count from `j` into `i` over max(row total, 1). -/
def weight (edge : Edges) (i j : Fin 10000) : EReal := Ideal.div (adj edge i j) (max (rowTotal edge i) 1)

/-- One layer at node `i`, output feature `o`, the neighbourhood mean as a sum over ALL nodes. -/
def denseLayerAt (x : Feat) (edge : Edges) (Wl : Wt) (b : Bias) (Wr : Wt) (i : Fin 10000) (o : Fin 512) : EReal :=
  ((∑ d : Fin 512, (∑ j : Fin 10000, weight edge i j * x (ix2 j d)) * Wl (ix2 o d)) + b (ix1 o))
    + ∑ d : Fin 512, x (ix2 i d) * Wr (ix2 o d)

/-- That layer as an array. -/
def denseLayer (x : Feat) (edge : Edges) (Wl : Wt) (b : Bias) (Wr : Wt) : Feat :=
  fun j => denseLayerAt x edge Wl b Wr (j 0) (j 1)

/-- Two such layers with a rectifier between them. -/
def denseNet (x : Feat) (edge : Edges) (W1l : Wt) (b1 : Bias) (W1r : Wt) (W2l : Wt) (b2 : Bias) (W2r : Wt) : Feat :=
  denseLayer (relu (denseLayer x edge W1l b1 W1r)) edge W2l b2 W2r

end Cert.Sage

end
-- ==== Proof.KI.Value0.lean ====
/-
  What region 0 leaves in its output array, as ONE function of the arrays it is entered with: grid point t writes
  rows 80·t … 80·t + 79, computed from the same rows of the count matrix and of the feature array and from the whole
  feature array, weights and bias; the 125 tiles cover the 10000 rows, so the array after the region is, entry by
  entry, one layer of the network, rectified.
-/
import proofs.«405564_j1906965479432_1_alg».proof.Proof.KI.Region0
import proofs.«405564_j1906965479432_1_alg».proof.Proof.KI.Payload
import proofs.«405564_j1906965479432_1_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The offsets of a whole-tile rectangle are all zero. -/
theorem zero_off0 : (![0, 0] : Fin 2 → Nat) = fun _ => 0 := funext fun a => by fin_cases a <;> rfl

/-- The block index of each window at grid point t: the count tile, the feature rows and the output tile move down one
    block per point; the whole-array windows stay at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Where an entry of a block sits in its array: block index times block size plus the place inside the block -/

theorem emb0_0 (t : Fin cfg0.N) (p : Fin 80) (j : Fin 10000) (h : 80 * t.val + p.val < 10000) :
    ((cfg0.win 0).blk t).view.emb (ix2 p j) = (ix2 ⟨80 * t.val + p.val, h⟩ j : S10000x10000.Idx) := by
  obtain ⟨e0, e1, -⟩ := idx_facts0 t
  funext a; apply Fin.ext
  match a with
  | ⟨0, _⟩ => show win0_0.index t (0 : Fin 2) * 80 + 1 * p.val = 80 * t.val + p.val; omega
  | ⟨1, _⟩ => show win0_0.index t (1 : Fin 2) * 10000 + 1 * j.val = j.val; omega

theorem emb0_1 (t : Fin cfg0.N) (j : Fin 10000) (d : Fin 512) :
    ((cfg0.win 1).blk t).view.emb (ix2 j d) = (ix2 j d : S10000x512.Idx) := by
  obtain ⟨-, -, e0, e1, -⟩ := idx_facts0 t
  funext a; apply Fin.ext
  match a with
  | ⟨0, _⟩ => show win0_1.index t (0 : Fin 2) * 10000 + 1 * j.val = j.val; omega
  | ⟨1, _⟩ => show win0_1.index t (1 : Fin 2) * 512 + 1 * d.val = d.val; omega

theorem emb0_2 (t : Fin cfg0.N) (p : Fin 80) (d : Fin 512) (h : 80 * t.val + p.val < 10000) :
    ((cfg0.win 2).blk t).view.emb (ix2 p d) = (ix2 ⟨80 * t.val + p.val, h⟩ d : S10000x512.Idx) := by
  obtain ⟨-, -, -, -, e0, e1, -⟩ := idx_facts0 t
  funext a; apply Fin.ext
  match a with
  | ⟨0, _⟩ => show win0_2.index t (0 : Fin 2) * 80 + 1 * p.val = 80 * t.val + p.val; omega
  | ⟨1, _⟩ => show win0_2.index t (1 : Fin 2) * 512 + 1 * d.val = d.val; omega

theorem emb0_3 (t : Fin cfg0.N) (d o : Fin 512) :
    ((cfg0.win 3).blk t).view.emb (ix2 d o) = (ix2 d o : S512x512.Idx) := by
  obtain ⟨-, -, -, -, -, -, e0, e1, -⟩ := idx_facts0 t
  funext a; apply Fin.ext
  match a with
  | ⟨0, _⟩ => show win0_3.index t (0 : Fin 2) * 512 + 1 * d.val = d.val; omega
  | ⟨1, _⟩ => show win0_3.index t (1 : Fin 2) * 512 + 1 * o.val = o.val; omega

theorem emb0_4 (t : Fin cfg0.N) (d o : Fin 512) :
    ((cfg0.win 4).blk t).view.emb (ix2 d o) = (ix2 d o : S512x512.Idx) := by
  obtain ⟨-, -, -, -, -, -, -, -, e0, e1, -⟩ := idx_facts0 t
  funext a; apply Fin.ext
  match a with
  | ⟨0, _⟩ => show win0_4.index t (0 : Fin 2) * 512 + 1 * d.val = d.val; omega
  | ⟨1, _⟩ => show win0_4.index t (1 : Fin 2) * 512 + 1 * o.val = o.val; omega

theorem emb0_5 (t : Fin cfg0.N) (z : Fin 1) (o : Fin 512) :
    ((cfg0.win 5).blk t).view.emb (ix2 z o) = (ix2 z o : S1x512.Idx) := by
  obtain ⟨-, -, -, -, -, -, -, -, -, -, e0, e1, -⟩ := idx_facts0 t
  funext a; apply Fin.ext
  match a with
  | ⟨0, _⟩ => show win0_5.index t (0 : Fin 2) * 1 + 1 * z.val = z.val; omega
  | ⟨1, _⟩ => show win0_5.index t (1 : Fin 2) * 512 + 1 * o.val = o.val; omega

theorem emb0_6 (t : Fin cfg0.N) (p : Fin 80) (o : Fin 512) (h : 80 * t.val + p.val < 10000) :
    ((cfg0.win 6).blk t).view.emb (ix2 p o) = (ix2 ⟨80 * t.val + p.val, h⟩ o : S10000x512.Idx) := by
  obtain ⟨-, -, -, -, -, -, -, -, -, -, -, -, e0, e1⟩ := idx_facts0 t
  funext a; apply Fin.ext
  match a with
  | ⟨0, _⟩ => show win0_6.index t (0 : Fin 2) * 80 + 1 * p.val = 80 * t.val + p.val; omega
  | ⟨1, _⟩ => show win0_6.index t (1 : Fin 2) * 512 + 1 * o.val = o.val; omega

/-! ## The value at one entry of a tile -/

/-- If row p of the count tile is row r of the normalised count matrix, the tile's own row p is row r of x, and the
    whole arrays are x, the transposed weights and the bias row, then the stored value at (p, o) is the rectified
    layer at (r, o). -/
theorem point_value0 (edge : Cert.Sage.Edges) (x : Cert.Sage.Feat) (Wl : Cert.Sage.Wt) (b : Cert.Sage.Bias) (Wr : Cert.Sage.Wt)
    (A : Vec Ideal S80x10000 .bf16) (X : Vec Ideal S10000x512 .bf16) (W3 : Vec Ideal S512x512 .bf16)
    (M : Vec Ideal S80x512 .bf16) (W4 : Vec Ideal S512x512 .bf16) (B : Vec Ideal S1x512 .f32)
    (r : Fin 10000) (p : Fin 80) (o : Fin 512)
    (hA : ∀ j : Fin 10000, A (ix2 p j) = Cert.Sage.weight edge r j)
    (hX : ∀ (j : Fin 10000) (d : Fin 512), X (ix2 j d) = x (ix2 j d))
    (hM : ∀ d : Fin 512, M (ix2 p d) = x (ix2 r d))
    (hW3 : ∀ d o : Fin 512, W3 (ix2 d o) = Wl (ix2 o d))
    (hW4 : ∀ d o : Fin 512, W4 (ix2 d o) = Wr (ix2 o d))
    (hB : ∀ (z : Fin 1) (o : Fin 512), B (ix2 z o) = b (ix1 o)) :
    k0_pay1 (F := Ideal) A X W3 M W4 B (ix2 p o) = Cert.Sage.relu (Cert.Sage.denseLayer x edge Wl b Wr) (ix2 r o) := by
  rw [k0_pay1_apply]
  show max (tileAt A X W3 M W4 B p o) 0 = max (Cert.Sage.denseLayerAt x edge Wl b Wr r o) 0
  unfold tileAt Cert.Sage.denseLayerAt
  simp only [hA, hX, hM, hW3, hW4, hB]

/-! ## What a grid point writes back -/

/-- Point t writes back its block of the rectified layer. -/
theorem flushed0_eq (c : Dev nD) (edge : Cert.Sage.Edges) (x : Cert.Sage.Feat) (Wl : Cert.Sage.Wt) (b : Cert.Sage.Bias) (Wr : Cert.Sage.Wt)
    (hA : ∀ i j : Fin 10000, (V c main_v26 : S10000x10000.Idx → EReal) (ix2 i j) = Cert.Sage.weight edge i j)
    (hx : (V c main_v27 : S10000x512.Idx → EReal) = x)
    (hWl : ∀ d o : Fin 512, (V c main_v29 : S512x512.Idx → EReal) (ix2 d o) = Wl (ix2 o d))
    (hWr : ∀ d o : Fin 512, (V c main_v31 : S512x512.Idx → EReal) (ix2 d o) = Wr (ix2 o d))
    (hb : ∀ (z : Fin 1) (o : Fin 512), (V c main_v32 : S1x512.Idx → EReal) (ix2 z o) = b (ix1 o))
    (t : Fin cfg0.N) :
    (dat0 (F := Ideal) V c).flushed 6 t
      = ((cfg0.win 6).blk t).view.read (Elt Ideal) (Cert.Sage.relu (Cert.Sage.denseLayer x edge Wl b Wr)) := by
  show (cfg0.win 6).cut (grid0.coords t) ((dat0 V c).after 6 t) = _
  rw [after0_6]
  unfold out0_6
  rw [View.canon_unit_zero zero_off0]
  simp only [View.ld_unit_zero (S := S80x10000) zero_off0, View.ld_unit_zero (S := S10000x512) zero_off0,
    View.ld_unit_zero (S := S80x512) zero_off0, View.ld_unit_zero (S := S512x512) zero_off0, View.ld_unit_zero (S := S1x512) zero_off0]
  funext y
  obtain ⟨p, o, rfl⟩ : ∃ (p : Fin 80) (o : Fin 512), y = ix2 p o := ⟨y 0, y 1, eq_ix2 y⟩
  have ht : t.val < 125 := t.isLt
  have hr : 80 * t.val + p.val < 10000 := by have := p.isLt; omega
  show k0_pay1 (F := Ideal) (iblk0 V c 0 t) (iblk0 V c 1 t) (iblk0 V c 3 t) (iblk0 V c 2 t) (iblk0 V c 4 t) (iblk0 V c 5 t) (ix2 p o)
      = Cert.Sage.relu (Cert.Sage.denseLayer x edge Wl b Wr) (((cfg0.win 6).blk t).view.emb (ix2 p o))
  rw [emb0_6 t p o hr]
  refine point_value0 edge x Wl b Wr _ _ _ _ _ _ ⟨80 * t.val + p.val, hr⟩ p o ?_ ?_ ?_ ?_ ?_ ?_
  · intro j
    show V c main_v26 (((cfg0.win 0).blk t).view.emb (ix2 p j)) = _
    rw [emb0_0 t p j hr]; exact hA _ j
  · intro j d
    show V c main_v27 (((cfg0.win 1).blk t).view.emb (ix2 j d)) = _
    rw [emb0_1 t j d, hx]
  · intro d
    show V c main_v27 (((cfg0.win 2).blk t).view.emb (ix2 p d)) = _
    rw [emb0_2 t p d hr, hx]
  · intro d o'
    show V c main_v29 (((cfg0.win 3).blk t).view.emb (ix2 d o')) = _
    rw [emb0_3 t d o']; exact hWl d o'
  · intro d o'
    show V c main_v31 (((cfg0.win 4).blk t).view.emb (ix2 d o')) = _
    rw [emb0_4 t d o']; exact hWr d o'
  · intro z o'
    show V c main_v32 (((cfg0.win 5).blk t).view.emb (ix2 z o')) = _
    rw [emb0_5 t z o']; exact hb z o'

/-! ## The tiles cover the array -/

/-- An index of the output array lies in point t's block iff each coordinate lies in the block's range on its axis. -/
theorem mem_blk0 (t : Fin cfg0.N) (i : S10000x512.Idx) :
    i ∈ ((cfg0.win 6).blk t).view.set
      ↔ ∀ a : Fin 2, win0_6.index t a * S80x512.size a ≤ (i a).val ∧ (i a).val < win0_6.index t a * S80x512.size a + S80x512.size a := by
  show i ∈ ((View.whole main_v33).slice (win0_6.rect t)).set ↔ _
  rw [View.set_slice_whole, Rect.mem_set_unit]
  exact Iff.rfl

/-- Row r of the output lies in the tile of point r / 80, and every point writes its tile back. -/
theorem covered0 (i : S10000x512.Idx) :
    ∃ t : Fin cfg0.N, (cfg0.win 6).flush t = true ∧ i ∈ ((cfg0.win 6).blk t).view.set := by
  have hi0 : (i 0).val < 10000 := (i 0).isLt
  have hi1 : (i 1).val < 512 := (i 1).isLt
  have hq : (i 0).val / 80 < 125 := by omega
  refine ⟨⟨(i 0).val / 80, hq⟩, flush0_6 _, ?_⟩
  rw [mem_blk0]
  obtain ⟨-, -, -, -, -, -, -, -, -, -, -, -, e0, e1⟩ := idx_facts0 ⟨(i 0).val / 80, hq⟩
  have e0' : win0_6.index ⟨(i 0).val / 80, hq⟩ (0 : Fin 2) = (i 0).val / 80 := e0
  intro a
  match a with
  | ⟨0, _⟩ =>
    show win0_6.index ⟨(i 0).val / 80, hq⟩ (0 : Fin 2) * 80 ≤ (i 0).val
      ∧ (i 0).val < win0_6.index ⟨(i 0).val / 80, hq⟩ (0 : Fin 2) * 80 + 80
    omega
  | ⟨1, _⟩ =>
    show win0_6.index ⟨(i 0).val / 80, hq⟩ (1 : Fin 2) * 512 ≤ (i 1).val
      ∧ (i 1).val < win0_6.index ⟨(i 0).val / 80, hq⟩ (1 : Fin 2) * 512 + 512
    omega

/-- If the region is entered with the count matrix over max(row total, 1) of an edge list, a feature array `x`, and
    weights and a bias laid out as the body reads them (the weights transposed, the bias a row), then its output
    array ends at that layer of `x`, rectified. -/
theorem arrAt0_eq (c : Dev nD) (edge : Cert.Sage.Edges) (x : Cert.Sage.Feat) (Wl : Cert.Sage.Wt) (b : Cert.Sage.Bias) (Wr : Cert.Sage.Wt)
    (hA : ∀ i j : Fin 10000, (V c main_v26 : S10000x10000.Idx → EReal) (ix2 i j) = Cert.Sage.weight edge i j)
    (hx : (V c main_v27 : S10000x512.Idx → EReal) = x)
    (hWl : ∀ d o : Fin 512, (V c main_v29 : S512x512.Idx → EReal) (ix2 d o) = Wl (ix2 o d))
    (hWr : ∀ d o : Fin 512, (V c main_v31 : S512x512.Idx → EReal) (ix2 d o) = Wr (ix2 o d))
    (hb : ∀ (z : Fin 1) (o : Fin 512), (V c main_v32 : S1x512.Idx → EReal) (ix2 z o) = b (ix1 o)) :
    ((dat0 (F := Ideal) V c).arrAt 6 cfg0.N : S10000x512.Idx → EReal)
      = Cert.Sage.relu (Cert.Sage.denseLayer x edge Wl b Wr) := by
  exact (dat0 V c).arrAt_eq_of_cover 6 _ (fun t _ => flushed0_eq V c edge x Wl b Wr hA hx hWl hWr hb t) covered0

end Cert.KernelIdeal.Hand

end
-- ==== Proof.KI.Value1.lean ====
/-
  What region 1 leaves in its output array, as ONE function of the arrays it is entered with: grid point t writes
  rows 80·t … 80·t + 79, computed from the same rows of the count matrix and of the feature array and from the whole
  feature array, weights and bias; the 125 tiles cover the 10000 rows, so the array after the region is, entry by
  entry, one layer of the network.
-/
import proofs.«405564_j1906965479432_1_alg».proof.Proof.KI.Region1
import proofs.«405564_j1906965479432_1_alg».proof.Proof.KI.Payload
import proofs.«405564_j1906965479432_1_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The offsets of a whole-tile rectangle are all zero. -/
theorem zero_off1 : (![0, 0] : Fin 2 → Nat) = fun _ => 0 := funext fun a => by fin_cases a <;> rfl

/-- The block index of each window at grid point t: the count tile, the feature rows and the output tile move down one
    block per point; the whole-array windows stay at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## Where an entry of a block sits in its array: block index times block size plus the place inside the block -/

theorem emb1_0 (t : Fin cfg1.N) (p : Fin 80) (j : Fin 10000) (h : 80 * t.val + p.val < 10000) :
    ((cfg1.win 0).blk t).view.emb (ix2 p j) = (ix2 ⟨80 * t.val + p.val, h⟩ j : S10000x10000.Idx) := by
  obtain ⟨e0, e1, -⟩ := idx_facts1 t
  funext a; apply Fin.ext
  match a with
  | ⟨0, _⟩ => show win1_0.index t (0 : Fin 2) * 80 + 1 * p.val = 80 * t.val + p.val; omega
  | ⟨1, _⟩ => show win1_0.index t (1 : Fin 2) * 10000 + 1 * j.val = j.val; omega

theorem emb1_1 (t : Fin cfg1.N) (j : Fin 10000) (d : Fin 512) :
    ((cfg1.win 1).blk t).view.emb (ix2 j d) = (ix2 j d : S10000x512.Idx) := by
  obtain ⟨-, -, e0, e1, -⟩ := idx_facts1 t
  funext a; apply Fin.ext
  match a with
  | ⟨0, _⟩ => show win1_1.index t (0 : Fin 2) * 10000 + 1 * j.val = j.val; omega
  | ⟨1, _⟩ => show win1_1.index t (1 : Fin 2) * 512 + 1 * d.val = d.val; omega

theorem emb1_2 (t : Fin cfg1.N) (p : Fin 80) (d : Fin 512) (h : 80 * t.val + p.val < 10000) :
    ((cfg1.win 2).blk t).view.emb (ix2 p d) = (ix2 ⟨80 * t.val + p.val, h⟩ d : S10000x512.Idx) := by
  obtain ⟨-, -, -, -, e0, e1, -⟩ := idx_facts1 t
  funext a; apply Fin.ext
  match a with
  | ⟨0, _⟩ => show win1_2.index t (0 : Fin 2) * 80 + 1 * p.val = 80 * t.val + p.val; omega
  | ⟨1, _⟩ => show win1_2.index t (1 : Fin 2) * 512 + 1 * d.val = d.val; omega

theorem emb1_3 (t : Fin cfg1.N) (d o : Fin 512) :
    ((cfg1.win 3).blk t).view.emb (ix2 d o) = (ix2 d o : S512x512.Idx) := by
  obtain ⟨-, -, -, -, -, -, e0, e1, -⟩ := idx_facts1 t
  funext a; apply Fin.ext
  match a with
  | ⟨0, _⟩ => show win1_3.index t (0 : Fin 2) * 512 + 1 * d.val = d.val; omega
  | ⟨1, _⟩ => show win1_3.index t (1 : Fin 2) * 512 + 1 * o.val = o.val; omega

theorem emb1_4 (t : Fin cfg1.N) (d o : Fin 512) :
    ((cfg1.win 4).blk t).view.emb (ix2 d o) = (ix2 d o : S512x512.Idx) := by
  obtain ⟨-, -, -, -, -, -, -, -, e0, e1, -⟩ := idx_facts1 t
  funext a; apply Fin.ext
  match a with
  | ⟨0, _⟩ => show win1_4.index t (0 : Fin 2) * 512 + 1 * d.val = d.val; omega
  | ⟨1, _⟩ => show win1_4.index t (1 : Fin 2) * 512 + 1 * o.val = o.val; omega

theorem emb1_5 (t : Fin cfg1.N) (z : Fin 1) (o : Fin 512) :
    ((cfg1.win 5).blk t).view.emb (ix2 z o) = (ix2 z o : S1x512.Idx) := by
  obtain ⟨-, -, -, -, -, -, -, -, -, -, e0, e1, -⟩ := idx_facts1 t
  funext a; apply Fin.ext
  match a with
  | ⟨0, _⟩ => show win1_5.index t (0 : Fin 2) * 1 + 1 * z.val = z.val; omega
  | ⟨1, _⟩ => show win1_5.index t (1 : Fin 2) * 512 + 1 * o.val = o.val; omega

theorem emb1_6 (t : Fin cfg1.N) (p : Fin 80) (o : Fin 512) (h : 80 * t.val + p.val < 10000) :
    ((cfg1.win 6).blk t).view.emb (ix2 p o) = (ix2 ⟨80 * t.val + p.val, h⟩ o : S10000x512.Idx) := by
  obtain ⟨-, -, -, -, -, -, -, -, -, -, -, -, e0, e1⟩ := idx_facts1 t
  funext a; apply Fin.ext
  match a with
  | ⟨0, _⟩ => show win1_6.index t (0 : Fin 2) * 80 + 1 * p.val = 80 * t.val + p.val; omega
  | ⟨1, _⟩ => show win1_6.index t (1 : Fin 2) * 512 + 1 * o.val = o.val; omega

/-! ## The value at one entry of a tile -/

/-- If row p of the count tile is row r of the normalised count matrix, the tile's own row p is row r of x, and the
    whole arrays are x, the transposed weights and the bias row, then the stored value at (p, o) is the
    layer at (r, o). -/
theorem point_value1 (edge : Cert.Sage.Edges) (x : Cert.Sage.Feat) (Wl : Cert.Sage.Wt) (b : Cert.Sage.Bias) (Wr : Cert.Sage.Wt)
    (A : Vec Ideal S80x10000 .bf16) (X : Vec Ideal S10000x512 .bf16) (W3 : Vec Ideal S512x512 .bf16)
    (M : Vec Ideal S80x512 .bf16) (W4 : Vec Ideal S512x512 .bf16) (B : Vec Ideal S1x512 .f32)
    (r : Fin 10000) (p : Fin 80) (o : Fin 512)
    (hA : ∀ j : Fin 10000, A (ix2 p j) = Cert.Sage.weight edge r j)
    (hX : ∀ (j : Fin 10000) (d : Fin 512), X (ix2 j d) = x (ix2 j d))
    (hM : ∀ d : Fin 512, M (ix2 p d) = x (ix2 r d))
    (hW3 : ∀ d o : Fin 512, W3 (ix2 d o) = Wl (ix2 o d))
    (hW4 : ∀ d o : Fin 512, W4 (ix2 d o) = Wr (ix2 o d))
    (hB : ∀ (z : Fin 1) (o : Fin 512), B (ix2 z o) = b (ix1 o)) :
    k1_pay1 (F := Ideal) A X W3 M W4 B (ix2 p o) = Cert.Sage.denseLayer x edge Wl b Wr (ix2 r o) := by
  rw [k1_pay1_apply]
  show tileAt A X W3 M W4 B p o = Cert.Sage.denseLayerAt x edge Wl b Wr r o
  unfold tileAt Cert.Sage.denseLayerAt
  simp only [hA, hX, hM, hW3, hW4, hB]

/-! ## What a grid point writes back -/

/-- Point t writes back its block of the layer. -/
theorem flushed1_eq (c : Dev nD) (edge : Cert.Sage.Edges) (x : Cert.Sage.Feat) (Wl : Cert.Sage.Wt) (b : Cert.Sage.Bias) (Wr : Cert.Sage.Wt)
    (hA : ∀ i j : Fin 10000, (V c main_v26 : S10000x10000.Idx → EReal) (ix2 i j) = Cert.Sage.weight edge i j)
    (hx : (V c main_v34 : S10000x512.Idx → EReal) = x)
    (hWl : ∀ d o : Fin 512, (V c main_v36 : S512x512.Idx → EReal) (ix2 d o) = Wl (ix2 o d))
    (hWr : ∀ d o : Fin 512, (V c main_v38 : S512x512.Idx → EReal) (ix2 d o) = Wr (ix2 o d))
    (hb : ∀ (z : Fin 1) (o : Fin 512), (V c main_v39 : S1x512.Idx → EReal) (ix2 z o) = b (ix1 o))
    (t : Fin cfg1.N) :
    (dat1 (F := Ideal) V c).flushed 6 t
      = ((cfg1.win 6).blk t).view.read (Elt Ideal) (Cert.Sage.denseLayer x edge Wl b Wr) := by
  show (cfg1.win 6).cut (grid1.coords t) ((dat1 V c).after 6 t) = _
  rw [after1_6]
  unfold out1_6
  rw [View.canon_unit_zero zero_off1]
  simp only [View.ld_unit_zero (S := S80x10000) zero_off1, View.ld_unit_zero (S := S10000x512) zero_off1,
    View.ld_unit_zero (S := S80x512) zero_off1, View.ld_unit_zero (S := S512x512) zero_off1, View.ld_unit_zero (S := S1x512) zero_off1]
  funext y
  obtain ⟨p, o, rfl⟩ : ∃ (p : Fin 80) (o : Fin 512), y = ix2 p o := ⟨y 0, y 1, eq_ix2 y⟩
  have ht : t.val < 125 := t.isLt
  have hr : 80 * t.val + p.val < 10000 := by have := p.isLt; omega
  show k1_pay1 (F := Ideal) (iblk1 V c 0 t) (iblk1 V c 1 t) (iblk1 V c 3 t) (iblk1 V c 2 t) (iblk1 V c 4 t) (iblk1 V c 5 t) (ix2 p o)
      = Cert.Sage.denseLayer x edge Wl b Wr (((cfg1.win 6).blk t).view.emb (ix2 p o))
  rw [emb1_6 t p o hr]
  refine point_value1 edge x Wl b Wr _ _ _ _ _ _ ⟨80 * t.val + p.val, hr⟩ p o ?_ ?_ ?_ ?_ ?_ ?_
  · intro j
    show V c main_v26 (((cfg1.win 0).blk t).view.emb (ix2 p j)) = _
    rw [emb1_0 t p j hr]; exact hA _ j
  · intro j d
    show V c main_v34 (((cfg1.win 1).blk t).view.emb (ix2 j d)) = _
    rw [emb1_1 t j d, hx]
  · intro d
    show V c main_v34 (((cfg1.win 2).blk t).view.emb (ix2 p d)) = _
    rw [emb1_2 t p d hr, hx]
  · intro d o'
    show V c main_v36 (((cfg1.win 3).blk t).view.emb (ix2 d o')) = _
    rw [emb1_3 t d o']; exact hWl d o'
  · intro d o'
    show V c main_v38 (((cfg1.win 4).blk t).view.emb (ix2 d o')) = _
    rw [emb1_4 t d o']; exact hWr d o'
  · intro z o'
    show V c main_v39 (((cfg1.win 5).blk t).view.emb (ix2 z o')) = _
    rw [emb1_5 t z o']; exact hb z o'

/-! ## The tiles cover the array -/

/-- An index of the output array lies in point t's block iff each coordinate lies in the block's range on its axis. -/
theorem mem_blk1 (t : Fin cfg1.N) (i : S10000x512.Idx) :
    i ∈ ((cfg1.win 6).blk t).view.set
      ↔ ∀ a : Fin 2, win1_6.index t a * S80x512.size a ≤ (i a).val ∧ (i a).val < win1_6.index t a * S80x512.size a + S80x512.size a := by
  show i ∈ ((View.whole main_v40).slice (win1_6.rect t)).set ↔ _
  rw [View.set_slice_whole, Rect.mem_set_unit]
  exact Iff.rfl

/-- Row r of the output lies in the tile of point r / 80, and every point writes its tile back. -/
theorem covered1 (i : S10000x512.Idx) :
    ∃ t : Fin cfg1.N, (cfg1.win 6).flush t = true ∧ i ∈ ((cfg1.win 6).blk t).view.set := by
  have hi0 : (i 0).val < 10000 := (i 0).isLt
  have hi1 : (i 1).val < 512 := (i 1).isLt
  have hq : (i 0).val / 80 < 125 := by omega
  refine ⟨⟨(i 0).val / 80, hq⟩, flush1_6 _, ?_⟩
  rw [mem_blk1]
  obtain ⟨-, -, -, -, -, -, -, -, -, -, -, -, e0, e1⟩ := idx_facts1 ⟨(i 0).val / 80, hq⟩
  have e0' : win1_6.index ⟨(i 0).val / 80, hq⟩ (0 : Fin 2) = (i 0).val / 80 := e0
  intro a
  match a with
  | ⟨0, _⟩ =>
    show win1_6.index ⟨(i 0).val / 80, hq⟩ (0 : Fin 2) * 80 ≤ (i 0).val
      ∧ (i 0).val < win1_6.index ⟨(i 0).val / 80, hq⟩ (0 : Fin 2) * 80 + 80
    omega
  | ⟨1, _⟩ =>
    show win1_6.index ⟨(i 0).val / 80, hq⟩ (1 : Fin 2) * 512 ≤ (i 1).val
      ∧ (i 1).val < win1_6.index ⟨(i 0).val / 80, hq⟩ (1 : Fin 2) * 512 + 512
    omega

/-- If the region is entered with the count matrix over max(row total, 1) of an edge list, a feature array `x`, and
    weights and a bias laid out as the body reads them (the weights transposed, the bias a row), then its output
    array ends at that layer of `x`. -/
theorem arrAt1_eq (c : Dev nD) (edge : Cert.Sage.Edges) (x : Cert.Sage.Feat) (Wl : Cert.Sage.Wt) (b : Cert.Sage.Bias) (Wr : Cert.Sage.Wt)
    (hA : ∀ i j : Fin 10000, (V c main_v26 : S10000x10000.Idx → EReal) (ix2 i j) = Cert.Sage.weight edge i j)
    (hx : (V c main_v34 : S10000x512.Idx → EReal) = x)
    (hWl : ∀ d o : Fin 512, (V c main_v36 : S512x512.Idx → EReal) (ix2 d o) = Wl (ix2 o d))
    (hWr : ∀ d o : Fin 512, (V c main_v38 : S512x512.Idx → EReal) (ix2 d o) = Wr (ix2 o d))
    (hb : ∀ (z : Fin 1) (o : Fin 512), (V c main_v39 : S1x512.Idx → EReal) (ix2 z o) = b (ix1 o)) :
    ((dat1 (F := Ideal) V c).arrAt 6 cfg1.N : S10000x512.Idx → EReal)
      = Cert.Sage.denseLayer x edge Wl b Wr := by
  exact (dat1 V c).arrAt_eq_of_cover 6 _ (fun t _ => flushed1_eq V c edge x Wl b Wr hA hx hWl hWr hb t) covered1

end Cert.KernelIdeal.Hand

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.LibPairScatter.lean ====
/-
  GENERAL LEMMAS: two accumulating scatters of SCALAR updates read at an index over the extended reals, for arbitrary
  extents.

  * into a vector [N] at a column [E, 1] of start words (a count per destination: `vecScatterAdd_apply`): result d is
    the operand's entry plus the sum of the updates of the edges whose word, read signed, is d;
  * into a matrix [N, M] at a two-column table [E, 2] of start words (a count per pair: `pairScatterAdd_apply`): result
    (i, j) is the operand's entry plus the sum of the updates of the edges whose two words, read signed, are i and j.
  An update whose word names no row (or whose pair names no entry) lands nowhere.
  Last, two columns [E, 1] joined along the second axis into a table [E, 2], read at an index (`concatCols_apply_zero`,
  `concatCols_apply_one`): column 0 of the table is the first piece, column 1 the second.
-/
import Idealize.ShloMosaic.PureOps.Ideal
import Idealize.ShloMosaic.PureOps.Contract
import Idealize.ShloMosaic.Lib.ValueIdx
import Idealize.ShloMosaic.Lib.Pipeline.Value
import Mathlib.Algebra.BigOperators.Group.Finset.Basic
import Mathlib.Algebra.BigOperators.Fin

noncomputable section

open scoped BigOperators

namespace Cert.Hand.Scatter

open Idealize.ShloMosaic Idealize.ShloMosaic.ValueIdx

/-- The dimension numbers of a scatter of scalars [E] into a vector [N] at a column [E, 1] of start words. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A sum over the indices of a rank-1 shape is the sum over its one coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := ix1, left_inv := fun i => (eq_ix1 i).symm, right_inv := fun _ => rfl }
  rw [← Equiv.sum_comp eqv.symm f]
  rfl

/-- The window of update e into a vector starts at the word of e, read signed … -/
theorem vecScatter_start_zero {N E w : Nat} (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and its window coordinate there is 0: a scalar update has no window axis. -/
theorem vecScatter_window_zero {N E : Nat} (wf : ScatterDims.WF ⟨1, ![N]⟩ ⟨2, ![E, 1]⟩ ⟨1, ![E]⟩ [] [0] [0] 1)
    (e : Fin E) :
    (vecScatter N E wf).window (ix1 e) 0 = 0 := by
  unfold ScatterDims.window
  rw [dif_neg]
  show (0 : Fin 1) ∉ (List.finRange 1).filter (· ∉ [(0 : Fin 1)])
  decide

/-- Update e lands at d exactly when the word of e, read signed, is d. -/
theorem vecScatter_resultIdx_iff {N E w : Nat} (wf : ScatterDims.WF ⟨1, ![N]⟩ ⟨2, ![E, 1]⟩ ⟨1, ![E]⟩ [] [0] [0] 1)
    (idx : IVec ⟨2, ![E, 1]⟩ w) (e : Fin E) (d : Fin N) :
    (vecScatter N E wf).resultIdx? (ix1 e) idx = some (ix1 d) ↔ (idx (ix2 e 0)).toInt = (d.val : ℤ) := by
  unfold ScatterDims.resultIdx?
  split
  · next h =>
    rw [Option.some.injEq]
    constructor
    · intro hf
      have e0 := congrArg (fun f => (f 0).val) hf
      simp only [vecScatter_start_zero, vecScatter_window_zero] at e0
      have h0 := h 0
      rw [vecScatter_start_zero, vecScatter_window_zero] at h0
      have : ((ix1 d : (⟨1, ![N]⟩ : Shape).Idx) 0).val = d.val := rfl
      omega
    · intro hd
      funext a
      refine Fin.ext ?_
      match a with
      | ⟨0, _⟩ =>
        show ((vecScatter N E wf).start (ix1 e) idx 0 + ((vecScatter N E wf).window (ix1 e) 0 : ℕ)).toNat = d.val
        rw [vecScatter_start_zero, vecScatter_window_zero]
        omega
  · next h =>
    constructor
    · intro hf
      exact absurd hf (by simp)
    · intro hd
      exfalso
      apply h
      intro a
      match a with
      | ⟨0, _⟩ =>
        show 0 ≤ (vecScatter N E wf).start (ix1 e) idx 0 + ((vecScatter N E wf).window (ix1 e) 0 : ℕ)
          ∧ (vecScatter N E wf).start (ix1 e) idx 0 + ((vecScatter N E wf).window (ix1 e) 0 : ℕ) < (N : ℤ)
        rw [vecScatter_start_zero, vecScatter_window_zero]
        have := d.isLt
        omega

/-- The accumulating scatter into a vector at d: the operand's entry plus the updates of the edges whose word is d. -/
theorem vecScatterAdd_apply {N E w : Nat} {φ : FTy} (wf : ScatterDims.WF ⟨1, ![N]⟩ ⟨2, ![E, 1]⟩ ⟨1, ![E]⟩ [] [0] [0] 1)
    (idx : IVec ⟨2, ![E, 1]⟩ w) (x : FVec Ideal ⟨1, ![N]⟩ φ) (upd : FVec Ideal ⟨1, ![E]⟩ φ) (d : Fin N) :
    Host.scatterAdd (F := Ideal) (vecScatter N E wf) x idx upd (ix1 d)
      = x (ix1 d) + ∑ e ∈ Finset.univ.filter (fun e : Fin E => (idx (ix2 e 0)).toInt = (d.val : ℤ)), upd (ix1 e) := by
  show Ideal.hostScatterAdd (vecScatter N E wf) x idx upd (ix1 d) = _
  unfold Ideal.hostScatterAdd
  congr 1
  rw [Finset.sum_filter, sum_idx1, Finset.sum_filter]
  refine Finset.sum_congr rfl fun e _ => ?_
  by_cases hd : (idx (ix2 e 0)).toInt = (d.val : ℤ)
  · rw [if_pos hd, if_pos ((vecScatter_resultIdx_iff wf idx e d).mpr hd)]
  · rw [if_neg hd, if_neg (fun h => hd ((vecScatter_resultIdx_iff wf idx e d).mp h))]

/-- The dimension numbers of a scatter of scalars [E] into a matrix [N, M] at a table [E, 2] of start-word pairs. -/
abbrev pairScatter (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-- The window of update e into a matrix starts, on the row axis, at the first word of e read signed … -/
theorem pairScatter_start_zero {N M E w : Nat} (wf : ScatterDims.WF ⟨2, ![N, M]⟩ ⟨2, ![E, 2]⟩ ⟨1, ![E]⟩ [] [0, 1] [0, 1] 1)
    (idx : IVec ⟨2, ![E, 2]⟩ w) (e : Fin E) :
    (pairScatter N M E wf).start (ix1 e) idx 0 = (idx (ix2 e (0 : Fin 2))).toInt := by
  unfold ScatterDims.start
  have hm : (0 : Fin 2) ∈ (pairScatter N M E wf).scatterDimsToOperandDims := by
    show (0 : Fin 2) ∈ [(0 : Fin 2), 1]
    decide
  rw [dif_pos hm]
  have hsi : (pairScatter N M E wf).siIdx (ix1 e) ⟨List.idxOf (0 : Fin 2) (pairScatter N M E wf).scatterDimsToOperandDims,
      List.idxOf_lt_length_iff.2 hm⟩ = ix2 e (0 : Fin 2) := by
    funext b; refine Fin.ext ?_
    match b with
    | ⟨0, _⟩ => rfl
    | ⟨1, _⟩ => rfl
  rw [hsi]

/-- … and, on the column axis, at the second word of e read signed. -/
theorem pairScatter_start_one {N M E w : Nat} (wf : ScatterDims.WF ⟨2, ![N, M]⟩ ⟨2, ![E, 2]⟩ ⟨1, ![E]⟩ [] [0, 1] [0, 1] 1)
    (idx : IVec ⟨2, ![E, 2]⟩ w) (e : Fin E) :
    (pairScatter N M E wf).start (ix1 e) idx 1 = (idx (ix2 e (1 : Fin 2))).toInt := by
  unfold ScatterDims.start
  have hm : (1 : Fin 2) ∈ (pairScatter N M E wf).scatterDimsToOperandDims := by
    show (1 : Fin 2) ∈ [(0 : Fin 2), 1]
    decide
  rw [dif_pos hm]
  have hsi : (pairScatter N M E wf).siIdx (ix1 e) ⟨List.idxOf (1 : Fin 2) (pairScatter N M E wf).scatterDimsToOperandDims,
      List.idxOf_lt_length_iff.2 hm⟩ = ix2 e (1 : Fin 2) := by
    funext b; refine Fin.ext ?_
    match b with
    | ⟨0, _⟩ => rfl
    | ⟨1, _⟩ => rfl
  rw [hsi]

/-- A scalar update has no window axis: its window coordinate is 0 on both axes of the matrix. -/
theorem pairScatter_window {N M E : Nat} (wf : ScatterDims.WF ⟨2, ![N, M]⟩ ⟨2, ![E, 2]⟩ ⟨1, ![E]⟩ [] [0, 1] [0, 1] 1)
    (e : Fin E) (a : Fin 2) :
    (pairScatter N M E wf).window (ix1 e) a = 0 := by
  unfold ScatterDims.window
  rw [dif_neg]
  show a ∉ (List.finRange 2).filter (· ∉ [(0 : Fin 2), 1])
  revert a
  decide

/-- Update e lands at (i, j) exactly when its two words, read signed, are i and j. -/
theorem pairScatter_resultIdx_iff {N M E w : Nat} (wf : ScatterDims.WF ⟨2, ![N, M]⟩ ⟨2, ![E, 2]⟩ ⟨1, ![E]⟩ [] [0, 1] [0, 1] 1)
    (idx : IVec ⟨2, ![E, 2]⟩ w) (e : Fin E) (i : Fin N) (j : Fin M) :
    (pairScatter N M E wf).resultIdx? (ix1 e) idx = some (ix2 i j)
      ↔ (idx (ix2 e (0 : Fin 2))).toInt = (i.val : ℤ) ∧ (idx (ix2 e (1 : Fin 2))).toInt = (j.val : ℤ) := by
  unfold ScatterDims.resultIdx?
  split
  · next h =>
    rw [Option.some.injEq]
    constructor
    · intro hf
      have e0 := congrArg (fun f => (f 0).val) hf
      have e1 := congrArg (fun f => (f 1).val) hf
      simp only [pairScatter_start_zero, pairScatter_start_one, pairScatter_window] at e0 e1
      have h0 := h 0
      have h1 := h 1
      rw [pairScatter_start_zero, pairScatter_window] at h0
      rw [pairScatter_start_one, pairScatter_window] at h1
      have hi0 : ((ix2 i j : (⟨2, ![N, M]⟩ : Shape).Idx) 0).val = i.val := rfl
      have hj1 : ((ix2 i j : (⟨2, ![N, M]⟩ : Shape).Idx) 1).val = j.val := rfl
      refine ⟨?_, ?_⟩ <;> omega
    · rintro ⟨hi, hj⟩
      funext a
      refine Fin.ext ?_
      match a with
      | ⟨0, _⟩ =>
        show ((pairScatter N M E wf).start (ix1 e) idx 0 + ((pairScatter N M E wf).window (ix1 e) 0 : ℕ)).toNat = i.val
        rw [pairScatter_start_zero, pairScatter_window]
        omega
      | ⟨1, _⟩ =>
        show ((pairScatter N M E wf).start (ix1 e) idx 1 + ((pairScatter N M E wf).window (ix1 e) 1 : ℕ)).toNat = j.val
        rw [pairScatter_start_one, pairScatter_window]
        omega
  · next h =>
    constructor
    · intro hf
      exact absurd hf (by simp)
    · rintro ⟨hi, hj⟩
      exfalso
      apply h
      intro a
      match a with
      | ⟨0, _⟩ =>
        show 0 ≤ (pairScatter N M E wf).start (ix1 e) idx 0 + ((pairScatter N M E wf).window (ix1 e) 0 : ℕ)
          ∧ (pairScatter N M E wf).start (ix1 e) idx 0 + ((pairScatter N M E wf).window (ix1 e) 0 : ℕ) < (N : ℤ)
        rw [pairScatter_start_zero, pairScatter_window]
        have := i.isLt
        omega
      | ⟨1, _⟩ =>
        show 0 ≤ (pairScatter N M E wf).start (ix1 e) idx 1 + ((pairScatter N M E wf).window (ix1 e) 1 : ℕ)
          ∧ (pairScatter N M E wf).start (ix1 e) idx 1 + ((pairScatter N M E wf).window (ix1 e) 1 : ℕ) < (M : ℤ)
        rw [pairScatter_start_one, pairScatter_window]
        have := j.isLt
        omega

/-- The accumulating scatter into a matrix at (i, j): the operand's entry plus the updates of the edges whose pair of
    words, read signed, is (i, j). -/
theorem pairScatterAdd_apply {N M E w : Nat} {φ : FTy}
    (wf : ScatterDims.WF ⟨2, ![N, M]⟩ ⟨2, ![E, 2]⟩ ⟨1, ![E]⟩ [] [0, 1] [0, 1] 1)
    (idx : IVec ⟨2, ![E, 2]⟩ w) (x : FVec Ideal ⟨2, ![N, M]⟩ φ) (upd : FVec Ideal ⟨1, ![E]⟩ φ) (i : Fin N) (j : Fin M) :
    Host.scatterAdd (F := Ideal) (pairScatter N M E wf) x idx upd (ix2 i j)
      = x (ix2 i j) + ∑ e ∈ Finset.univ.filter (fun e : Fin E =>
          (idx (ix2 e (0 : Fin 2))).toInt = (i.val : ℤ) ∧ (idx (ix2 e (1 : Fin 2))).toInt = (j.val : ℤ)), upd (ix1 e) := by
  show Ideal.hostScatterAdd (pairScatter N M E wf) x idx upd (ix2 i j) = _
  unfold Ideal.hostScatterAdd
  congr 1
  rw [Finset.sum_filter, sum_idx1, Finset.sum_filter]
  refine Finset.sum_congr rfl fun e _ => ?_
  by_cases hd : (idx (ix2 e (0 : Fin 2))).toInt = (i.val : ℤ) ∧ (idx (ix2 e (1 : Fin 2))).toInt = (j.val : ℤ)
  · rw [if_pos hd, if_pos ((pairScatter_resultIdx_iff wf idx e i j).mpr hd)]
  · rw [if_neg hd, if_neg (fun h => hd ((pairScatter_resultIdx_iff wf idx e i j).mp h))]

/-! ## Two columns set side by side -/

/-- Two columns [E, 1] joined along the second axis into a table [E, 2]: entry (e, 0) is the first column at e … -/
theorem concatCols_apply_zero {α : Type} {E : Nat} (a b : (⟨2, ![E, 1]⟩ : Shape).Idx → α)
    (h : Shape.Concatenates [⟨2, ![E, 1]⟩, ⟨2, ![E, 1]⟩] ⟨2, ![E, 2]⟩ 1) (e : Fin E) :
    concatenate ⟨2, ![E, 2]⟩ 1 [⟨⟨2, ![E, 1]⟩, a⟩, ⟨⟨2, ![E, 1]⟩, b⟩] h (ix2 e (0 : Fin 2)) = a (ix2 e 0) := by
  refine concatenate_pair_apply_left (1 : Fin 2) a b h (ix2 e (0 : Fin 2)) rfl (ix2 e 0) fun c => ?_
  match c with
  | ⟨0, _⟩ => rfl
  | ⟨1, _⟩ => rfl

/-- … and entry (e, 1) is the second column at e: the second coordinate, less the first column's width 1, is 0. -/
theorem concatCols_apply_one {α : Type} {E : Nat} (a b : (⟨2, ![E, 1]⟩ : Shape).Idx → α)
    (h : Shape.Concatenates [⟨2, ![E, 1]⟩, ⟨2, ![E, 1]⟩] ⟨2, ![E, 2]⟩ 1) (e : Fin E) :
    concatenate ⟨2, ![E, 2]⟩ 1 [⟨⟨2, ![E, 1]⟩, a⟩, ⟨⟨2, ![E, 1]⟩, b⟩] h (ix2 e (1 : Fin 2)) = b (ix2 e 0) := by
  refine concatenate_pair_apply_right (1 : Fin 2) a b h (ix2 e (1 : Fin 2)) rfl rfl (ix2 e 0) (fun c hc => ?_) rfl
  match c, hc with
  | ⟨0, _⟩, _ => rfl
  | ⟨1, _⟩, hc => exact absurd rfl hc

end Cert.Hand.Scatter

end
-- ==== Proof.KI.HostKernel.lean ====
/-
  What the host operations around the two kernel regions write, read as functions of the buffers they start from.

  Before the first region: the matrix of normalised edge counts (both edge words counted from the end when negative,
  a count per pair, the row totals, the quotient by max(total, 1)), the features unchanged (a change of float format
  is the identity on the extended reals), the two weight matrices transposed, the bias as a row. Between the regions:
  the first region's result unchanged, the second layer's weights transposed, its bias as a row; the count matrix is
  not touched again.
-/
import proofs.«405564_j1906965479432_1_alg».proof.Proof.Gen.KernelIdeal.Launch
import proofs.«405564_j1906965479432_1_alg».proof.Proof.Spec
import proofs.«405564_j1906965479432_1_alg».proof.Proof.LibRowGatherScatter
import proofs.«405564_j1906965479432_1_alg».proof.Proof.LibPairScatter
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

/-! ## The pieces of the count matrix -/

/-- The program's scatter of scalars into the count matrix at (i, j): the operand's entry plus the updates of the
    edges whose pair of words, read signed, is (i, j). -/
theorem scatterCounts_apply (x : FVec Ideal S10000x10000 .f32) (idx : IVec S160000x2 32) (upd : FVec Ideal S160000 .f32)
    (i j : Fin 10000) :
    Host.scatterAdd (F := Ideal) scatter_S10000x10000_S160000x2_S160000_n_01_01_1 x idx upd (ix2 i j)
      = x (ix2 i j) + ∑ e ∈ Finset.univ.filter (fun e : Fin 160000 =>
          (idx (ix2 e (0 : Fin 2))).toInt = (i.val : ℤ) ∧ (idx (ix2 e (1 : Fin 2))).toInt = (j.val : ℤ)), upd (ix1 e) :=
  Cert.Hand.Scatter.pairScatterAdd_apply scatter_S10000x10000_S160000x2_S160000_n_01_01_1_wf idx x upd i j

/-- Row `o` of the edge list, cut out and flattened, at e. -/
theorem edgeRow_apply (edge : IVec S2x160000 32) (o : Nat) (r : Fin 2) (hr : r.val = o)
    (h1 : S2x160000.Slices ![o, 0] S1x160000) (h2 : S1x160000.ShapeCasts S160000) (e : Fin 160000) :
    shapeCast S160000 (extractStridedSlice S1x160000 ![o, 0] edge h1) h2 (ix1 e) = edge (ix2 r e) := by
  rw [shapeCast_1a_a_apply]
  refine extractStridedSlice_apply _ _ _ _ (ix2 r e) fun a => ?_
  match a with
  | ⟨0, _⟩ =>
    show r.val = o + 0
    omega
  | ⟨1, _⟩ =>
    show e.val = 0 + e.val
    omega

/-- A vector of words, each replaced by itself plus 10000 when it is negative: the word counted from the end. -/
theorem wrapVec_apply (v : IVec S160000 32) (hb : S_.BroadcastsInDim S160000 ![]) (e : Fin 160000) :
    select (cmpi .slt v (broadcastInDim S160000 ![] hb (constantI S_ 32 0#32)))
      (addi v (broadcastInDim S160000 ![] hb (constantI S_ 32 10000#32))) v (ix1 e) = Cert.Sage.wrap (v (ix1 e)) := by
  show Scalar.select (IntOp.cmpi .slt (v (ix1 e)) (broadcastInDim S160000 ![] hb (constantI S_ 32 0#32) (ix1 e)))
      (IntOp.addi (v (ix1 e)) (broadcastInDim S160000 ![] hb (constantI S_ 32 10000#32) (ix1 e))) (v (ix1 e)) = _
  rw [Cert.ReferenceIdeal.Hand.bcastScalar_apply, Cert.ReferenceIdeal.Hand.bcastScalar_apply]
  show Scalar.select (IntOp.cmpi .slt (v (ix1 e)) 0#32) (IntOp.addi (v (ix1 e)) 10000#32) (v (ix1 e)) = _
  rw [Cert.ReferenceIdeal.Hand.wrap_select]
  rfl

/-! ## Before the first region -/

variable (W : Valuation τ sig (Elt Ideal))

/-- The count matrix, entry by entry. -/
theorem host0_adj (i j : Fin 10000) :
    (StableHlo.after (hostOps0 (F := Ideal)) W (Proc.devRef .tc main_v19) : S10000x10000.Idx → EReal) (ix2 i j)
      = Cert.Sage.adj (W (Proc.devRef .tc main_arg1)) i j := by
  show StableHlo.after (hostOps0 (F := Ideal)) W (Proc.devRef .tc main_v19) (ix2 i j) = _
  after_results_simp
  rw [scatterCounts_apply]
  simp only [Cert.Hand.Scatter.concatCols_apply_zero, Cert.Hand.Scatter.concatCols_apply_one]
  after_results_simp
  rw [Cert.ReferenceIdeal.Hand.bcastScalar_apply, constant_apply, Ideal.ofBits_zero_f32]
  unfold Cert.Sage.adj
  refine congrArg (fun t : EReal => (0 : EReal) + t) ?_
  refine Finset.sum_congr (Finset.filter_congr fun e _ => ?_) fun e _ => ?_
  · refine Iff.of_eq (congrArg₂ (fun a b : BitVec 32 => a.toInt = (i.val : ℤ) ∧ b.toInt = (j.val : ℤ)) ?_ ?_)
    · exact (Cert.ReferenceIdeal.Hand.bcastCol_apply _ _ e 0).trans
        ((wrapVec_apply _ _ e).trans (congrArg Cert.Sage.wrap (edgeRow_apply _ 1 1 rfl _ _ e)))
    · exact (Cert.ReferenceIdeal.Hand.bcastCol_apply _ _ e 0).trans
        ((wrapVec_apply _ _ e).trans (congrArg Cert.Sage.wrap (edgeRow_apply _ 0 0 rfl _ _ e)))
  · rw [Cert.ReferenceIdeal.Hand.bcastScalar_apply, constant_apply, Ideal.ofBits_one_f32]

/-- The count matrix over max(row total, 1), entry by entry. -/
theorem host0_counts (i j : Fin 10000) :
    (StableHlo.after (hostOps0 (F := Ideal)) W (Proc.devRef .tc main_v26) : S10000x10000.Idx → EReal) (ix2 i j)
      = Cert.Sage.weight (W (Proc.devRef .tc main_arg1)) i j := by
  show StableHlo.after (hostOps0 (F := Ideal)) W (Proc.devRef .tc main_v26) (ix2 i j) = _
  have h19 : ∀ i' j' : Fin 10000, StableHlo.after (hostOps0 (F := Ideal)) W (Proc.devRef .tc main_v19) (ix2 i' j')
      = Cert.Sage.adj (W (Proc.devRef .tc main_arg1)) i' j' := host0_adj W
  simp (disch := decide) only [StableHlo.after_cons, StableHlo.after_nil,
    StableHlo.nullary_result', StableHlo.unary_result', StableHlo.binary_result', StableHlo.ternary_result',
    StableHlo.reshape_result', StableHlo.nullary_result_ne', StableHlo.unary_result_ne', StableHlo.binary_result_ne',
    StableHlo.ternary_result_ne', StableHlo.reshape_result_ne'] at h19 ⊢
  refine Eq.trans (truncf_apply (φ := .f32) (ψ := .bf16) _ bitsLt_bf16_f32 (ix2 i j)) ?_
  rw [hostDivf_apply, h19]
  unfold Cert.Sage.weight
  refine congrArg (fun t : EReal => Ideal.div (Cert.Sage.adj (W (Proc.devRef .tc main_arg1)) i j) t) ?_
  rw [Cert.ReferenceIdeal.Hand.bcastFeat_apply, maximumf_apply, Cert.ReferenceIdeal.Hand.bcastCol_apply,
    Cert.ReferenceIdeal.Hand.bcastScalar_apply, constant_apply, Ideal.ofBits_one_f32]
  refine congrArg (fun t : EReal => max t 1) ?_
  rw [hostReduceAdd_apply, Ideal.hostReduceAdd_single _ (by decide : S10000x10000.Reduces [1] S10000),
    constant_apply, Ideal.ofBits_zero_f32]
  unfold Cert.Sage.rowTotal
  refine congrArg (fun t : EReal => (0 : EReal) + t) ?_
  refine Finset.sum_congr rfl fun k _ => ?_
  have hl : (by decide : S10000x10000.Reduces [1] S10000).lift (ix1 i) k = ix2 i k := by
    funext c
    refine Fin.ext ?_
    match c with
    | ⟨0, _⟩ => rfl
    | ⟨1, _⟩ => rfl
  rw [hl]
  exact h19 i k

/-- The features, unchanged. -/
theorem host0_feat :
    (StableHlo.after (hostOps0 (F := Ideal)) W (Proc.devRef .tc main_v27) : S10000x512.Idx → EReal)
      = W (Proc.devRef .tc main_arg0) := by
  show StableHlo.after (hostOps0 (F := Ideal)) W (Proc.devRef .tc main_v27) = _
  after_results
  rfl

/-- The first layer's two weight matrices, transposed. -/
theorem host0_wl (d o : Fin 512) :
    (StableHlo.after (hostOps0 (F := Ideal)) W (Proc.devRef .tc main_v29) : S512x512.Idx → EReal) (ix2 d o)
      = (W (Proc.devRef .tc main_arg2) : S512x512.Idx → EReal) (ix2 o d) := by
  show StableHlo.after (hostOps0 (F := Ideal)) W (Proc.devRef .tc main_v29) (ix2 d o) = _
  after_results
  refine Eq.trans (truncf_apply (φ := .f32) (ψ := .bf16) _ bitsLt_bf16_f32 (ix2 d o)) ?_
  refine transpose_apply _ _ _ _ (ix2 o d) fun b => ?_
  match b with
  | ⟨0, _⟩ => rfl
  | ⟨1, _⟩ => rfl
theorem host0_wr (d o : Fin 512) :
    (StableHlo.after (hostOps0 (F := Ideal)) W (Proc.devRef .tc main_v31) : S512x512.Idx → EReal) (ix2 d o)
      = (W (Proc.devRef .tc main_arg4) : S512x512.Idx → EReal) (ix2 o d) := by
  show StableHlo.after (hostOps0 (F := Ideal)) W (Proc.devRef .tc main_v31) (ix2 d o) = _
  after_results
  refine Eq.trans (truncf_apply (φ := .f32) (ψ := .bf16) _ bitsLt_bf16_f32 (ix2 d o)) ?_
  refine transpose_apply _ _ _ _ (ix2 o d) fun b => ?_
  match b with
  | ⟨0, _⟩ => rfl
  | ⟨1, _⟩ => rfl

/-- The first layer's bias as a row. -/
theorem host0_bias (z : Fin 1) (o : Fin 512) :
    (StableHlo.after (hostOps0 (F := Ideal)) W (Proc.devRef .tc main_v32) : S1x512.Idx → EReal) (ix2 z o)
      = (W (Proc.devRef .tc main_arg3) : S512.Idx → EReal) (ix1 o) := by
  show StableHlo.after (hostOps0 (F := Ideal)) W (Proc.devRef .tc main_v32) (ix2 z o) = _
  after_results
  exact shapeCast_a_1a_apply _ _ z o

/-! ## Between the regions -/

/-- The first region's result, unchanged. -/
theorem host1_feat :
    (StableHlo.after (hostOps1 (F := Ideal)) W (Proc.devRef .tc main_v34) : S10000x512.Idx → EReal)
      = W (Proc.devRef .tc main_v33) := by
  show StableHlo.after (hostOps1 (F := Ideal)) W (Proc.devRef .tc main_v34) = _
  after_results
  rfl

/-- The second layer's two weight matrices, transposed. -/
theorem host1_wl (d o : Fin 512) :
    (StableHlo.after (hostOps1 (F := Ideal)) W (Proc.devRef .tc main_v36) : S512x512.Idx → EReal) (ix2 d o)
      = (W (Proc.devRef .tc main_arg5) : S512x512.Idx → EReal) (ix2 o d) := by
  show StableHlo.after (hostOps1 (F := Ideal)) W (Proc.devRef .tc main_v36) (ix2 d o) = _
  after_results
  refine Eq.trans (truncf_apply (φ := .f32) (ψ := .bf16) _ bitsLt_bf16_f32 (ix2 d o)) ?_
  refine transpose_apply _ _ _ _ (ix2 o d) fun b => ?_
  match b with
  | ⟨0, _⟩ => rfl
  | ⟨1, _⟩ => rfl
theorem host1_wr (d o : Fin 512) :
    (StableHlo.after (hostOps1 (F := Ideal)) W (Proc.devRef .tc main_v38) : S512x512.Idx → EReal) (ix2 d o)
      = (W (Proc.devRef .tc main_arg7) : S512x512.Idx → EReal) (ix2 o d) := by
  show StableHlo.after (hostOps1 (F := Ideal)) W (Proc.devRef .tc main_v38) (ix2 d o) = _
  after_results
  refine Eq.trans (truncf_apply (φ := .f32) (ψ := .bf16) _ bitsLt_bf16_f32 (ix2 d o)) ?_
  refine transpose_apply _ _ _ _ (ix2 o d) fun b => ?_
  match b with
  | ⟨0, _⟩ => rfl
  | ⟨1, _⟩ => rfl

/-- The second layer's bias as a row. -/
theorem host1_bias (z : Fin 1) (o : Fin 512) :
    (StableHlo.after (hostOps1 (F := Ideal)) W (Proc.devRef .tc main_v39) : S1x512.Idx → EReal) (ix2 z o)
      = (W (Proc.devRef .tc main_arg6) : S512.Idx → EReal) (ix1 o) := by
  show StableHlo.after (hostOps1 (F := Ideal)) W (Proc.devRef .tc main_v39) (ix2 z o) = _
  after_results
  exact shapeCast_a_1a_apply _ _ z o

/-- The count matrix is not written again. -/
theorem host1_counts :
    StableHlo.after (hostOps1 (F := Ideal)) W (Proc.devRef .tc main_v26) = W (Proc.devRef .tc main_v26) := by
  show StableHlo.after (hostOps1 (F := Ideal)) W (Proc.devRef .tc main_v26) = _
  after_results

end Cert.KernelIdeal.Hand

end
-- ==== Proof.KI.Result.lean ====
/-
  What the result array holds at the end of the run, over the extended reals: the dense-count spelling of the
  network on the launch contents of the eight arguments. The first host stretch builds the normalised count matrix
  and lays out the first layer's weights; the first region leaves that layer, rectified; the second stretch lays out
  the second layer's weights and passes the first region's result on, the count matrix untouched; the second region
  leaves the second layer. No argument is written on the way.
-/
import proofs.«405564_j1906965479432_1_alg».proof.Proof.KI.Run
import proofs.«405564_j1906965479432_1_alg».proof.Proof.KI.Value0
import proofs.«405564_j1906965479432_1_alg».proof.Proof.KI.Value1
import proofs.«405564_j1906965479432_1_alg».proof.Proof.KI.HostKernel
import proofs.«405564_j1906965479432_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- An argument is as launched before the first region … -/
theorem W1_arg (c : Dev nD) (r : Ref sig .tc) (h0 : r ∉ hostOps0_W) :
    W1 m ρ c (Proc.devRef .tc r) = m ((c : Thread nD τ).loc r) :=
  (StableHlo.after_of_writes_sub hostOps0 _ hostOps0_writes h0).trans rfl
/-- … and after it. -/
theorem W2_arg (c : Dev nD) (r : Ref sig .tc) (h0 : r ∉ hostOps0_W) (h33 : r ≠ main_v33) :
    W2 m ρ c (Proc.devRef .tc r) = m ((c : Thread nD τ).loc r) :=
  (W2_of_ne m ρ c r h33).trans (W1_arg m ρ c r h0)

/-- The first region leaves the first layer, rectified. -/
theorem layer1 (c : Dev nD) :
    (W2 m ρ c (Proc.devRef .tc main_v33) : S10000x512.Idx → EReal)
      = Cert.Sage.relu (Cert.Sage.denseLayer (m ((c : Thread nD τ).loc main_arg0)) (m ((c : Thread nD τ).loc main_arg1))
          (m ((c : Thread nD τ).loc main_arg2)) (m ((c : Thread nD τ).loc main_arg3)) (m ((c : Thread nD τ).loc main_arg4))) := by
  rw [W2_out]
  refine arrAt0_eq (R1 m ρ) c _ _ _ _ _ (fun i j => ?_) ?_ (fun d o => ?_) (fun d o => ?_) (fun z o => ?_)
  · exact (host0_counts (W0 m ρ c) i j).trans rfl
  · exact (host0_feat (W0 m ρ c)).trans rfl
  · exact (host0_wl (W0 m ρ c) d o).trans rfl
  · exact (host0_wr (W0 m ρ c) d o).trans rfl
  · exact (host0_bias (W0 m ρ c) z o).trans rfl

/-- The second region leaves the second layer of the first's result: the network. -/
theorem result_eq (c : Dev nD) :
    (W4 m ρ c (Proc.devRef .tc main_v40) : S10000x512.Idx → EReal)
      = Cert.Sage.denseNet (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [W4_out]
  unfold Cert.Sage.denseNet
  refine arrAt1_eq (R3 m ρ) c _ _ _ _ _ (fun i j => ?_) ?_ (fun d o => ?_) (fun d o => ?_) (fun z o => ?_)
  · -- the count matrix: not written since the first stretch
    show (StableHlo.after hostOps1 (W2 m ρ c) (Proc.devRef .tc main_v26) : S10000x10000.Idx → EReal) (ix2 i j) = _
    rw [host1_counts (W2 m ρ c), W2_of_ne m ρ c main_v26 (by decide)]
    exact (host0_counts (W0 m ρ c) i j).trans rfl
  · -- the features of the second layer: the first region's result
    show (StableHlo.after hostOps1 (W2 m ρ c) (Proc.devRef .tc main_v34) : S10000x512.Idx → EReal) = _
    rw [host1_feat (W2 m ρ c)]
    exact layer1 m ρ c
  · show (StableHlo.after hostOps1 (W2 m ρ c) (Proc.devRef .tc main_v36) : S512x512.Idx → EReal) (ix2 d o) = _
    rw [host1_wl (W2 m ρ c) d o, W2_arg m ρ c main_arg5 (by decide) (by decide)]
  · show (StableHlo.after hostOps1 (W2 m ρ c) (Proc.devRef .tc main_v38) : S512x512.Idx → EReal) (ix2 d o) = _
    rw [host1_wr (W2 m ρ c) d o, W2_arg m ρ c main_arg7 (by decide) (by decide)]
  · show (StableHlo.after hostOps1 (W2 m ρ c) (Proc.devRef .tc main_v39) : S1x512.Idx → EReal) (ix2 z o) = _
    rw [host1_bias (W2 m ρ c) z o, W2_arg m ρ c main_arg6 (by decide) (by decide)]

end Cert.KernelIdeal.Hand

end
-- ==== Proof.RefImports.lean ====
/- The reference program's run and its read-at-an-index lemmas, brought in for the modules that state the
   reference's result as a function of the argument arrays. -/
import proofs.«405564_j1906965479432_1_alg».proof.Proof.Gen.ReferenceIdeal.Run
import proofs.«405564_j1906965479432_1_alg».proof.Proof.Gen.ReferenceIdeal.Read
-- ==== Proof.RefValue.lean ====
/-
  The reference program's result is the network of Spec.lean, entry by entry: per layer a row lookup of the source of
  every edge, a sum of the looked-up rows per destination, a count of the edges per destination, the quotient by
  max(count, 1), two matrix products against the transposed weights, the bias, and between the layers the rectifier.
-/
import proofs.«405564_j1906965479432_1_alg».proof.Proof.RefImports
import proofs.«405564_j1906965479432_1_alg».proof.Proof.Spec
import proofs.«405564_j1906965479432_1_alg».proof.Proof.LibRowGatherScatter
import proofs.«405564_j1906965479432_1_alg».proof.Proof.LibPairScatter
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The three indexed operations, over any table and any column of words that reads as stated -/

section Generic

variable (x1 : (⟨S2x160000, .i32⟩ : BufTy).Contents (Elt Ideal))

/-- A lookup of rows of a table `y` at a column whose word for edge `e` is the edge's source word counted from the
    end when negative: entry (e, d) is `y` at the source row of `e`. -/
theorem lookup_apply (y : (⟨S10000x512, .f32⟩ : BufTy).Contents (Elt Ideal))
    (col : (⟨S160000x1, .i32⟩ : BufTy).Contents (Elt Ideal))
    (hcol : ∀ e : Fin 160000, col (ix2 e 0) = Cert.Sage.wrap (x1 (ix2 0 e))) (e : Fin 160000) (d : Fin 512) :
    Host.gather gather_S10000x512_S160000x1_S160000x512_1_0_n_n_0_1_1512 y col (ix2 e d)
      = y (ix2 (Cert.Sage.srcRow x1 e) d) := by
  show Host.gather (Hand.rowGather 10000 160000 512 Facts₀.gather_S10000x512_S160000x1_S160000x512_1_0_n_n_0_1_1512_wf)
    y col (ix2 e d) = _
  rw [Hand.rowGather_apply_of_eq (by decide) _ y col e d _ (hcol e)]
  rfl

/-- A sum of rows `g` per destination into a zero table, at a column whose word for edge `e` is the edge's destination
    word: entry (i, d) is zero plus the sum of `g` at (e, d) over the edges into `i`. -/
theorem rowSum_apply (z : (⟨S10000x512, .f32⟩ : BufTy).Contents (Elt Ideal)) (hz : ∀ j, z j = 0)
    (col : (⟨S160000x1, .i32⟩ : BufTy).Contents (Elt Ideal))
    (hcol : ∀ e : Fin 160000, col (ix2 e 0) = x1 (ix2 1 e))
    (g : (⟨S160000x512, .f32⟩ : BufTy).Contents (Elt Ideal)) (i : Fin 10000) (d : Fin 512) :
    Host.scatterAdd (F := Ideal) (φ := .f32) scatter_S10000x512_S160000x1_S160000x512_1_0_0_1 z col g (ix2 i d)
      = (0 : EReal) + ∑ e ∈ Cert.Sage.inEdges x1 i, g (ix2 e d) := by
  show Host.scatterAdd (F := Ideal) (φ := .f32) (Hand.rowScatter 10000 160000 512 Facts₀.scatter_S10000x512_S160000x1_S160000x512_1_0_0_1_wf)
    z col g (ix2 i d) = _
  rw [Hand.rowScatterAdd_apply, hz]
  unfold Cert.Sage.inEdges
  simp only [hcol]

/-- A count per destination into a zero vector: entry `i` is zero plus one for every edge into `i`. -/
theorem count_apply (z : (⟨S10000, .f32⟩ : BufTy).Contents (Elt Ideal)) (hz : ∀ j, z j = 0)
    (col : (⟨S160000x1, .i32⟩ : BufTy).Contents (Elt Ideal))
    (hcol : ∀ e : Fin 160000, col (ix2 e 0) = x1 (ix2 1 e))
    (u : (⟨S160000, .f32⟩ : BufTy).Contents (Elt Ideal)) (hu : ∀ j, u j = 1) (i : Fin 10000) :
    Host.scatterAdd (F := Ideal) (φ := .f32) scatter_S10000_S160000x1_S160000_n_0_0_1 z col u (ix1 i)
      = (0 : EReal) + ∑ _e ∈ Cert.Sage.inEdges x1 i, (1 : EReal) := by
  show Host.scatterAdd (F := Ideal) (φ := .f32) (Cert.Hand.Scatter.vecScatter 10000 160000 Facts₀.scatter_S10000_S160000x1_S160000_n_0_0_1_wf)
    z col u (ix1 i) = _
  rw [Cert.Hand.Scatter.vecScatterAdd_apply, hz]
  unfold Cert.Sage.inEdges
  simp only [hcol, hu]

end Generic

/-! ## The first layer -/

/-- The source column: edge `e`'s source word, counted from the end when negative. -/
theorem l1_srcCol (x1 : (⟨S2x160000, .i32⟩ : BufTy).Contents (Elt Ideal)) (e : Fin 160000) :
    val_main_v9 (F := Ideal) x1 (ix2 e 0) = Cert.Sage.wrap (x1 (ix2 0 e)) := by
  have h : idx_main_v0 (idx_main_v1 (idx_main_v9 (ix2 e (0 : Fin 1)))) = ix2 (0 : Fin 2) e := by
    funext a; refine Fin.ext ?_
    match a with
    | ⟨0, _⟩ => rfl
    | ⟨1, _⟩ => exact Nat.mod_eq_of_lt e.isLt
  rw [val_main_v9_apply, val_main_v8_apply, val_main_v5_apply, val_main_v7_apply, val_main_v4_apply, val_main_v6_apply, val_main_c_apply, val_main_c_0_apply,
    val_main_v1_apply, val_main_v0_apply, h, Hand.wrap_select]
  rfl

/-- The destination column, as the row sum reads it: edge `e`'s destination word. -/
theorem l1_dstCol (x1 : (⟨S2x160000, .i32⟩ : BufTy).Contents (Elt Ideal)) (e : Fin 160000) :
    val_main_v12 (F := Ideal) x1 (ix2 e 0) = x1 (ix2 1 e) := by
  have h : idx_main_v2 (idx_main_v3 (idx_main_v12 (ix2 e (0 : Fin 1)))) = ix2 (1 : Fin 2) e := by
    funext a; refine Fin.ext ?_
    match a with
    | ⟨0, _⟩ => rfl
    | ⟨1, _⟩ => exact Nat.mod_eq_of_lt e.isLt
  rw [val_main_v12_apply, val_main_v3_apply, val_main_v2_apply, h]

/-- The destination column, as the count reads it. -/
theorem l1_dstCol' (x1 : (⟨S2x160000, .i32⟩ : BufTy).Contents (Elt Ideal)) (e : Fin 160000) :
    val_main_v16 (F := Ideal) x1 (ix2 e 0) = x1 (ix2 1 e) := by
  have h : idx_main_v2 (idx_main_v3 (idx_main_v16 (ix2 e (0 : Fin 1)))) = ix2 (1 : Fin 2) e := by
    funext a; refine Fin.ext ?_
    match a with
    | ⟨0, _⟩ => rfl
    | ⟨1, _⟩ => exact Nat.mod_eq_of_lt e.isLt
  rw [val_main_v16_apply, val_main_v3_apply, val_main_v2_apply, h]

/-- The table the row sum starts from is zero. -/
theorem l1_zeroTable (j : S10000x512.Idx) : val_main_v11 (F := Ideal) j = (0 : EReal) := by
  rw [val_main_v11_apply, val_main_cst_apply]
  exact Ideal.ofBits_zero_f32

/-- The vector the count starts from is zero. -/
theorem l1_zeroVec (j : S10000.Idx) : val_main_v15 (F := Ideal) j = (0 : EReal) := by
  rw [val_main_v15_apply, val_main_cst_2_apply]
  exact Ideal.ofBits_zero_f32

/-- Every edge counts one. -/
theorem l1_ones (j : S160000.Idx) : val_main_v14 (F := Ideal) j = (1 : EReal) := by
  rw [val_main_v14_apply, val_main_cst_1_apply]
  exact Ideal.ofBits_one_f32

/-- The summed rows at (i, d): zero plus the sum of the input at the source rows of the edges into `i`. -/
theorem l1_rowSum (x0 : (⟨S10000x512, .f32⟩ : BufTy).Contents (Elt Ideal)) (x1 : (⟨S2x160000, .i32⟩ : BufTy).Contents (Elt Ideal)) (i : Fin 10000) (d : Fin 512) :
    val_main_v13 (F := Ideal) x0 x1 (ix2 i d)
      = (0 : EReal) + ∑ e ∈ Cert.Sage.inEdges x1 i, x0 (ix2 (Cert.Sage.srcRow x1 e) d) := by
  unfold val_main_v13
  rw [rowSum_apply x1 _ l1_zeroTable _ (l1_dstCol x1)]
  refine congrArg _ (Finset.sum_congr rfl fun e _ => ?_)
  unfold val_main_v10
  exact lookup_apply x1 _ _ (l1_srcCol x1) e d

/-- The count at `i`: zero plus one per edge into `i`. -/
theorem l1_count (x1 : (⟨S2x160000, .i32⟩ : BufTy).Contents (Elt Ideal)) (i : Fin 10000) :
    val_main_v17 (F := Ideal) x1 (ix1 i) = (0 : EReal) + ∑ _e ∈ Cert.Sage.inEdges x1 i, (1 : EReal) := by
  unfold val_main_v17
  exact count_apply x1 _ l1_zeroVec _ (l1_dstCol' x1) _ l1_ones i

/-- The divisor at (i, d): max(count, 1). -/
theorem l1_divisor (x1 : (⟨S2x160000, .i32⟩ : BufTy).Contents (Elt Ideal)) (i : Fin 10000) (d : Fin 512) :
    val_main_v21 (F := Ideal) x1 (ix2 i d) = Cert.Sage.degree x1 i := by
  have h : idx_main_v20 (idx_main_v21 (ix2 i d)) = ix1 i := by
    funext a; refine Fin.ext ?_
    match a with
    | ⟨0, _⟩ => rfl
  rw [val_main_v21_apply, val_main_v20_apply, h, val_main_v19_apply, l1_count, val_main_v18_apply, val_main_cst_3_apply]
  show max _ (Ideal.ofBits .f32 0x3F800000#32) = _
  rw [Ideal.ofBits_one_f32]
  rfl

/-- The mean at (i, d). -/
theorem l1_mean (x0 : (⟨S10000x512, .f32⟩ : BufTy).Contents (Elt Ideal)) (x1 : (⟨S2x160000, .i32⟩ : BufTy).Contents (Elt Ideal)) (i : Fin 10000) (d : Fin 512) :
    val_main_v22 (F := Ideal) x0 x1 (ix2 i d) = Cert.Sage.meanIn x0 x1 i d := by
  rw [val_main_v22_apply, l1_rowSum, l1_divisor]
  rfl

/-- The product of the means with the transposed left weights, at (i, o). -/
theorem l1_meanDot (x0 : (⟨S10000x512, .f32⟩ : BufTy).Contents (Elt Ideal)) (x1 : (⟨S2x160000, .i32⟩ : BufTy).Contents (Elt Ideal)) (x2 : (⟨S512x512, .f32⟩ : BufTy).Contents (Elt Ideal)) (i : Fin 10000) (o : Fin 512) :
    val_main_v24 (F := Ideal) x0 x1 x2 (ix2 i o)
      = ∑ d : Fin 512, Cert.Sage.meanIn x0 x1 i d * x2 (ix2 o d) := by
  rw [val_main_v24_apply]
  refine Finset.sum_congr rfl fun k _ => ?_
  have hl : lidx_main_v24 (ix2 i o) k = ix2 i k := by
    funext a; refine Fin.ext ?_
    match a with
    | ⟨0, _⟩ => rfl
    | ⟨1, _⟩ => rfl
  have hr : idx_main_v23 (ridx_main_v24 (ix2 i o : S10000x512.Idx) k) = ix2 o k := by
    funext a; refine Fin.ext ?_
    match a with
    | ⟨0, _⟩ => rfl
    | ⟨1, _⟩ => rfl
  rw [val_main_v23_apply, hl, hr, l1_mean]

/-- The bias spread over the rows, at (i, o). -/
theorem l1_bias (x3 : (⟨S512, .f32⟩ : BufTy).Contents (Elt Ideal)) (i : Fin 10000) (o : Fin 512) :
    val_main_v26 (F := Ideal) x3 (ix2 i o) = x3 (ix1 o) := by
  have h : idx_main_v25 (idx_main_v26 (ix2 i o)) = ix1 o := by
    funext a; refine Fin.ext ?_
    match a with
    | ⟨0, _⟩ => rfl
  rw [val_main_v26_apply, val_main_v25_apply, h]

/-- The product of the input with the transposed right weights, at (i, o). -/
theorem l1_selfDot (x0 : (⟨S10000x512, .f32⟩ : BufTy).Contents (Elt Ideal)) (x4 : (⟨S512x512, .f32⟩ : BufTy).Contents (Elt Ideal)) (i : Fin 10000) (o : Fin 512) :
    val_main_v29 (F := Ideal) x0 x4 (ix2 i o) = ∑ d : Fin 512, x0 (ix2 i d) * x4 (ix2 o d) := by
  rw [val_main_v29_apply]
  refine Finset.sum_congr rfl fun k _ => ?_
  have hl : lidx_main_v29 (ix2 i o) k = ix2 i k := by
    funext a; refine Fin.ext ?_
    match a with
    | ⟨0, _⟩ => rfl
    | ⟨1, _⟩ => rfl
  have hr : idx_main_v28 (ridx_main_v29 (ix2 i o : S10000x512.Idx) k) = ix2 o k := by
    funext a; refine Fin.ext ?_
    match a with
    | ⟨0, _⟩ => rfl
    | ⟨1, _⟩ => rfl
  rw [val_main_v28_apply, hl, hr]

/-- The layer's output at (i, o). -/
theorem l1_out (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (i : Fin 10000) (o : Fin 512) :
    val_main_v30 (F := Ideal) x0 x1 x2 x3 x4 (ix2 i o)
      = Cert.Sage.layerAt x0 x1 x2 x3 x4 i o := by
  rw [val_main_v30_apply, val_main_v27_apply, l1_meanDot, l1_bias, l1_selfDot]
  rfl

/-! ## The rectifier between the layers -/

/-- The rectified first layer, as an array. -/
theorem l1_relu (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) :
    val_main_v31 (F := Ideal) x0 x1 x2 x3 x4 = Cert.Sage.relu (Cert.Sage.layer x0 x1 x2 x3 x4) := by
  funext j
  obtain ⟨i, o, rfl⟩ : ∃ i o, j = ix2 i o := ⟨j 0, j 1, eq_ix2 j⟩
  rw [val_main_v31_apply, l1_out, val_main_call0_v0_apply, val_main_call0_cst_apply]
  show max _ (Ideal.ofBits .f32 0x00000000#32) = _
  rw [Ideal.ofBits_zero_f32]
  rfl

/-! ## The second layer, on the rectified first -/

/-- The source column: edge `e`'s source word, counted from the end when negative. -/
theorem l2_srcCol (x1 : (⟨S2x160000, .i32⟩ : BufTy).Contents (Elt Ideal)) (e : Fin 160000) :
    val_main_v41 (F := Ideal) x1 (ix2 e 0) = Cert.Sage.wrap (x1 (ix2 0 e)) := by
  have h : idx_main_v32 (idx_main_v33 (idx_main_v41 (ix2 e (0 : Fin 1)))) = ix2 (0 : Fin 2) e := by
    funext a; refine Fin.ext ?_
    match a with
    | ⟨0, _⟩ => rfl
    | ⟨1, _⟩ => exact Nat.mod_eq_of_lt e.isLt
  rw [val_main_v41_apply, val_main_v40_apply, val_main_v37_apply, val_main_v39_apply, val_main_v36_apply, val_main_v38_apply, val_main_c_4_apply, val_main_c_5_apply,
    val_main_v33_apply, val_main_v32_apply, h, Hand.wrap_select]
  rfl

/-- The destination column, as the row sum reads it: edge `e`'s destination word. -/
theorem l2_dstCol (x1 : (⟨S2x160000, .i32⟩ : BufTy).Contents (Elt Ideal)) (e : Fin 160000) :
    val_main_v44 (F := Ideal) x1 (ix2 e 0) = x1 (ix2 1 e) := by
  have h : idx_main_v34 (idx_main_v35 (idx_main_v44 (ix2 e (0 : Fin 1)))) = ix2 (1 : Fin 2) e := by
    funext a; refine Fin.ext ?_
    match a with
    | ⟨0, _⟩ => rfl
    | ⟨1, _⟩ => exact Nat.mod_eq_of_lt e.isLt
  rw [val_main_v44_apply, val_main_v35_apply, val_main_v34_apply, h]

/-- The destination column, as the count reads it. -/
theorem l2_dstCol' (x1 : (⟨S2x160000, .i32⟩ : BufTy).Contents (Elt Ideal)) (e : Fin 160000) :
    val_main_v48 (F := Ideal) x1 (ix2 e 0) = x1 (ix2 1 e) := by
  have h : idx_main_v34 (idx_main_v35 (idx_main_v48 (ix2 e (0 : Fin 1)))) = ix2 (1 : Fin 2) e := by
    funext a; refine Fin.ext ?_
    match a with
    | ⟨0, _⟩ => rfl
    | ⟨1, _⟩ => exact Nat.mod_eq_of_lt e.isLt
  rw [val_main_v48_apply, val_main_v35_apply, val_main_v34_apply, h]

/-- The table the row sum starts from is zero. -/
theorem l2_zeroTable (j : S10000x512.Idx) : val_main_v43 (F := Ideal) j = (0 : EReal) := by
  rw [val_main_v43_apply, val_main_cst_6_apply]
  exact Ideal.ofBits_zero_f32

/-- The vector the count starts from is zero. -/
theorem l2_zeroVec (j : S10000.Idx) : val_main_v47 (F := Ideal) j = (0 : EReal) := by
  rw [val_main_v47_apply, val_main_cst_8_apply]
  exact Ideal.ofBits_zero_f32

/-- Every edge counts one. -/
theorem l2_ones (j : S160000.Idx) : val_main_v46 (F := Ideal) j = (1 : EReal) := by
  rw [val_main_v46_apply, val_main_cst_7_apply]
  exact Ideal.ofBits_one_f32

/-- The summed rows at (i, d): zero plus the sum of the input at the source rows of the edges into `i`. -/
theorem l2_rowSum (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (i : Fin 10000) (d : Fin 512) :
    val_main_v45 (F := Ideal) x0 x1 x2 x3 x4 (ix2 i d)
      = (0 : EReal) + ∑ e ∈ Cert.Sage.inEdges x1 i, (val_main_v31 (F := Ideal) x0 x1 x2 x3 x4) (ix2 (Cert.Sage.srcRow x1 e) d) := by
  unfold val_main_v45
  rw [rowSum_apply x1 _ l2_zeroTable _ (l2_dstCol x1)]
  refine congrArg _ (Finset.sum_congr rfl fun e _ => ?_)
  unfold val_main_v42
  exact lookup_apply x1 _ _ (l2_srcCol x1) e d

/-- The count at `i`: zero plus one per edge into `i`. -/
theorem l2_count (x1 : (⟨S2x160000, .i32⟩ : BufTy).Contents (Elt Ideal)) (i : Fin 10000) :
    val_main_v49 (F := Ideal) x1 (ix1 i) = (0 : EReal) + ∑ _e ∈ Cert.Sage.inEdges x1 i, (1 : EReal) := by
  unfold val_main_v49
  exact count_apply x1 _ l2_zeroVec _ (l2_dstCol' x1) _ l2_ones i

/-- The divisor at (i, d): max(count, 1). -/
theorem l2_divisor (x1 : (⟨S2x160000, .i32⟩ : BufTy).Contents (Elt Ideal)) (i : Fin 10000) (d : Fin 512) :
    val_main_v53 (F := Ideal) x1 (ix2 i d) = Cert.Sage.degree x1 i := by
  have h : idx_main_v52 (idx_main_v53 (ix2 i d)) = ix1 i := by
    funext a; refine Fin.ext ?_
    match a with
    | ⟨0, _⟩ => rfl
  rw [val_main_v53_apply, val_main_v52_apply, h, val_main_v51_apply, l2_count, val_main_v50_apply, val_main_cst_9_apply]
  show max _ (Ideal.ofBits .f32 0x3F800000#32) = _
  rw [Ideal.ofBits_one_f32]
  rfl

/-- The mean at (i, d). -/
theorem l2_mean (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (i : Fin 10000) (d : Fin 512) :
    val_main_v54 (F := Ideal) x0 x1 x2 x3 x4 (ix2 i d) = Cert.Sage.meanIn (val_main_v31 (F := Ideal) x0 x1 x2 x3 x4) x1 i d := by
  rw [val_main_v54_apply, l2_rowSum, l2_divisor]
  rfl

/-- The product of the means with the transposed left weights, at (i, o). -/
theorem l2_meanDot (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512x512, .f32⟩ : BufTy).Contents (Elt Ideal)) (i : Fin 10000) (o : Fin 512) :
    val_main_v56 (F := Ideal) x0 x1 x2 x3 x4 x5 (ix2 i o)
      = ∑ d : Fin 512, Cert.Sage.meanIn (val_main_v31 (F := Ideal) x0 x1 x2 x3 x4) x1 i d * x5 (ix2 o d) := by
  rw [val_main_v56_apply]
  refine Finset.sum_congr rfl fun k _ => ?_
  have hl : lidx_main_v56 (ix2 i o) k = ix2 i k := by
    funext a; refine Fin.ext ?_
    match a with
    | ⟨0, _⟩ => rfl
    | ⟨1, _⟩ => rfl
  have hr : idx_main_v55 (ridx_main_v56 (ix2 i o : S10000x512.Idx) k) = ix2 o k := by
    funext a; refine Fin.ext ?_
    match a with
    | ⟨0, _⟩ => rfl
    | ⟨1, _⟩ => rfl
  rw [val_main_v55_apply, hl, hr, l2_mean]

/-- The bias spread over the rows, at (i, o). -/
theorem l2_bias (x6 : (⟨S512, .f32⟩ : BufTy).Contents (Elt Ideal)) (i : Fin 10000) (o : Fin 512) :
    val_main_v58 (F := Ideal) x6 (ix2 i o) = x6 (ix1 o) := by
  have h : idx_main_v57 (idx_main_v58 (ix2 i o)) = ix1 o := by
    funext a; refine Fin.ext ?_
    match a with
    | ⟨0, _⟩ => rfl
  rw [val_main_v58_apply, val_main_v57_apply, h]

/-- The product of the input with the transposed right weights, at (i, o). -/
theorem l2_selfDot (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x7 : (⟨S512x512, .f32⟩ : BufTy).Contents (Elt Ideal)) (i : Fin 10000) (o : Fin 512) :
    val_main_v61 (F := Ideal) x0 x1 x2 x3 x4 x7 (ix2 i o) = ∑ d : Fin 512, (val_main_v31 (F := Ideal) x0 x1 x2 x3 x4) (ix2 i d) * x7 (ix2 o d) := by
  rw [val_main_v61_apply]
  refine Finset.sum_congr rfl fun k _ => ?_
  have hl : lidx_main_v61 (ix2 i o) k = ix2 i k := by
    funext a; refine Fin.ext ?_
    match a with
    | ⟨0, _⟩ => rfl
    | ⟨1, _⟩ => rfl
  have hr : idx_main_v60 (ridx_main_v61 (ix2 i o : S10000x512.Idx) k) = ix2 o k := by
    funext a; refine Fin.ext ?_
    match a with
    | ⟨0, _⟩ => rfl
    | ⟨1, _⟩ => rfl
  rw [val_main_v60_apply, hl, hr]

/-- The layer's output at (i, o). -/
theorem l2_out (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (i : Fin 10000) (o : Fin 512) :
    val_main_v62 (F := Ideal) x0 x1 x2 x3 x4 x5 x6 x7 (ix2 i o)
      = Cert.Sage.layerAt (val_main_v31 (F := Ideal) x0 x1 x2 x3 x4) x1 x5 x6 x7 i o := by
  rw [val_main_v62_apply, val_main_v59_apply, l2_meanDot, l2_bias, l2_selfDot]
  rfl

/-- The reference's last stage, at the ideal values, is the network. -/
theorem result_eq_net (x0 : (⟨S10000x512, .f32⟩ : BufTy).Contents (Elt Ideal)) (x1 : (⟨S2x160000, .i32⟩ : BufTy).Contents (Elt Ideal))
    (x2 : (⟨S512x512, .f32⟩ : BufTy).Contents (Elt Ideal)) (x3 : (⟨S512, .f32⟩ : BufTy).Contents (Elt Ideal))
    (x4 x5 : (⟨S512x512, .f32⟩ : BufTy).Contents (Elt Ideal)) (x6 : (⟨S512, .f32⟩ : BufTy).Contents (Elt Ideal))
    (x7 : (⟨S512x512, .f32⟩ : BufTy).Contents (Elt Ideal)) :
    val_main_v62 (F := Ideal) x0 x1 x2 x3 x4 x5 x6 x7 = Cert.Sage.net x0 x1 x2 x3 x4 x5 x6 x7 := by
  funext j
  obtain ⟨i, o, rfl⟩ : ∃ i o, j = ix2 i o := ⟨j 0, j 1, eq_ix2 j⟩
  rw [l2_out, l1_relu]
  rfl

end Cert.ReferenceIdeal.RefValue

end
-- ==== Proof.Algebra.lean ====
/-
  The two spellings of a layer agree over the reals.

  For a node i let S be the edges into i. Counting the edges of S by their source j and summing weight · x_j over all
  nodes is the same as summing x over the sources of the edges of S one by one, and the row total of the counts is
  the size of S; dividing before or after the sum makes no difference for real numbers. None of this holds at the
  infinities, which is why every entry of x is asked to be real; and it needs every edge word to name a node, so
  that no edge is dropped on one side and kept on the other.
-/
import proofs.«405564_j1906965479432_1_alg».proof.Proof.Spec
import Mathlib.Data.EReal.Basic
import Mathlib.Data.EReal.Operations
import Mathlib.Algebra.BigOperators.Group.Finset.Basic

noncomputable section

open scoped BigOperators

namespace Cert.Sage

open Idealize.ShloMosaic Idealize.ShloMosaic.ValueIdx

/-! ## Real numbers inside the extended reals -/

/-- The coercion of a finite real sum is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion is monotone, so it carries the larger of two reals to the larger of their images. -/
private theorem coe_max (a b : ℝ) : ((max a b : ℝ) : EReal) = max (a : EReal) (b : EReal) :=
  EReal.coe_strictMono.monotone.map_max

/-- A sum of ones over a finite set is the number of its elements. -/
private theorem sum_ones {ι : Type} (s : Finset ι) : (∑ _e ∈ s, (1 : EReal)) = ((s.card : ℝ) : EReal) := by
  rw [← EReal.coe_one, ← coe_sum]
  simp

private theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

private theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

private theorem real_sum {ι : Type} (s : Finset ι) {f : ι → EReal} (h : ∀ i, ∃ r : ℝ, f i = (r : EReal)) :
    ∃ r : ℝ, ∑ i ∈ s, f i = (r : EReal) := by
  choose g hg using h
  exact ⟨∑ i ∈ s, g i, by rw [coe_sum]; exact Finset.sum_congr rfl (fun i _ => hg i)⟩

/-- Dividing a real by a nonzero real is multiplying by the reciprocal, inside the reals. -/
private theorem div_real (a : ℝ) {c : ℝ} (hc : c ≠ 0) :
    Ideal.div (a : EReal) (c : EReal) = ((a * (1 / c) : ℝ) : EReal) := by
  rw [Ideal.div_coe hc, EReal.coe_mul]

/-! ## The mean over the edges into a node, as a real number -/

/-- max(number of edges into i, 1) as a real; it is at least one, so not zero. -/
private def deg (edge : Edges) (i : Fin 10000) : ℝ := max ((inEdges edge i).card : ℝ) 1

private theorem deg_ne_zero (edge : Edges) (i : Fin 10000) : deg edge i ≠ 0 := by
  have h : (1 : ℝ) ≤ deg edge i := le_max_right _ _
  intro h0
  rw [h0] at h
  exact absurd h (by norm_num)

private theorem degree_eq (edge : Edges) (i : Fin 10000) : degree edge i = ((deg edge i : ℝ) : EReal) := by
  unfold degree deg
  rw [zero_add, sum_ones, coe_max, EReal.coe_one]

private theorem meanIn_eq {x : Feat} (xr : (⟨2, ![10000, 512]⟩ : Shape).Idx → ℝ) (hxr : ∀ k, x k = (xr k : EReal))
    (edge : Edges) (i : Fin 10000) (d : Fin 512) :
    meanIn x edge i d
      = (((∑ e ∈ inEdges edge i, xr (ix2 (srcRow edge e) d)) * (1 / deg edge i) : ℝ) : EReal) := by
  unfold meanIn
  rw [zero_add, degree_eq, Finset.sum_congr rfl (fun e _ => hxr (ix2 (srcRow edge e) d)), ← coe_sum,
    div_real _ (deg_ne_zero edge i)]

/-! ## The counts by source, when every edge word names a node -/

private theorem wrap_eq {w : BitVec 32} (h : 0 ≤ w.toInt) : wrap w = w := by
  unfold wrap
  rw [if_neg (not_lt.mpr h)]

/-- In range, the row read for an edge's source is the source word itself. -/
private theorem srcRow_val {edge : Edges} (hE : InRange edge) (e : Fin 160000) :
    (((srcRow edge e).val : ℕ) : ℤ) = (edge (ix2 0 e)).toInt := by
  obtain ⟨h0, h1⟩ := hE (ix2 0 e)
  unfold srcRow row
  rw [wrap_eq h0]
  show ((min (edge (ix2 0 e)).toInt.toNat 9999 : ℕ) : ℤ) = (edge (ix2 0 e)).toInt
  omega

/-- In range, the edges counted by the entry (i, j) are the edges into i whose source row is j. -/
private theorem adj_filter {edge : Edges} (hE : InRange edge) (i j : Fin 10000) :
    (Finset.univ.filter (fun e : Fin 160000 =>
      (wrap (edge (ix2 1 e))).toInt = (i.val : ℤ) ∧ (wrap (edge (ix2 0 e))).toInt = (j.val : ℤ)))
      = (inEdges edge i).filter (fun e => srcRow edge e = j) := by
  ext e
  simp only [inEdges, Finset.mem_filter, Finset.mem_univ, true_and]
  rw [wrap_eq (hE (ix2 1 e)).1, wrap_eq (hE (ix2 0 e)).1, ← srcRow_val hE e]
  constructor
  · rintro ⟨h1, h2⟩
    exact ⟨h1, Fin.ext (by exact_mod_cast h2)⟩
  · rintro ⟨h1, h2⟩
    exact ⟨h1, by rw [h2]⟩

private theorem adj_eq {edge : Edges} (hE : InRange edge) (i j : Fin 10000) :
    adj edge i j = ((((inEdges edge i).filter (fun e => srcRow edge e = j)).card : ℝ) : EReal) := by
  unfold adj
  rw [zero_add, sum_ones, adj_filter hE]

/-- Every edge into i has exactly one source row, so the counts of row i add up to the number of edges into i. -/
private theorem rowTotal_eq {edge : Edges} (hE : InRange edge) (i : Fin 10000) :
    rowTotal edge i = (((inEdges edge i).card : ℝ) : EReal) := by
  unfold rowTotal
  rw [zero_add, Finset.sum_congr rfl (fun j _ => adj_eq hE i j), ← coe_sum, ← Nat.cast_sum,
    ← Finset.card_eq_sum_card_fiberwise (fun e _ => Finset.mem_univ (srcRow edge e))]

private theorem weight_eq {edge : Edges} (hE : InRange edge) (i j : Fin 10000) :
    weight edge i j
      = (((((inEdges edge i).filter (fun e => srcRow edge e = j)).card : ℝ) * (1 / deg edge i) : ℝ) : EReal) := by
  unfold weight
  rw [adj_eq hE, rowTotal_eq hE, ← EReal.coe_one, ← coe_max]
  exact div_real _ (deg_ne_zero edge i)

/-- Grouping the edges into i by their source row: the weighted sum over all nodes is the mean over those edges. -/
private theorem dense_mean {x : Feat} {edge : Edges} (hE : InRange edge) (hx : IsReal x) (i : Fin 10000)
    (d : Fin 512) : (∑ j : Fin 10000, weight edge i j * x (ix2 j d)) = meanIn x edge i d := by
  choose xr hxr using hx
  have hterm : ∀ j : Fin 10000, weight edge i j * x (ix2 j d)
      = (((((inEdges edge i).filter (fun e => srcRow edge e = j)).card : ℝ) * (1 / deg edge i)
          * xr (ix2 j d) : ℝ) : EReal) := by
    intro j
    rw [weight_eq hE, hxr, ← EReal.coe_mul]
  rw [meanIn_eq xr hxr, Finset.sum_congr rfl (fun j _ => hterm j), ← coe_sum]
  congr 1
  rw [← Finset.sum_fiberwise' (inEdges edge i) (srcRow edge) (fun j => xr (ix2 j d)), Finset.sum_mul]
  refine Finset.sum_congr rfl (fun j _ => ?_)
  rw [Finset.sum_const, nsmul_eq_mul]
  ring

/-! ## The statements -/

/-- The rectifier of a real array is real. -/
theorem relu_isReal {y : Feat} (h : IsReal y) : IsReal (relu y) := by
  intro j
  obtain ⟨r, hr⟩ := h j
  refine ⟨max r 0, ?_⟩
  show max (y j) 0 = ((max r 0 : ℝ) : EReal)
  rw [hr, coe_max, EReal.coe_zero]

/-- A layer of real features through real weights and a real bias is real. -/
theorem layer_isReal {x : Feat} {edge : Edges} {Wl : Wt} {b : Bias} {Wr : Wt}
    (hx : IsReal x) (hWl : IsReal Wl) (hb : IsReal b) (hWr : IsReal Wr) : IsReal (layer x edge Wl b Wr) := by
  intro k
  show ∃ r : ℝ, layerAt x edge Wl b Wr (k 0) (k 1) = (r : EReal)
  unfold layerAt
  refine real_add (real_add (real_sum _ (fun d => real_mul ?_ (hWl _))) (hb _))
    (real_sum _ (fun d => real_mul (hx _) (hWr _)))
  obtain ⟨xr, hxr⟩ : ∃ xr : (⟨2, ![10000, 512]⟩ : Shape).Idx → ℝ, ∀ k, x k = (xr k : EReal) :=
    ⟨fun k => (hx k).choose, fun k => (hx k).choose_spec⟩
  exact ⟨_, meanIn_eq xr hxr edge (k 0) d⟩

private theorem denseLayerAt_eq {x : Feat} {edge : Edges} (hE : InRange edge) (hx : IsReal x) (Wl : Wt) (b : Bias)
    (Wr : Wt) (i : Fin 10000) (o : Fin 512) : denseLayerAt x edge Wl b Wr i o = layerAt x edge Wl b Wr i o := by
  unfold denseLayerAt layerAt
  rw [Finset.sum_congr rfl (fun d _ => by rw [dense_mean hE hx i d])]

/-- The two spellings of one layer agree on real features when every edge word names a node. -/
theorem denseLayer_eq_layer {x : Feat} {edge : Edges} (hE : InRange edge) (hx : IsReal x) (Wl : Wt) (b : Bias) (Wr : Wt) :
    denseLayer x edge Wl b Wr = layer x edge Wl b Wr := by
  funext k
  show denseLayerAt x edge Wl b Wr (k 0) (k 1) = layerAt x edge Wl b Wr (k 0) (k 1)
  exact denseLayerAt_eq hE hx Wl b Wr (k 0) (k 1)

/-- So do the two spellings of the network: the first layer's output is real, so the second layer's law applies. -/
theorem denseNet_eq_net {x : Feat} {edge : Edges} {W1l : Wt} {b1 : Bias} {W1r : Wt} (W2l : Wt) (b2 : Bias) (W2r : Wt)
    (hE : InRange edge) (hx : IsReal x) (hW1l : IsReal W1l) (hb1 : IsReal b1) (hW1r : IsReal W1r) :
    denseNet x edge W1l b1 W1r W2l b2 W2r = net x edge W1l b1 W1r W2l b2 W2r := by
  unfold denseNet net
  rw [denseLayer_eq_layer hE hx W1l b1 W1r,
    denseLayer_eq_layer hE (relu_isReal (layer_isReal hx hW1l hb1 hW1r)) W2l b2 W2r]

end Cert.Sage

end
-- ==== Proof.PreDecode.lean ====
/-
  What the precondition says of the argument arrays: every entry of each float array is a real number, and every word
  of the edge list, read signed, lies in [0, 10000).
-/
import proofs.«405564_j1906965479432_1_alg».proof.Pre_finite_inputs
import proofs.«405564_j1906965479432_1_alg».proof.Proof.Spec
import Idealize.ShloMosaic.Lib.ReduceAll
import Idealize.ShloMosaic.Lib.StableHlo.Predicate

noncomputable section

namespace Cert.PreDecode

open Idealize.ShloMosaic Idealize.ShloMosaic.ValueIdx Cert.Sage

/-- The scalar shape has one index. -/
instance subsingleton_scalar_idx : Subsingleton Cert.Pre_finite_inputs.S_.Idx :=
  ⟨fun a b => funext fun d => d.elim0⟩

/-- The f32 pattern with all exponent bits set and nothing else denotes +∞. -/
theorem inf_pattern : Ideal.ofBits .f32 0x7F800000#32 = ⊤ := by simp [Ideal.ofBits, Ideal.ieee]

/-- An extended real whose absolute value max(a, -a) lies strictly below +∞ is neither infinity: it is a real. -/
theorem real_of_abs_lt_inf (a : EReal)
    (h : Ideal.cmp .olt (max a (-a)) (Ideal.ofBits .f32 0x7F800000#32) = 1#1) : ∃ r : ℝ, a = (r : EReal) := by
  rw [inf_pattern] at h
  unfold Ideal.cmp at h
  rw [StableHlo.Predicate.ofBool_eq_one_iff, decide_eq_true_eq, max_lt_iff] at h
  obtain ⟨h1, h2⟩ := h
  induction a using EReal.rec with
  | bot => exact absurd h2 (by simp)
  | top => exact absurd h1 (lt_irrefl _)
  | coe r => exact ⟨r, rfl⟩

/-- If the and-reduce over ALL axes of "|a| < +∞" came out 1, every entry of a is a real; at any shape. -/
theorem isReal_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (init : IVec Cert.Pre_finite_inputs.S_ 1)
    (e : Host.reduce IntOp.andi
          (cmpf .olt (Host.absf a) (broadcastInDim s ![] hb (constant Cert.Pre_finite_inputs.S_ .f32 0x7F800000#32)))
          init hr h0 ix0 = 1#1) :
    IsReal a := by
  intro i
  have hi := Host.reduce_andi_all _ init hr h0 ix0 e i
  exact real_of_abs_lt_inf (a i) hi

/-- If the and-reduce over all axes of "0 ≤ w ∧ w < 10000" (signed) came out 1, every edge word names a node. -/
theorem inRange_of_all (edge : IVec Cert.Pre_finite_inputs.S2x160000 32)
    (hb : Cert.Pre_finite_inputs.S_.BroadcastsInDim Cert.Pre_finite_inputs.S2x160000
            (![] : Fin 0 → Fin Cert.Pre_finite_inputs.S2x160000.rank))
    (hr : Cert.Pre_finite_inputs.S2x160000.ReducesTo [0, 1] Cert.Pre_finite_inputs.S_)
    (h0 : 0 < Cert.Pre_finite_inputs.S_.numel) (init : IVec Cert.Pre_finite_inputs.S_ 1)
    (e : Host.reduce IntOp.andi
          (andi (cmpi .sge edge (broadcastInDim Cert.Pre_finite_inputs.S2x160000 ![] hb
                    (constantI Cert.Pre_finite_inputs.S_ 32 0#32)))
                (cmpi .slt edge (broadcastInDim Cert.Pre_finite_inputs.S2x160000 ![] hb
                    (constantI Cert.Pre_finite_inputs.S_ 32 10000#32))))
          init hr h0 ix0 = 1#1) :
    InRange edge := by
  intro i
  have hi := Host.reduce_andi_all _ init hr h0 ix0 e i
  obtain ⟨hge, hlt⟩ := IntOp.andi_eq_one.1 hi
  have hge' := IntOp.cmpi_sge.1 hge
  have hlt' := IntOp.cmpi_slt.1 hlt
  have z0 : (0#32 : BitVec 32).toInt = 0 := by decide
  have z1 : (10000#32 : BitVec 32).toInt = 10000 := by decide
  exact ⟨z0 ▸ hge', z1 ▸ hlt'⟩

/-- The precondition, all ones, read conjunct by conjunct. -/
theorem decode [Cert.Pre_finite_inputs.Facts]
    (x : FVec Ideal Cert.Pre_finite_inputs.S10000x512 .f32) (edge : IVec Cert.Pre_finite_inputs.S2x160000 32)
    (W1l : FVec Ideal Cert.Pre_finite_inputs.S512x512 .f32) (b1 : FVec Ideal Cert.Pre_finite_inputs.S512 .f32)
    (W1r W2l : FVec Ideal Cert.Pre_finite_inputs.S512x512 .f32) (b2 : FVec Ideal Cert.Pre_finite_inputs.S512 .f32)
    (W2r : FVec Ideal Cert.Pre_finite_inputs.S512x512 .f32)
    (h : Cert.Pre_finite_inputs.fn (F := Ideal) x edge W1l b1 W1r W2l b2 W2r = fun _ => 1#1) :
    IsReal x ∧ InRange edge ∧ IsReal W1l ∧ IsReal b1 ∧ IsReal W1r ∧ IsReal W2l ∧ IsReal b2 ∧ IsReal W2r := by
  have e := congrFun h ix0
  unfold Cert.Pre_finite_inputs.fn Cert.Pre_finite_inputs.fn_part1 Cert.Pre_finite_inputs.fn_part2 at e
  dsimp only at e
  -- the conjunction is nested to the left, in the order x, W1l, b1, W1r, W2l, b2, W2r, edge
  obtain ⟨e, hedge⟩ := IntOp.andi_eq_one.1 e
  obtain ⟨e, hW2r⟩ := IntOp.andi_eq_one.1 e
  obtain ⟨e, hb2⟩ := IntOp.andi_eq_one.1 e
  obtain ⟨e, hW2l⟩ := IntOp.andi_eq_one.1 e
  obtain ⟨e, hW1r⟩ := IntOp.andi_eq_one.1 e
  obtain ⟨e, hb1⟩ := IntOp.andi_eq_one.1 e
  obtain ⟨hx, hW1l⟩ := IntOp.andi_eq_one.1 e
  exact ⟨isReal_of_all x _ _ _ _ hx, inRange_of_all edge _ _ _ _ hedge, isReal_of_all W1l _ _ _ _ hW1l,
    isReal_of_all b1 _ _ _ _ hb1, isReal_of_all W1r _ _ _ _ hW1r, isReal_of_all W2l _ _ _ _ hW2l,
    isReal_of_all b2 _ _ _ _ hb2, isReal_of_all W2r _ _ _ _ hW2r⟩

end Cert.PreDecode

end
-- ==== Proof.Claims.lean ====
/-
  The five claims.

  The frames of the two kernel programs are the run of Run.lean with everything but the arguments forgotten; the
  reference's frame is its run with the result forgotten. The ideal pass rewrote nothing, so there is nothing to
  preserve. For the value claim both programs end, on arguments that agree, at the SAME array: the kernel's result is
  the dense-count spelling of the two-layer network on its arguments (Result.lean), which over real features and
  in-range edge words is the per-edge spelling (Algebra.lean; the precondition gives both hypotheses,
  PreDecode.lean), and the reference's result is the per-edge spelling outright (RefValue.lean).
-/
import proofs.«405564_j1906965479432_1_alg».proof.Defs
import proofs.«405564_j1906965479432_1_alg».proof.Proof.Gen.Kernel
import proofs.«405564_j1906965479432_1_alg».proof.Proof.Gen.KernelIdeal
import proofs.«405564_j1906965479432_1_alg».proof.Proof.Gen.ReferenceIdeal
import proofs.«405564_j1906965479432_1_alg».proof.Proof.Gen.Pre_finite_inputs
import proofs.«405564_j1906965479432_1_alg».proof.Proof.K.Run
import proofs.«405564_j1906965479432_1_alg».proof.Proof.KI.Result
import proofs.«405564_j1906965479432_1_alg».proof.Proof.RefValue
import proofs.«405564_j1906965479432_1_alg».proof.Proof.Algebra
import proofs.«405564_j1906965479432_1_alg».proof.Proof.PreDecode

noncomputable section

namespace Cert.Proof.Claims

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · -- the kernel: every unscoped buffer ends at the last boundary's contents; read the result and the arguments
    refine (θ_run Cert.KernelIdeal.defs _ _).mono (fun r h c => ?_) (Cert.KernelIdeal.Hand.run_all (F := Ideal) m ρ)
    obtain ⟨hx, hE, hW1l, hb1, hW1r, -, -, -⟩ := Cert.PreDecode.decode _ _ _ _ _ _ _ _ (hpre c)
    refine ⟨?_, (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c),
      (h c _ (Cert.KernelIdeal.Hand.mem_uc Cert.KernelIdeal.main_arg7 (by decide))).trans (Cert.KernelIdeal.Hand.W4_main_arg7 m ρ c)⟩
    exact (h c _ (Cert.KernelIdeal.Hand.mem_uc Cert.KernelIdeal.main_v40 (by decide))).trans
      ((Cert.KernelIdeal.Hand.result_eq m ρ c).trans (Cert.Sage.denseNet_eq_net _ _ _ hE hx hW1l hb1 hW1r))
  · -- the reference: its run's result is the network of its own arguments, which are the kernel's
    refine (θ_run Cert.ReferenceIdeal.defs _ _).mono (fun r h c => ⟨?_, (h c).2⟩) (Cert.ReferenceIdeal.Value.run (F := Ideal) m' ρ')
    rw [(h c).1, Cert.ReferenceIdeal.Read.val_main_v62_eq, Cert.ReferenceIdeal.RefValue.result_eq_net,
      (hagree c).1, (hagree c).2.1, (hagree c).2.2.1, (hagree c).2.2.2.1, (hagree c).2.2.2.2.1, (hagree c).2.2.2.2.2.1,
      (hagree c).2.2.2.2.2.2.1, (hagree c).2.2.2.2.2.2.2]

end Cert.Proof.Claims

end
-- ==== Proof.lean ====
/- The proof of `Cert.Claim`: a two-layer neighbourhood-mean graph network computed through a dense matrix of
   normalised edge counts (two kernel regions around host operations) against the same network computed edge by edge
   on the host, equal over the extended reals whenever every float argument is finite and every edge word names a
   node. The claims are proved in Proof/Claims.lean over the modules it names; here they stand behind the witnesses of
   the programs' stated side conditions. -/
import proofs.«405564_j1906965479432_1_alg».proof.Defs
import proofs.«405564_j1906965479432_1_alg».proof.Proof.Gen.Kernel
import proofs.«405564_j1906965479432_1_alg».proof.Proof.Gen.Kernel.Skeleton
import proofs.«405564_j1906965479432_1_alg».proof.Proof.Gen.Kernel.Launch
import proofs.«405564_j1906965479432_1_alg».proof.Proof.Gen.Kernel.Regions
import proofs.«405564_j1906965479432_1_alg».proof.Proof.Gen.Kernel.Points
import proofs.«405564_j1906965479432_1_alg».proof.Proof.Gen.KernelIdeal
import proofs.«405564_j1906965479432_1_alg».proof.Proof.Gen.KernelIdeal.Skeleton
import proofs.«405564_j1906965479432_1_alg».proof.Proof.Gen.KernelIdeal.Launch
import proofs.«405564_j1906965479432_1_alg».proof.Proof.Gen.KernelIdeal.Regions
import proofs.«405564_j1906965479432_1_alg».proof.Proof.Gen.KernelIdeal.Points
import proofs.«405564_j1906965479432_1_alg».proof.Proof.Gen.ReferenceIdeal
import proofs.«405564_j1906965479432_1_alg».proof.Proof.Gen.Pre_finite_inputs
import proofs.«405564_j1906965479432_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
